-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S3072 : Shape := ⟨1, ![3072]⟩
abbrev S64 : Shape := ⟨1, ![64]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S2x2048x1024 .f32) (main_arg1 : FVec F S3072x1024 .f32) (main_arg2 : FVec F S3072 .f32) (main_arg3 : FVec F S64 .f32) (main_arg4 : FVec F S64 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_v13 main_v16
-- ==== Kernel.lean ====
abbrev S2x2048x1024 : Shape := ⟨3, ![2, 2048, 1024]⟩
abbrev S3072x1024 : Shape := ⟨2, ![3072, 1024]⟩
abbrev S3072 : Shape := ⟨1, ![3072]⟩
abbrev S64 : Shape := ⟨1, ![64]⟩
abbrev S16x64x3x1024 : Shape := ⟨4, ![16, 64, 3, 1024]⟩
abbrev S3x16x64x1024 : Shape := ⟨4, ![3, 16, 64, 1024]⟩
abbrev S1024x3072 : Shape := ⟨2, ![1024, 3072]⟩
abbrev S16x64x3 : Shape := ⟨3, ![16, 64, 3]⟩
abbrev S3x16x64 : Shape := ⟨3, ![3, 16, 64]⟩
abbrev S2x16x2048x64 : Shape := ⟨4, ![2, 16, 2048, 64]⟩
abbrev S1x256x1024 : Shape := ⟨3, ![1, 256, 1024]⟩
abbrev S1x16x256x64 : Shape := ⟨4, ![1, 16, 256, 64]⟩
abbrev S256x1024 : Shape := ⟨2, ![256, 1024]⟩
abbrev S256x3072 : Shape := ⟨2, ![256, 3072]⟩
abbrev S1x3072 : Shape := ⟨2, ![1, 3072]⟩
abbrev S256x64 : Shape := ⟨2, ![256, 64]⟩
abbrev S256 : Shape := ⟨1, ![256]⟩
abbrev S256x1 : Shape := ⟨2, ![256, 1]⟩
abbrev S1x64 : Shape := ⟨2, ![1, 64]⟩
abbrev S1x1x256x64 : Shape := ⟨4, ![1, 1, 256, 64]⟩
abbrev S1x16x2048x64 : Shape := ⟨4, ![1, 16, 2048, 64]⟩
abbrev S1x1x2048x64 : Shape := ⟨4, ![1, 1, 2048, 64]⟩
abbrev S2048x64 : Shape := ⟨2, ![2048, 64]⟩
abbrev S64x2048 : Shape := ⟨2, ![64, 2048]⟩
abbrev S256x2048 : Shape := ⟨2, ![256, 2048]⟩
abbrev S2x2048x16x64 : Shape := ⟨4, ![2, 2048, 16, 64]⟩

abbrev nBuf : Space → Nat
  | .hbm => 19
  | .vmem => 20
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S3072, .f32⟩
  | .hbm, ⟨3, _⟩ => ⟨S64, .f32⟩
  | .hbm, ⟨4, _⟩ => ⟨S64, .f32⟩
  | .hbm, ⟨5, _⟩ => ⟨S16x64x3x1024, .f32⟩
  | .hbm, ⟨6, _⟩ => ⟨S3x16x64x1024, .f32⟩
  | .hbm, ⟨7, _⟩ => ⟨S3072x1024, .f32⟩
  | .hbm, ⟨8, _⟩ => ⟨S1024x3072, .f32⟩
  | .hbm, ⟨9, _⟩ => ⟨S1024x3072, .bf16⟩
  | .hbm, ⟨10, _⟩ => ⟨S16x64x3, .f32⟩
  | .hbm, ⟨11, _⟩ => ⟨S3x16x64, .f32⟩
  | .hbm, ⟨12, _⟩ => ⟨S3072, .f32⟩
  | .hbm, ⟨13, _⟩ => ⟨S2x16x2048x64, .bf16⟩
  | .hbm, ⟨14, _⟩ => ⟨S2x16x2048x64, .bf16⟩
  | .hbm, ⟨15, _⟩ => ⟨S2x16x2048x64, .bf16⟩
  | .hbm, ⟨16, _⟩ => ⟨S2x16x2048x64, .f32⟩
  | .hbm, ⟨17, _⟩ => ⟨S2x2048x16x64, .f32⟩
  | .hbm, ⟨18, _⟩ => ⟨S2x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1024x3072, .bf16⟩
  | .local _ .vmem, ⟨3, _⟩ => ⟨S3072, .f32⟩
  | .local _ .vmem, ⟨4, _⟩ => ⟨S64, .f32⟩
  | .local _ .vmem, ⟨5, _⟩ => ⟨S64, .f32⟩
  | .local _ .vmem, ⟨6, _⟩ => ⟨S1x16x256x64, .bf16⟩
  | .local _ .vmem, ⟨7, _⟩ => ⟨S1x16x256x64, .bf16⟩
  | .local _ .vmem, ⟨8, _⟩ => ⟨S1x16x256x64, .bf16⟩
  | .local _ .vmem, ⟨9, _⟩ => ⟨S1x16x256x64, .bf16⟩
  | .local _ .vmem, ⟨10, _⟩ => ⟨S1x16x256x64, .bf16⟩
  | .local _ .vmem, ⟨11, _⟩ => ⟨S1x16x256x64, .bf16⟩
  | .local _ .vmem, ⟨12, _⟩ => ⟨S1x16x256x64, .bf16⟩
  | .local _ .vmem, ⟨13, _⟩ => ⟨S1x16x256x64, .bf16⟩
  | .local _ .vmem, ⟨14, _⟩ => ⟨S1x16x2048x64, .bf16⟩
  | .local _ .vmem, ⟨15, _⟩ => ⟨S1x16x2048x64, .bf16⟩
  | .local _ .vmem, ⟨16, _⟩ => ⟨S1x16x2048x64, .bf16⟩
  | .local _ .vmem, ⟨17, _⟩ => ⟨S1x16x2048x64, .bf16⟩
  | .local _ .vmem, ⟨18, _⟩ => ⟨S1x16x256x64, .f32⟩
  | .local _ .vmem, ⟨19, _⟩ => ⟨S1x16x256x64, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x16x256x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x256x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x256x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![2, 8], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S1x16x256x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x16x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x16x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x16x256x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S3072x1024_S16x64x3x1024 : S3072x1024.ShapeCasts S16x64x3x1024
  transposes_S16x64x3x1024_S3x16x64x1024_2_0_1_3 : S16x64x3x1024.Transposes [2, 0, 1, 3] S3x16x64x1024
  shapeCasts_S3x16x64x1024_S3072x1024 : S3x16x64x1024.ShapeCasts S3072x1024
  transposes_S3072x1024_S1024x3072_1_0 : S3072x1024.Transposes [1, 0] S1024x3072
  bitsLt_bf16_f32 : FTy.bits .bf16 < FTy.bits .f32
  shapeCasts_S3072_S16x64x3 : S3072.ShapeCasts S16x64x3
  transposes_S16x64x3_S3x16x64_2_0_1 : S16x64x3.Transposes [2, 0, 1] S3x16x64
  shapeCasts_S3x16x64_S3072 : S3x16x64.ShapeCasts S3072
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S3072_S3072_0 : ∀ a, (![0] : Fin 1 → Nat) a + S3072.size a ≤ S3072.size a
  h_S3072 : 0 < S3072.numel
  shapeCasts_S3072_S3072 : S3072.ShapeCasts S3072
  shapeCasts_S3072_S1x3072 : S3072.ShapeCasts S1x3072
  broadcasts_S1x3072_S256x3072 : S1x3072.Broadcasts S256x3072
  inb_S64_S64_0 : ∀ a, (![0] : Fin 1 → Nat) a + S64.size a ≤ S64.size a
  h_S64 : 0 < S64.numel
  slices_S256x3072_o0_0_S256x64 : S256x3072.Slices ![0, 0] S256x64
  slices_S256x3072_o0_1024_S256x64 : S256x3072.Slices ![0, 1024] S256x64
  slices_S256x3072_o0_2048_S256x64 : S256x3072.Slices ![0, 2048] S256x64
  reduces_S256x64_S256 : S256x64.Reduces [1] S256
  shapeCasts_S256_S256x1 : S256.ShapeCasts S256x1
  broadcasts_S256x1_S256x64 : S256x1.Broadcasts S256x64
  shapeCasts_S64_S1x64 : S64.ShapeCasts S1x64
  broadcasts_S1x64_S256x64 : S1x64.Broadcasts S256x64
  inb_S1x16x256x64_S1x1x256x64_0_0_0_0 : ∀ a, (![0, 0, 0, 0] : Fin 4 → Nat) a + S1x1x256x64.size a ≤ S1x16x256x64.size a
  h_S1x1x256x64 : 0 < S1x1x256x64.numel
  shapeCasts_S1x1x256x64_S256x64 : S1x1x256x64.ShapeCasts S256x64
  shapeCasts_S256x64_S1x1x256x64 : S256x64.ShapeCasts S1x1x256x64
  packedbf16_S1x16x256x64_S1x1x256x64_0_0_0_0 : (Rect.unit (s := S1x16x256x64) ![0, 0, 0, 0] S1x1x256x64.size inb_S1x16x256x64_S1x1x256x64_0_0_0_0).PackedRows (EltTy.packing .bf16)
  slices_S256x3072_o0_64_S256x64 : S256x3072.Slices ![0, 64] S256x64
  slices_S256x3072_o0_1088_S256x64 : S256x3072.Slices ![0, 1088] S256x64
  slices_S256x3072_o0_2112_S256x64 : S256x3072.Slices ![0, 2112] S256x64
  inb_S1x16x256x64_S1x1x256x64_0_1_0_0 : ∀ a, (![0, 1, 0, 0] : Fin 4 → Nat) a + S1x1x256x64.size a ≤ S1x16x256x64.size a
  packedbf16_S1x16x256x64_S1x1x256x64_0_1_0_0 : (Rect.unit (s := S1x16x256x64) ![0, 1, 0, 0] S1x1x256x64.size inb_S1x16x256x64_S1x1x256x64_0_1_0_0).PackedRows (EltTy.packing .bf16)
  slices_S256x3072_o0_128_S256x64 : S256x3072.Slices ![0, 128] S256x64
  slices_S256x3072_o0_1152_S256x64 : S256x3072.Slices ![0, 1152] S256x64
  slices_S256x3072_o0_2176_S256x64 : S256x3072.Slices ![0, 2176] S256x64
  inb_S1x16x256x64_S1x1x256x64_0_2_0_0 : ∀ a, (![0, 2, 0, 0] : Fin 4 → Nat) a + S1x1x256x64.size a ≤ S1x16x256x64.size a
  packedbf16_S1x16x256x64_S1x1x256x64_0_2_0_0 : (Rect.unit (s := S1x16x256x64) ![0, 2, 0, 0] S1x1x256x64.size inb_S1x16x256x64_S1x1x256x64_0_2_0_0).PackedRows (EltTy.packing .bf16)
  slices_S256x3072_o0_192_S256x64 : S256x3072.Slices ![0, 192] S256x64
  slices_S256x3072_o0_1216_S256x64 : S256x3072.Slices ![0, 1216] S256x64
  slices_S256x3072_o0_2240_S256x64 : S256x3072.Slices ![0, 2240] S256x64
  inb_S1x16x256x64_S1x1x256x64_0_3_0_0 : ∀ a, (![0, 3, 0, 0] : Fin 4 → Nat) a + S1x1x256x64.size a ≤ S1x16x256x64.size a
  packedbf16_S1x16x256x64_S1x1x256x64_0_3_0_0 : (Rect.unit (s := S1x16x256x64) ![0, 3, 0, 0] S1x1x256x64.size inb_S1x16x256x64_S1x1x256x64_0_3_0_0).PackedRows (EltTy.packing .bf16)
  slices_S256x3072_o0_256_S256x64 : S256x3072.Slices ![0, 256] S256x64
  slices_S256x3072_o0_1280_S256x64 : S256x3072.Slices ![0, 1280] S256x64
  slices_S256x3072_o0_2304_S256x64 : S256x3072.Slices ![0, 2304] S256x64
  inb_S1x16x256x64_S1x1x256x64_0_4_0_0 : ∀ a, (![0, 4, 0, 0] : Fin 4 → Nat) a + S1x1x256x64.size a ≤ S1x16x256x64.size a
  packedbf16_S1x16x256x64_S1x1x256x64_0_4_0_0 : (Rect.unit (s := S1x16x256x64) ![0, 4, 0, 0] S1x1x256x64.size inb_S1x16x256x64_S1x1x256x64_0_4_0_0).PackedRows (EltTy.packing .bf16)
  slices_S256x3072_o0_320_S256x64 : S256x3072.Slices ![0, 320] S256x64
  slices_S256x3072_o0_1344_S256x64 : S256x3072.Slices ![0, 1344] S256x64
  slices_S256x3072_o0_2368_S256x64 : S256x3072.Slices ![0, 2368] S256x64
  inb_S1x16x256x64_S1x1x256x64_0_5_0_0 : ∀ a, (![0, 5, 0, 0] : Fin 4 → Nat) a + S1x1x256x64.size a ≤ S1x16x256x64.size a
  packedbf16_S1x16x256x64_S1x1x256x64_0_5_0_0 : (Rect.unit (s := S1x16x256x64) ![0, 5, 0, 0] S1x1x256x64.size inb_S1x16x256x64_S1x1x256x64_0_5_0_0).PackedRows (EltTy.packing .bf16)
  slices_S256x3072_o0_384_S256x64 : S256x3072.Slices ![0, 384] S256x64
  slices_S256x3072_o0_1408_S256x64 : S256x3072.Slices ![0, 1408] S256x64
  slices_S256x3072_o0_2432_S256x64 : S256x3072.Slices ![0, 2432] S256x64
  inb_S1x16x256x64_S1x1x256x64_0_6_0_0 : ∀ a, (![0, 6, 0, 0] : Fin 4 → Nat) a + S1x1x256x64.size a ≤ S1x16x256x64.size a
  packedbf16_S1x16x256x64_S1x1x256x64_0_6_0_0 : (Rect.unit (s := S1x16x256x64) ![0, 6, 0, 0] S1x1x256x64.size inb_S1x16x256x64_S1x1x256x64_0_6_0_0).PackedRows (EltTy.packing .bf16)
  slices_S256x3072_o0_448_S256x64 : S256x3072.Slices ![0, 448] S256x64
  slices_S256x3072_o0_1472_S256x64 : S256x3072.Slices ![0, 1472] S256x64
  slices_S256x3072_o0_2496_S256x64 : S256x3072.Slices ![0, 2496] S256x64
  inb_S1x16x256x64_S1x1x256x64_0_7_0_0 : ∀ a, (![0, 7, 0, 0] : Fin 4 → Nat) a + S1x1x256x64.size a ≤ S1x16x256x64.size a
  packedbf16_S1x16x256x64_S1x1x256x64_0_7_0_0 : (Rect.unit (s := S1x16x256x64) ![0, 7, 0, 0] S1x1x256x64.size inb_S1x16x256x64_S1x1x256x64_0_7_0_0).PackedRows (EltTy.packing .bf16)
  slices_S256x3072_o0_512_S256x64 : S256x3072.Slices ![0, 512] S256x64
  slices_S256x3072_o0_1536_S256x64 : S256x3072.Slices ![0, 1536] S256x64
  slices_S256x3072_o0_2560_S256x64 : S256x3072.Slices ![0, 2560] S256x64
  inb_S1x16x256x64_S1x1x256x64_0_8_0_0 : ∀ a, (![0, 8, 0, 0] : Fin 4 → Nat) a + S1x1x256x64.size a ≤ S1x16x256x64.size a
  packedbf16_S1x16x256x64_S1x1x256x64_0_8_0_0 : (Rect.unit (s := S1x16x256x64) ![0, 8, 0, 0] S1x1x256x64.size inb_S1x16x256x64_S1x1x256x64_0_8_0_0).PackedRows (EltTy.packing .bf16)
  slices_S256x3072_o0_576_S256x64 : S256x3072.Slices ![0, 576] S256x64
  slices_S256x3072_o0_1600_S256x64 : S256x3072.Slices ![0, 1600] S256x64
  slices_S256x3072_o0_2624_S256x64 : S256x3072.Slices ![0, 2624] S256x64
  inb_S1x16x256x64_S1x1x256x64_0_9_0_0 : ∀ a, (![0, 9, 0, 0] : Fin 4 → Nat) a + S1x1x256x64.size a ≤ S1x16x256x64.size a
  packedbf16_S1x16x256x64_S1x1x256x64_0_9_0_0 : (Rect.unit (s := S1x16x256x64) ![0, 9, 0, 0] S1x1x256x64.size inb_S1x16x256x64_S1x1x256x64_0_9_0_0).PackedRows (EltTy.packing .bf16)
  slices_S256x3072_o0_640_S256x64 : S256x3072.Slices ![0, 640] S256x64
  slices_S256x3072_o0_1664_S256x64 : S256x3072.Slices ![0, 1664] S256x64
  slices_S256x3072_o0_2688_S256x64 : S256x3072.Slices ![0, 2688] S256x64
  inb_S1x16x256x64_S1x1x256x64_0_10_0_0 : ∀ a, (![0, 10, 0, 0] : Fin 4 → Nat) a + S1x1x256x64.size a ≤ S1x16x256x64.size a
  packedbf16_S1x16x256x64_S1x1x256x64_0_10_0_0 : (Rect.unit (s := S1x16x256x64) ![0, 10, 0, 0] S1x1x256x64.size inb_S1x16x256x64_S1x1x256x64_0_10_0_0).PackedRows (EltTy.packing .bf16)
  slices_S256x3072_o0_704_S256x64 : S256x3072.Slices ![0, 704] S256x64
  slices_S256x3072_o0_1728_S256x64 : S256x3072.Slices ![0, 1728] S256x64
  slices_S256x3072_o0_2752_S256x64 : S256x3072.Slices ![0, 2752] S256x64
  inb_S1x16x256x64_S1x1x256x64_0_11_0_0 : ∀ a, (![0, 11, 0, 0] : Fin 4 → Nat) a + S1x1x256x64.size a ≤ S1x16x256x64.size a
  packedbf16_S1x16x256x64_S1x1x256x64_0_11_0_0 : (Rect.unit (s := S1x16x256x64) ![0, 11, 0, 0] S1x1x256x64.size inb_S1x16x256x64_S1x1x256x64_0_11_0_0).PackedRows (EltTy.packing .bf16)
  slices_S256x3072_o0_768_S256x64 : S256x3072.Slices ![0, 768] S256x64
  slices_S256x3072_o0_1792_S256x64 : S256x3072.Slices ![0, 1792] S256x64
  slices_S256x3072_o0_2816_S256x64 : S256x3072.Slices ![0, 2816] S256x64
  inb_S1x16x256x64_S1x1x256x64_0_12_0_0 : ∀ a, (![0, 12, 0, 0] : Fin 4 → Nat) a + S1x1x256x64.size a ≤ S1x16x256x64.size a
  packedbf16_S1x16x256x64_S1x1x256x64_0_12_0_0 : (Rect.unit (s := S1x16x256x64) ![0, 12, 0, 0] S1x1x256x64.size inb_S1x16x256x64_S1x1x256x64_0_12_0_0).PackedRows (EltTy.packing .bf16)
  slices_S256x3072_o0_832_S256x64 : S256x3072.Slices ![0, 832] S256x64
  slices_S256x3072_o0_1856_S256x64 : S256x3072.Slices ![0, 1856] S256x64
  slices_S256x3072_o0_2880_S256x64 : S256x3072.Slices ![0, 2880] S256x64
  inb_S1x16x256x64_S1x1x256x64_0_13_0_0 : ∀ a, (![0, 13, 0, 0] : Fin 4 → Nat) a + S1x1x256x64.size a ≤ S1x16x256x64.size a
  packedbf16_S1x16x256x64_S1x1x256x64_0_13_0_0 : (Rect.unit (s := S1x16x256x64) ![0, 13, 0, 0] S1x1x256x64.size inb_S1x16x256x64_S1x1x256x64_0_13_0_0).PackedRows (EltTy.packing .bf16)
  slices_S256x3072_o0_896_S256x64 : S256x3072.Slices ![0, 896] S256x64
  slices_S256x3072_o0_1920_S256x64 : S256x3072.Slices ![0, 1920] S256x64
  slices_S256x3072_o0_2944_S256x64 : S256x3072.Slices ![0, 2944] S256x64
  inb_S1x16x256x64_S1x1x256x64_0_14_0_0 : ∀ a, (![0, 14, 0, 0] : Fin 4 → Nat) a + S1x1x256x64.size a ≤ S1x16x256x64.size a
  packedbf16_S1x16x256x64_S1x1x256x64_0_14_0_0 : (Rect.unit (s := S1x16x256x64) ![0, 14, 0, 0] S1x1x256x64.size inb_S1x16x256x64_S1x1x256x64_0_14_0_0).PackedRows (EltTy.packing .bf16)
  slices_S256x3072_o0_960_S256x64 : S256x3072.Slices ![0, 960] S256x64
  slices_S256x3072_o0_1984_S256x64 : S256x3072.Slices ![0, 1984] S256x64
  slices_S256x3072_o0_3008_S256x64 : S256x3072.Slices ![0, 3008] S256x64
  inb_S1x16x256x64_S1x1x256x64_0_15_0_0 : ∀ a, (![0, 15, 0, 0] : Fin 4 → Nat) a + S1x1x256x64.size a ≤ S1x16x256x64.size a
  packedbf16_S1x16x256x64_S1x1x256x64_0_15_0_0 : (Rect.unit (s := S1x16x256x64) ![0, 15, 0, 0] S1x1x256x64.size inb_S1x16x256x64_S1x1x256x64_0_15_0_0).PackedRows (EltTy.packing .bf16)
  inb_S1x16x2048x64_S1x1x2048x64_0_0_0_0 : ∀ a, (![0, 0, 0, 0] : Fin 4 → Nat) a + S1x1x2048x64.size a ≤ S1x16x2048x64.size a
  h_S1x1x2048x64 : 0 < S1x1x2048x64.numel
  shapeCasts_S1x1x2048x64_S2048x64 : S1x1x2048x64.ShapeCasts S2048x64
  transposes_S2048x64_p1_0_S64x2048 : S2048x64.Transposes [1, 0] S64x2048
  reduces_S256x2048_S256 : S256x2048.Reduces [1] S256
  broadcasts_S256x1_S256x2048 : S256x1.Broadcasts S256x2048
  inb_S1x16x2048x64_S1x1x2048x64_0_1_0_0 : ∀ a, (![0, 1, 0, 0] : Fin 4 → Nat) a + S1x1x2048x64.size a ≤ S1x16x2048x64.size a
  inb_S1x16x2048x64_S1x1x2048x64_0_2_0_0 : ∀ a, (![0, 2, 0, 0] : Fin 4 → Nat) a + S1x1x2048x64.size a ≤ S1x16x2048x64.size a
  inb_S1x16x2048x64_S1x1x2048x64_0_3_0_0 : ∀ a, (![0, 3, 0, 0] : Fin 4 → Nat) a + S1x1x2048x64.size a ≤ S1x16x2048x64.size a
  inb_S1x16x2048x64_S1x1x2048x64_0_4_0_0 : ∀ a, (![0, 4, 0, 0] : Fin 4 → Nat) a + S1x1x2048x64.size a ≤ S1x16x2048x64.size a
  inb_S1x16x2048x64_S1x1x2048x64_0_5_0_0 : ∀ a, (![0, 5, 0, 0] : Fin 4 → Nat) a + S1x1x2048x64.size a ≤ S1x16x2048x64.size a
  inb_S1x16x2048x64_S1x1x2048x64_0_6_0_0 : ∀ a, (![0, 6, 0, 0] : Fin 4 → Nat) a + S1x1x2048x64.size a ≤ S1x16x2048x64.size a
  inb_S1x16x2048x64_S1x1x2048x64_0_7_0_0 : ∀ a, (![0, 7, 0, 0] : Fin 4 → Nat) a + S1x1x2048x64.size a ≤ S1x16x2048x64.size a
  inb_S1x16x2048x64_S1x1x2048x64_0_8_0_0 : ∀ a, (![0, 8, 0, 0] : Fin 4 → Nat) a + S1x1x2048x64.size a ≤ S1x16x2048x64.size a
  inb_S1x16x2048x64_S1x1x2048x64_0_9_0_0 : ∀ a, (![0, 9, 0, 0] : Fin 4 → Nat) a + S1x1x2048x64.size a ≤ S1x16x2048x64.size a
  inb_S1x16x2048x64_S1x1x2048x64_0_10_0_0 : ∀ a, (![0, 10, 0, 0] : Fin 4 → Nat) a + S1x1x2048x64.size a ≤ S1x16x2048x64.size a
  inb_S1x16x2048x64_S1x1x2048x64_0_11_0_0 : ∀ a, (![0, 11, 0, 0] : Fin 4 → Nat) a + S1x1x2048x64.size a ≤ S1x16x2048x64.size a
  inb_S1x16x2048x64_S1x1x2048x64_0_12_0_0 : ∀ a, (![0, 12, 0, 0] : Fin 4 → Nat) a + S1x1x2048x64.size a ≤ S1x16x2048x64.size a
  inb_S1x16x2048x64_S1x1x2048x64_0_13_0_0 : ∀ a, (![0, 13, 0, 0] : Fin 4 → Nat) a + S1x1x2048x64.size a ≤ S1x16x2048x64.size a
  inb_S1x16x2048x64_S1x1x2048x64_0_14_0_0 : ∀ a, (![0, 14, 0, 0] : Fin 4 → Nat) a + S1x1x2048x64.size a ≤ S1x16x2048x64.size a
  inb_S1x16x2048x64_S1x1x2048x64_0_15_0_0 : ∀ a, (![0, 15, 0, 0] : Fin 4 → Nat) a + S1x1x2048x64.size a ≤ S1x16x2048x64.size a
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S256x1024_S1024x3072_S256x3072_1_0_0_1_n_n_wf : DotDims.WF S256x1024 S1024x3072 S256x3072 [1] [0] [0] [1] [] []
  dot_S256x64_S64x2048_S256x2048_1_0_0_1_n_n_wf : DotDims.WF S256x64 S64x2048 S256x2048 [1] [0] [0] [1] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S2x2048x1024.size a
  hwx0_0 : ∀ i : grid0.Coords, EltTy.bits .f32 = 32 ∨ (Rect.block (s := S2x2048x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x256x64.size a ≤ S2x16x2048x64.size a
  hwx0_5 : ∀ i : grid0.Coords, EltTy.bits .bf16 = 32 ∨ (Rect.block (s := S2x16x2048x64) S1x16x256x64.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x16x256x64.size a ≤ S2x16x2048x64.size a
  hwx0_6 : ∀ i : grid0.Coords, EltTy.bits .bf16 = 32 ∨ (Rect.block (s := S2x16x2048x64) S1x16x256x64.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x16x256x64.size a ≤ S2x16x2048x64.size a
  hwx0_7 : ∀ i : grid0.Coords, EltTy.bits .bf16 = 32 ∨ (Rect.block (s := S2x16x2048x64) S1x16x256x64.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16x256x64.size a ≤ S2x16x2048x64.size a
  hwx1_0 : ∀ i : grid1.Coords, EltTy.bits .bf16 = 32 ∨ (Rect.block (s := S2x16x2048x64) S1x16x256x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x16x2048x64.size a ≤ S2x16x2048x64.size a
  hwx1_1 : ∀ i : grid1.Coords, EltTy.bits .bf16 = 32 ∨ (Rect.block (s := S2x16x2048x64) S1x16x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x16x2048x64.size a ≤ S2x16x2048x64.size a
  hwx1_2 : ∀ i : grid1.Coords, EltTy.bits .bf16 = 32 ∨ (Rect.block (s := S2x16x2048x64) S1x16x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x16x256x64.size a ≤ S2x16x2048x64.size a
  hwx1_3 : ∀ i : grid1.Coords, EltTy.bits .f32 = 32 ∨ (Rect.block (s := S2x16x2048x64) S1x16x256x64.size (cc1_transform_3 i) (hinb1_3 i)).WholeWords (EltTy.packing .f32)

variable [Facts₀]

def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf
def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8_0) S1x16x256x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8_1) S1x16x256x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8_2) S1x16x256x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v8_0) S1x16x256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8_1) S1x16x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8_2) S1x16x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x16x256x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S3072 : Shape := ⟨1, ![3072]⟩
abbrev S64 : Shape := ⟨1, ![64]⟩
abbrev S2x2048x3072 : Shape := ⟨3, ![2, 2048, 3072]⟩
abbrev S1x1x3072 : Shape := ⟨3, ![1, 1, 3072]⟩
abbrev S2x2048x16x64x3 : Shape := ⟨5, ![2, 2048, 16, 64, 3]⟩
abbrev S2x16x2048x64x3 : Shape := ⟨5, ![2, 16, 2048, 64, 3]⟩
abbrev S2x16x2048x64x1 : Shape := ⟨5, ![2, 16, 2048, 64, 1]⟩
abbrev S2x16x2048x64 : Shape := ⟨4, ![2, 16, 2048, 64]⟩
abbrev S_ : Shape := ⟨0, ![]⟩
abbrev S2x16x2048 : Shape := ⟨3, ![2, 16, 2048]⟩
abbrev S2x16x2048x1 : Shape := ⟨4, ![2, 16, 2048, 1]⟩
abbrev S1x1x1x64 : Shape := ⟨4, ![1, 1, 1, 64]⟩
abbrev S2x16x2048x2048 : Shape := ⟨4, ![2, 16, 2048, 2048]⟩
abbrev S2x2048x16x64 : Shape := ⟨4, ![2, 2048, 16, 64]⟩

abbrev nBuf : Space → Nat
  | .hbm => 73
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S3072, .f32⟩
  | .hbm, ⟨3, _⟩ => ⟨S64, .f32⟩
  | .hbm, ⟨4, _⟩ => ⟨S64, .f32⟩
  | .hbm, ⟨5, _⟩ => ⟨S2x2048x3072, .f32⟩
  | .hbm, ⟨6, _⟩ => ⟨S1x1x3072, .f32⟩
  | .hbm, ⟨7, _⟩ => ⟨S2x2048x3072, .f32⟩
  | .hbm, ⟨8, _⟩ => ⟨S2x2048x3072, .f32⟩
  | .hbm, ⟨9, _⟩ => ⟨S2x2048x16x64x3, .f32⟩
  | .hbm, ⟨10, _⟩ => ⟨S2x16x2048x64x3, .f32⟩
  | .hbm, ⟨11, _⟩ => ⟨S2x16x2048x64x1, .f32⟩
  | .hbm, ⟨12, _⟩ => ⟨S2x16x2048x64, .f32⟩
  | .hbm, ⟨13, _⟩ => ⟨S2x16x2048x64x1, .f32⟩
  | .hbm, ⟨14, _⟩ => ⟨S2x16x2048x64, .f32⟩
  | .hbm, ⟨15, _⟩ => ⟨S2x16x2048x64x1, .f32⟩
  | .hbm, ⟨16, _⟩ => ⟨S2x16x2048x64, .f32⟩
  | .hbm, ⟨17, _⟩ => ⟨S2x16x2048x64, .f32⟩
  | .hbm, ⟨18, _⟩ => ⟨S_, .f32⟩
  | .hbm, ⟨19, _⟩ => ⟨S2x16x2048, .f32⟩
  | .hbm, ⟨20, _⟩ => ⟨S2x16x2048x1, .f32⟩
  | .hbm, ⟨21, _⟩ => ⟨S_, .f32⟩
  | .hbm, ⟨22, _⟩ => ⟨S2x16x2048x1, .f32⟩
  | .hbm, ⟨23, _⟩ => ⟨S2x16x2048x1, .f32⟩
  | .hbm, ⟨24, _⟩ => ⟨S_, .f32⟩
  | .hbm, ⟨25, _⟩ => ⟨S2x16x2048x1, .f32⟩
  | .hbm, ⟨26, _⟩ => ⟨S2x16x2048x1, .f32⟩
  | .hbm, ⟨27, _⟩ => ⟨S2x16x2048x1, .f32⟩
  | .hbm, ⟨28, _⟩ => ⟨S2x16x2048x64, .f32⟩
  | .hbm, ⟨29, _⟩ => ⟨S2x16x2048x64, .f32⟩
  | .hbm, ⟨30, _⟩ => ⟨S1x1x1x64, .f32⟩
  | .hbm, ⟨31, _⟩ => ⟨S2x16x2048x64, .f32⟩
  | .hbm, ⟨32, _⟩ => ⟨S2x16x2048x64, .f32⟩
  | .hbm, ⟨33, _⟩ => ⟨S2x16x2048x64, .f32⟩
  | .hbm, ⟨34, _⟩ => ⟨S_, .f32⟩
  | .hbm, ⟨35, _⟩ => ⟨S2x16x2048, .f32⟩
  | .hbm, ⟨36, _⟩ => ⟨S2x16x2048x1, .f32⟩
  | .hbm, ⟨37, _⟩ => ⟨S_, .f32⟩
  | .hbm, ⟨38, _⟩ => ⟨S2x16x2048x1, .f32⟩
  | .hbm, ⟨39, _⟩ => ⟨S2x16x2048x1, .f32⟩
  | .hbm, ⟨40, _⟩ => ⟨S_, .f32⟩
  | .hbm, ⟨41, _⟩ => ⟨S2x16x2048x1, .f32⟩
  | .hbm, ⟨42, _⟩ => ⟨S2x16x2048x1, .f32⟩
  | .hbm, ⟨43, _⟩ => ⟨S2x16x2048x1, .f32⟩
  | .hbm, ⟨44, _⟩ => ⟨S2x16x2048x64, .f32⟩
  | .hbm, ⟨45, _⟩ => ⟨S2x16x2048x64, .f32⟩
  | .hbm, ⟨46, _⟩ => ⟨S1x1x1x64, .f32⟩
  | .hbm, ⟨47, _⟩ => ⟨S2x16x2048x64, .f32⟩
  | .hbm, ⟨48, _⟩ => ⟨S2x16x2048x64, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S2x16x2048x2048, .f32⟩
  | .hbm, ⟨54, _⟩ => ⟨S2x16x2048x2048, .f32⟩
  | .hbm, ⟨55, _⟩ => ⟨S2x16x2048x2048, .f32⟩
  | .hbm, ⟨56, _⟩ => ⟨S_, .f32⟩
  | .hbm, ⟨57, _⟩ => ⟨S2x16x2048, .f32⟩
  | .hbm, ⟨58, _⟩ => ⟨S_, .f32⟩
  | .hbm, ⟨59, _⟩ => ⟨S2x16x2048, .f32⟩
  | .hbm, ⟨60, _⟩ => ⟨S2x16x2048, .f32⟩
  | .hbm, ⟨61, _⟩ => ⟨S2x16x2048x1, .f32⟩
  | .hbm, ⟨62, _⟩ => ⟨S2x16x2048x2048, .f32⟩
  | .hbm, ⟨63, _⟩ => ⟨S2x16x2048x2048, .f32⟩
  | .hbm, ⟨64, _⟩ => ⟨S2x16x2048x2048, .f32⟩
  | .hbm, ⟨65, _⟩ => ⟨S_, .f32⟩
  | .hbm, ⟨66, _⟩ => ⟨S2x16x2048, .f32⟩
  | .hbm, ⟨67, _⟩ => ⟨S2x16x2048x1, .f32⟩
  | .hbm, ⟨68, _⟩ => ⟨S2x16x2048x2048, .f32⟩
  | .hbm, ⟨69, _⟩ => ⟨S2x16x2048x2048, .f32⟩
  | .hbm, ⟨70, _⟩ => ⟨S2x16x2048x64, .f32⟩
  | .hbm, ⟨71, _⟩ => ⟨S2x2048x16x64, .f32⟩
  | .hbm, ⟨72, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_9 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S2x2048x3072_0_1_2 : S1x1x3072.BroadcastsInDim S2x2048x3072 (![0, 1, 2] : Fin 3 → Fin S2x2048x3072.rank)
  shapeCasts_S2x2048x3072_S2x2048x16x64x3 : S2x2048x3072.ShapeCasts S2x2048x16x64x3
  transposes_S2x2048x16x64x3_S2x16x2048x64x3_0_2_1_3_4 : S2x2048x16x64x3.Transposes [0, 2, 1, 3, 4] S2x16x2048x64x3
  slices_S2x16x2048x64x3_S2x16x2048x64x1_0_0_0_0_0 : S2x16x2048x64x3.Slices ![0, 0, 0, 0, 0] S2x16x2048x64x1
  shapeCasts_S2x16x2048x64x1_S2x16x2048x64 : S2x16x2048x64x1.ShapeCasts S2x16x2048x64
  slices_S2x16x2048x64x3_S2x16x2048x64x1_0_0_0_0_1 : S2x16x2048x64x3.Slices ![0, 0, 0, 0, 1] S2x16x2048x64x1
  slices_S2x16x2048x64x3_S2x16x2048x64x1_0_0_0_0_2 : S2x16x2048x64x3.Slices ![0, 0, 0, 0, 2] S2x16x2048x64x1
  reducesTo_S2x16x2048x64_S2x16x2048_d3 : S2x16x2048x64.ReducesTo [3] S2x16x2048
  h_S_ : 0 < S_.numel
  bcast_S2x16x2048_S2x16x2048x1_0_1_2 : S2x16x2048.BroadcastsInDim S2x16x2048x1 (![0, 1, 2] : Fin 3 → Fin S2x16x2048x1.rank)
  bcast_S_S2x16x2048x1 : S_.BroadcastsInDim S2x16x2048x1 (![] : Fin 0 → Fin S2x16x2048x1.rank)
  bcast_S2x16x2048x1_S2x16x2048x64_0_1_2_3 : S2x16x2048x1.BroadcastsInDim S2x16x2048x64 (![0, 1, 2, 3] : Fin 4 → Fin S2x16x2048x64.rank)
  bcast_S64_S1x1x1x64_3 : S64.BroadcastsInDim S1x1x1x64 (![3] : Fin 1 → Fin S1x1x1x64.rank)
  bcast_S1x1x1x64_S2x16x2048x64_0_1_2_3 : S1x1x1x64.BroadcastsInDim S2x16x2048x64 (![0, 1, 2, 3] : Fin 4 → Fin S2x16x2048x64.rank)
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  bcast_S_S2x16x2048 : S_.BroadcastsInDim S2x16x2048 (![] : Fin 0 → Fin S2x16x2048.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Spec.lean ====
/-
  The mathematics both programs compute, stated once over the extended reals.

  A token's projection is `x · Wᵀ + b` over 3072 channels, laid out as (head, feature, part) with the part
  (query, key, value) innermost. Each head's query and key vectors (64 features) are normalised by the root of
  the mean of their squares plus a small constant and scaled feature-wise; a head's attention output at a query row
  is the softmax-weighted sum of that head's value rows, the weights the exponentials of the scaled dot products
  shifted by the row's maximum. The kernel works on a weight whose channels were regrouped as (part, head, feature):
  the regrouping is a bijection of the 3072 channels, undone here once (`unperm_col`).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev SX : Shape := ⟨3, ![2, 2048, 1024]⟩
abbrev SWt : Shape := ⟨2, ![3072, 1024]⟩
abbrev SW2 : Shape := ⟨2, ![1024, 3072]⟩
abbrev SB : Shape := ⟨1, ![3072]⟩
abbrev SN : Shape := ⟨1, ![64]⟩
abbrev SH : Shape := ⟨4, ![2, 16, 2048, 64]⟩

/-! ## The two layouts of the 3072 projection channels -/

/-- Channel of (part j, head h, feature d) in the regrouped layout: parts outermost. -/
def col (j : Fin 3) (h : Fin 16) (d : Fin 64) : Fin 3072 := ⟨j.val * 1024 + h.val * 64 + d.val, by omega⟩

/-- Channel of (head h, feature d, part j) in the original layout: parts innermost. -/
def chan (h : Fin 16) (d : Fin 64) (j : Fin 3) : Fin 3072 := ⟨h.val * 192 + d.val * 3 + j.val, by omega⟩

/-- The original channel a regrouped channel came from. -/
def unperm (e : Fin 3072) : Fin 3072 :=
  ⟨(e.val % 1024 / 64) * 192 + (e.val % 64) * 3 + e.val / 1024, by have := e.isLt; omega⟩

theorem unperm_col (j : Fin 3) (h : Fin 16) (d : Fin 64) : unperm (col j h d) = chan h d j := by
  apply Fin.ext
  show ((j.val * 1024 + h.val * 64 + d.val) % 1024 / 64) * 192 + ((j.val * 1024 + h.val * 64 + d.val) % 64) * 3
      + (j.val * 1024 + h.val * 64 + d.val) / 1024 = h.val * 192 + d.val * 3 + j.val
  have := j.isLt; have := h.isLt; have := d.isLt
  omega

/-! ## A function of four coordinates as an array over the (batch, head, row, feature) shape -/

def of4 (f : Fin 2 → Fin 16 → Fin 2048 → Fin 64 → EReal) : SH.Idx → EReal := fun i => f (i 0) (i 1) (i 2) (i 3)

theorem of4_ix4 (f : Fin 2 → Fin 16 → Fin 2048 → Fin 64 → EReal) (b : Fin 2) (h : Fin 16) (n : Fin 2048) (d : Fin 64) :
    of4 f (ix4 b h n d) = f b h n d := rfl

/-! ## One head -/

/-- A head vector `s` normalised by the root mean square of its 64 features (plus the constant), times the
    feature weights `w`. -/
def normHead (s w : Fin 64 → EReal) (d : Fin 64) : EReal :=
  s d * Ideal.rsqrt (Ideal.div (∑ d' : Fin 64, s d' * s d') (Ideal.ofBits .f32 0x42800000#32)
    + Ideal.ofBits .f32 0x358637BD#32) * w d

/-- The value a row maximum starts from: minus infinity, as the programs spell it. -/
def negInf : EReal := Ideal.ofBits .f32 0xFF800000#32

/-- A query row's scaled dot products with the 2048 key rows. -/
def scores (q : Fin 64 → EReal) (k : Fin 2048 → Fin 64 → EReal) (c : EReal) (j : Fin 2048) : EReal :=
  (∑ d : Fin 64, q d * k j d) * c

/-- The row's maximum, taken as both programs take it. -/
def rowMax (s : Fin 2048 → EReal) : EReal := max negInf (Finset.univ.fold max negInf s)

/-- The shifted exponentials of a row. -/
def expo (s : Fin 2048 → EReal) (j : Fin 2048) : EReal := Ideal.exp (s j - rowMax s)

/-- One head's attention output at one query row and one feature. -/
def attnHead (q : Fin 64 → EReal) (k v : Fin 2048 → Fin 64 → EReal) (c : EReal) (d : Fin 64) : EReal :=
  ∑ j : Fin 2048, Ideal.div (expo (scores q k c) j) (∑ j' : Fin 2048, expo (scores q k c) j') * v j d

/-! ## The arrays -/

/-- The projection with the weight given as (input feature, regrouped channel). -/
def projArr (X : SX.Idx → EReal) (W2 : SW2.Idx → EReal) (B2 : SB.Idx → EReal) (b : Fin 2) (n : Fin 2048) (e : Fin 3072) : EReal :=
  (∑ k : Fin 1024, X (ix3 b n k) * W2 (ix2 k e)) + B2 (ix1 e)

/-- The projection with the weight given as (original channel, input feature). -/
def projRef (X : SX.Idx → EReal) (Wt : SWt.Idx → EReal) (Bs : SB.Idx → EReal) (b : Fin 2) (n : Fin 2048) (e : Fin 3072) : EReal :=
  (∑ k : Fin 1024, X (ix3 b n k) * Wt (ix2 e k)) + Bs (ix1 e)

/-- The regrouped, transposed weight. -/
def w2Arr (Wt : SWt.Idx → EReal) : SW2.Idx → EReal := fun i => Wt (ix2 (unperm ⟨(i 1).val, (i 1).isLt⟩) ⟨(i 0).val, (i 0).isLt⟩)

/-- The regrouped bias. -/
def b2Arr (Bs : SB.Idx → EReal) : SB.Idx → EReal := fun i => Bs (ix1 (unperm ⟨(i 0).val, (i 0).isLt⟩))

theorem projArr_prep (X : SX.Idx → EReal) (Wt : SWt.Idx → EReal) (Bs : SB.Idx → EReal) (b : Fin 2) (n : Fin 2048)
    (j : Fin 3) (h : Fin 16) (d : Fin 64) :
    projArr X (w2Arr Wt) (b2Arr Bs) b n (col j h d) = projRef X Wt Bs b n (chan h d j) := by
  unfold projArr projRef w2Arr b2Arr
  have e1 : (⟨((ix1 (col j h d) : SB.Idx) 0).val, ((ix1 (col j h d) : SB.Idx) 0).isLt⟩ : Fin 3072) = col j h d := rfl
  have e2 : ∀ k : Fin 1024, (⟨((ix2 k (col j h d) : SW2.Idx) 1).val, ((ix2 k (col j h d) : SW2.Idx) 1).isLt⟩ : Fin 3072) = col j h d := fun _ => rfl
  have e3 : ∀ k : Fin 1024, (⟨((ix2 k (col j h d) : SW2.Idx) 0).val, ((ix2 k (col j h d) : SW2.Idx) 0).isLt⟩ : Fin 1024) = k := fun _ => rfl
  simp only [e1, e2, e3, unperm_col]

/-- Normalised queries (part 0) or keys (part 1) from the regrouped weight. -/
def qkArr (j : Fin 3) (X : SX.Idx → EReal) (W2 : SW2.Idx → EReal) (B2 : SB.Idx → EReal) (w : SN.Idx → EReal) : SH.Idx → EReal :=
  of4 fun b h n d => normHead (fun d' => projArr X W2 B2 b n (col j h d')) (fun d' => w (ix1 d')) d

/-- Values (part 2) from the regrouped weight. -/
def vArr (X : SX.Idx → EReal) (W2 : SW2.Idx → EReal) (B2 : SB.Idx → EReal) : SH.Idx → EReal :=
  of4 fun b h n d => projArr X W2 B2 b n (col 2 h d)

/-- Normalised queries or keys from the original weight. -/
def qkRef (j : Fin 3) (X : SX.Idx → EReal) (Wt : SWt.Idx → EReal) (Bs : SB.Idx → EReal) (w : SN.Idx → EReal) : SH.Idx → EReal :=
  of4 fun b h n d => normHead (fun d' => projRef X Wt Bs b n (chan h d' j)) (fun d' => w (ix1 d')) d

/-- Values from the original weight. -/
def vRef (X : SX.Idx → EReal) (Wt : SWt.Idx → EReal) (Bs : SB.Idx → EReal) : SH.Idx → EReal :=
  of4 fun b h n d => projRef X Wt Bs b n (chan h d 2)

theorem qkArr_prep (j : Fin 3) (X : SX.Idx → EReal) (Wt : SWt.Idx → EReal) (Bs : SB.Idx → EReal) (w : SN.Idx → EReal) :
    qkArr j X (w2Arr Wt) (b2Arr Bs) w = qkRef j X Wt Bs w := by
  unfold qkArr qkRef
  simp only [projArr_prep]

theorem vArr_prep (X : SX.Idx → EReal) (Wt : SWt.Idx → EReal) (Bs : SB.Idx → EReal) :
    vArr X (w2Arr Wt) (b2Arr Bs) = vRef X Wt Bs := by
  unfold vArr vRef
  simp only [projArr_prep]

/-- Attention over whole (batch, head, row, feature) arrays of queries, keys and values. -/
def attnArr (Q K V : SH.Idx → EReal) (c : EReal) : SH.Idx → EReal :=
  of4 fun b h n d => attnHead (fun d' => Q (ix4 b h n d')) (fun j d' => K (ix4 b h j d')) (fun j d' => V (ix4 b h j d')) c d

/-! ## The scale: one eighth, spelt as a literal or as the reciprocal of the root of 64 -/

def scaleK : EReal := Ideal.ofBits .f32 0x3E000000#32

def scaleR : EReal := Ideal.div (Ideal.ofBits .f32 0x3F800000#32) (Ideal.sqrt (Ideal.ofBits .f32 0x42800000#32))

theorem ofBits_one : Ideal.ofBits .f32 0x3F800000#32 = ((1 : ℝ) : EReal) := by
  simp [Ideal.ofBits, Ideal.ieee, -EReal.coe_mul]; norm_num

theorem ofBits_64 : Ideal.ofBits .f32 0x42800000#32 = ((64 : ℝ) : EReal) := by
  simp [Ideal.ofBits, Ideal.ieee, -EReal.coe_mul]; norm_num

theorem ofBits_eighth : Ideal.ofBits .f32 0x3E000000#32 = ((1 / 8 : ℝ) : EReal) := by
  simp [Ideal.ofBits, Ideal.ieee, -EReal.coe_mul]; norm_num

theorem sqrt_64 : Real.sqrt 64 = 8 := by
  rw [show (64 : ℝ) = 8 ^ 2 by norm_num]
  exact Real.sqrt_sq (by norm_num)

theorem scale_eq : scaleR = scaleK := by
  unfold scaleR scaleK
  rw [ofBits_one, ofBits_64, ofBits_eighth]
  have h8 : Ideal.sqrt ((64 : ℝ) : EReal) = ((8 : ℝ) : EReal) := by
    show (if (64 : ℝ) < 0 then (⊥ : EReal) else ((Real.sqrt 64 : ℝ) : EReal)) = _
    rw [if_neg (by norm_num), sqrt_64]
  rw [h8, Ideal.div_coe (by norm_num : (8 : ℝ) ≠ 0)]
  norm_num

end Cert.Spec

end
-- ==== Proof.Body0.lean ====
/-
  Region 0 (the projection kernel) at one grid point: what the body leaves in each of its three output blocks,
  read at (head, row, feature). The block of projections is the row block of `x` times the regrouped weight plus
  the regrouped bias; the query and key blocks are each head's 64 columns normalised, the value block the columns
  themselves.
-/
import proofs.«110812_j70660801954384_1_alg».proof.Proof.Gen.KernelIdeal.Frame
import proofs.«110812_j70660801954384_1_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Body0

open Idealize.ShloMosaic Idealize.ShloMosaic.TcCoe Idealize.SL.Sem Idealize.ShloMosaic.ValueIdx
open Cert.KernelIdeal Cert.KernelIdeal.Gen Cert.Spec

/-- The projection block of a grid point at (row, regrouped channel). -/
def projBlk (x0 : Vec Ideal S1x256x1024 .f32) (x1 : Vec Ideal S1024x3072 .bf16) (x2 : Vec Ideal S3072 .f32)
    (r : Fin 256) (e : Fin 3072) : EReal :=
  (∑ k : Fin 1024, x0 (ix3 0 r k) * x1 (ix2 k e)) + x2 (ix1 e)

/-! ## The product's operand indices -/

theorem lhs_proj_0 (i : S256x3072.Idx) (q : dot_S256x1024_S1024x3072_S256x3072_1_0_0_1_n_n.contr.Idx) :
    (dot_S256x1024_S1024x3072_S256x3072_1_0_0_1_n_n.lhsIdx i q 0).val = (i 0).val := by
  unfold DotDims.lhsIdx
  rw [dif_neg (show ¬(0 : Fin S256x1024.rank) ∈ dot_S256x1024_S1024x3072_S256x3072_1_0_0_1_n_n.lhsBatch by decide), dif_pos (show (0 : Fin S256x1024.rank) ∈ dot_S256x1024_S1024x3072_S256x3072_1_0_0_1_n_n.lhsNonContracting by decide)]
  rfl
theorem lhs_proj_1 (i : S256x3072.Idx) (q : dot_S256x1024_S1024x3072_S256x3072_1_0_0_1_n_n.contr.Idx) :
    (dot_S256x1024_S1024x3072_S256x3072_1_0_0_1_n_n.lhsIdx i q 1).val = (q ⟨0, by decide⟩).val :=
  dot_S256x1024_S1024x3072_S256x3072_1_0_0_1_n_n.lhsIdx_val_of_single rfl i q
theorem rhs_proj_0 (i : S256x3072.Idx) (q : dot_S256x1024_S1024x3072_S256x3072_1_0_0_1_n_n.contr.Idx) :
    (dot_S256x1024_S1024x3072_S256x3072_1_0_0_1_n_n.rhsIdx i q 0).val = (q ⟨0, by decide⟩).val :=
  dot_S256x1024_S1024x3072_S256x3072_1_0_0_1_n_n.rhsIdx_val_of_single rfl i q
theorem rhs_proj_1 (i : S256x3072.Idx) (q : dot_S256x1024_S1024x3072_S256x3072_1_0_0_1_n_n.contr.Idx) :
    (dot_S256x1024_S1024x3072_S256x3072_1_0_0_1_n_n.rhsIdx i q 1).val = (i 1).val := by
  unfold DotDims.rhsIdx
  rw [dif_neg (show ¬(1 : Fin S1024x3072.rank) ∈ dot_S256x1024_S1024x3072_S256x3072_1_0_0_1_n_n.rhsBatch by decide), dif_pos (show (1 : Fin S1024x3072.rank) ∈ dot_S256x1024_S1024x3072_S256x3072_1_0_0_1_n_n.rhsNonContracting by decide)]
  rfl

/-- The product of the row block with the regrouped weight, read at (row, channel). -/
theorem matmul_proj_apply (a : FVec Ideal S256x1024 .bf16) (b : FVec Ideal S1024x3072 .bf16) (r : Fin 256) (e : Fin 3072) :
    matmul dot_S256x1024_S1024x3072_S256x3072_1_0_0_1_n_n none a b (constant (F := Ideal) S256x3072 .f32 0x00000000#32) (ix2 r e)
      = ∑ k : Fin 1024, a (ix2 r k) * b (ix2 k e) := by
  simp only [matmul]
  rw [Ideal.matmul_constant_zero_apply, ← Equiv.sum_comp (ValueIdx.contrEquiv1 dot_S256x1024_S1024x3072_S256x3072_1_0_0_1_n_n 1024 rfl rfl).symm]
  refine Finset.sum_congr rfl fun k _ => ?_
  have hk := ValueIdx.contrEquiv1_symm_val dot_S256x1024_S1024x3072_S256x3072_1_0_0_1_n_n 1024 rfl rfl k
  have el : dot_S256x1024_S1024x3072_S256x3072_1_0_0_1_n_n.lhsIdx (ix2 r e) ((ValueIdx.contrEquiv1 dot_S256x1024_S1024x3072_S256x3072_1_0_0_1_n_n 1024 rfl rfl).symm k) = ix2 r k := funext fun a => Fin.ext (by
    match a with
    | ⟨0, _⟩ => exact lhs_proj_0 _ _
    | ⟨1, _⟩ => exact (lhs_proj_1 _ _).trans hk)
  have er : dot_S256x1024_S1024x3072_S256x3072_1_0_0_1_n_n.rhsIdx (ix2 r e) ((ValueIdx.contrEquiv1 dot_S256x1024_S1024x3072_S256x3072_1_0_0_1_n_n 1024 rfl rfl).symm k) = ix2 k e := funext fun a => Fin.ext (by
    match a with
    | ⟨0, _⟩ => exact (rhs_proj_0 _ _).trans hk
    | ⟨1, _⟩ => exact rhs_proj_1 _ _)
  rw [el, er]

/-- The projection block the body computes, read at (row, channel). -/
theorem pay3_apply (x0 : Vec Ideal S1x256x1024 .f32) (x1 : Vec Ideal S1024x3072 .bf16) (x2 : Vec Ideal S3072 .f32)
    (r : Fin 256) (e : Fin 3072) :
    k0_pay3 (F := Ideal) x0 x1 x2 (ix2 r e) = projBlk x0 x1 x2 r e := by
  unfold k0_pay3 projBlk
  refine congrArg₂ (· + ·) ?_ ?_
  · refine (matmul_proj_apply _ _ r e).trans ?_
    refine Finset.sum_congr rfl fun k _ => ?_
    refine congrArg₂ (· * ·) ?_ ?_
    · exact shapeCast_1ab_ab_apply x0 _ r k
    · exact congrFun (shapeCast_self x1 _) (ix2 k e)
  · refine (broadcastTo_1b_ab_apply _ _ r e).trans ?_
    refine (shapeCast_a_1a_apply _ _ 0 e).trans ?_
    exact congrFun (shapeCast_self x2 _) (ix1 e)

/-! ## Layout operations of the column forms, read at an index -/

/-- An `[a]` array cast to `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, v, i, j)`, the operand at `(i, j)`. -/
theorem shapeCast_ab_11ab_apply {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add])

/-! ## One head of the block -/

/-- A head's 64 columns of a 3072-column block from column `off`: each row divided by the root of the mean of its
    squares plus the constant, times the feature weights, as the body stores it. -/
def headVal (qkv : FVec Ideal S256x3072 .f32) (w : Vec Ideal S64 .f32) (off : Nat)
    (hs : S256x3072.Slices ![0, off] S256x64) (hred : S256x64.Reduces [1] S256) (hc1 : S256.ShapeCasts S256x1)
    (hb1 : S256x1.Broadcasts S256x64) (hc2 : S64.ShapeCasts S1x64) (hb2 : S1x64.Broadcasts S256x64)
    (hlt : FTy.bits .bf16 < FTy.bits .f32) (hc3 : S256x64.ShapeCasts S1x1x256x64) : FVec Ideal S1x1x256x64 .bf16 :=
  shapeCast S1x1x256x64
    (truncf .bf16
      (mulf
        (mulf (extractStridedSlice S256x64 ![0, off] qkv hs)
          (broadcastTo S256x64
            (rsqrt
              (addf
                (divf
                  (shapeCast S256x1
                    (multiReduction (F := Ideal) .add [1] S256
                      (mulf (extractStridedSlice S256x64 ![0, off] qkv hs) (extractStridedSlice S256x64 ![0, off] qkv hs))
                      0x00000000#32 hred (.inl rfl) rfl)
                    hc1)
                  (broadcast S256x1 (Scalar.ofBits .f32 0x42800000#32)))
                (broadcast S256x1 (Scalar.ofBits .f32 0x358637BD#32))))
            hb1))
        (broadcastTo S256x64 (shapeCast S1x64 w hc2) hb2))
      hlt)
    hc3

/-- The index a row's lane sum inserts is (row, lane). -/
theorem lift_row (hred : S256x64.Reduces [1] S256) (r : Fin 256) (k : Fin 64) :
    hred.lift (ix1 r) k = ix2 r k :=
  funext fun a => Fin.ext (by
    match a with
    | ⟨0, _⟩ => rfl
    | ⟨1, _⟩ => rfl)

/-- A row's sum of squares over the head's 64 columns. -/
theorem sumsq_apply (s : FVec Ideal S256x64 .f32) (hred : S256x64.Reduces [1] S256) (r : Fin 256) :
    multiReduction (F := Ideal) .add [1] S256 (mulf s s) 0x00000000#32 hred (.inl rfl) rfl (ix1 r)
      = ∑ k : Fin 64, s (ix2 r k) * s (ix2 r k) := by
  refine (Ideal.multiReduction_add_single (mulf s s) 0x00000000#32 hred (.inl rfl) rfl (ix1 r)).trans ?_
  refine Finset.sum_congr rfl fun k _ => ?_
  exact congrArg (fun i => s i * s i) (lift_row hred r k)

/-- The stored head at (row, feature): the head's columns of that row, normalised and weighted. -/
theorem headVal_apply (qkv : FVec Ideal S256x3072 .f32) (w : Vec Ideal S64 .f32) (off : Nat)
    (hs : S256x3072.Slices ![0, off] S256x64) (hred : S256x64.Reduces [1] S256) (hc1 : S256.ShapeCasts S256x1)
    (hb1 : S256x1.Broadcasts S256x64) (hc2 : S64.ShapeCasts S1x64) (hb2 : S1x64.Broadcasts S256x64)
    (hlt : FTy.bits .bf16 < FTy.bits .f32) (hc3 : S256x64.ShapeCasts S1x1x256x64)
    (u v : Fin 1) (r : Fin 256) (d : Fin 64) :
    headVal qkv w off hs hred hc1 hb1 hc2 hb2 hlt hc3 (ix4 u v r d)
      = normHead (fun d' => qkv (ix2 r ⟨off + d'.val, Nat.lt_of_lt_of_le (Nat.add_lt_add_left d'.isLt off) (hs.2 1)⟩))
          (fun d' => w (ix1 d')) d := by
  unfold headVal normHead
  refine (shapeCast_ab_11ab_apply _ hc3 u v r d).trans ?_
  have es : ∀ k : Fin 64, extractStridedSlice S256x64 ![0, off] qkv hs (ix2 r k)
      = qkv (ix2 r ⟨off + k.val, Nat.lt_of_lt_of_le (Nat.add_lt_add_left k.isLt off) (hs.2 1)⟩) :=
    fun k => slice2_axis1_eq off qkv hs r k
  refine congrArg₂ (· * ·) (congrArg₂ (· * ·) (es d) ?_) ?_
  · refine (broadcastTo_a1_ab_apply _ hb1 r d).trans ?_
    refine congrArg (fun t => Ideal.rsqrt (Ideal.div t (Ideal.ofBits .f32 0x42800000#32) + Ideal.ofBits .f32 0x358637BD#32)) ?_
    refine (shapeCast_a_a1_apply _ hc1 r 0).trans ?_
    refine (sumsq_apply _ hred r).trans ?_
    exact Finset.sum_congr rfl fun k _ => by rw [es k]
  · refine (broadcastTo_1b_ab_apply _ hb2 r d).trans ?_
    exact shapeCast_a_1a_apply w hc2 0 d

/-- A head's 64 columns of a 3072-column block from column `off`, as the body stores the value part. -/
def sliceVal (qkv : FVec Ideal S256x3072 .f32) (off : Nat) (hs : S256x3072.Slices ![0, off] S256x64)
    (hlt : FTy.bits .bf16 < FTy.bits .f32) (hc3 : S256x64.ShapeCasts S1x1x256x64) : FVec Ideal S1x1x256x64 .bf16 :=
  shapeCast S1x1x256x64 (truncf .bf16 (extractStridedSlice S256x64 ![0, off] qkv hs) hlt) hc3

/-- The stored value head at (row, feature): the block's entry at the head's column. -/
theorem sliceVal_apply (qkv : FVec Ideal S256x3072 .f32) (off : Nat) (hs : S256x3072.Slices ![0, off] S256x64)
    (hlt : FTy.bits .bf16 < FTy.bits .f32) (hc3 : S256x64.ShapeCasts S1x1x256x64)
    (u v : Fin 1) (r : Fin 256) (d : Fin 64) :
    sliceVal qkv off hs hlt hc3 (ix4 u v r d)
      = qkv (ix2 r ⟨off + d.val, Nat.lt_of_lt_of_le (Nat.add_lt_add_left d.isLt off) (hs.2 1)⟩) := by
  unfold sliceVal
  refine (shapeCast_ab_11ab_apply _ hc3 u v r d).trans ?_
  exact slice2_axis1_eq off qkv hs r d

/-! ## The three output blocks as functions of the block index -/

/-- The query (part 0) or key (part 1) block at (head, row, feature). -/
def qkBlk (j : Fin 3) (x0 : Vec Ideal S1x256x1024 .f32) (x1 : Vec Ideal S1024x3072 .bf16) (x2 : Vec Ideal S3072 .f32)
    (w : Vec Ideal S64 .f32) : Vec Ideal S1x16x256x64 .bf16 := fun y =>
  normHead (fun d' => projBlk x0 x1 x2 ⟨(y 2).val, (y 2).isLt⟩ (col j ⟨(y 1).val, (y 1).isLt⟩ d')) (fun d' => w (ix1 d'))
    ⟨(y 3).val, (y 3).isLt⟩

/-- The value block at (head, row, feature). -/
def vBlk (x0 : Vec Ideal S1x256x1024 .f32) (x1 : Vec Ideal S1024x3072 .bf16) (x2 : Vec Ideal S3072 .f32) :
    Vec Ideal S1x16x256x64 .bf16 := fun y =>
  projBlk x0 x1 x2 ⟨(y 2).val, (y 2).isLt⟩ (col 2 ⟨(y 1).val, (y 1).isLt⟩ ⟨(y 3).val, (y 3).isLt⟩)

/-- The query / key block at an index with the given coordinates. -/
theorem qkBlk_eq (j : Fin 3) (x0 : Vec Ideal S1x256x1024 .f32) (x1 : Vec Ideal S1024x3072 .bf16) (x2 : Vec Ideal S3072 .f32)
    (w : Vec Ideal S64 .f32) (y : S1x16x256x64.Idx) (h : Fin 16) (r : Fin 256) (d : Fin 64)
    (h1 : (y 1).val = h.val) (h2 : (y 2).val = r.val) (h3 : (y 3).val = d.val) :
    qkBlk j x0 x1 x2 w y = normHead (fun d' => projBlk x0 x1 x2 r (col j h d')) (fun d' => w (ix1 d')) d := by
  unfold qkBlk
  have e1 : (⟨(y 1).val, (y 1).isLt⟩ : Fin 16) = h := Fin.ext h1
  have e2 : (⟨(y 2).val, (y 2).isLt⟩ : Fin 256) = r := Fin.ext h2
  have e3 : (⟨(y 3).val, (y 3).isLt⟩ : Fin 64) = d := Fin.ext h3
  rw [e1, e2, e3]

/-- The value block at an index with the given coordinates. -/
theorem vBlk_eq (x0 : Vec Ideal S1x256x1024 .f32) (x1 : Vec Ideal S1024x3072 .bf16) (x2 : Vec Ideal S3072 .f32)
    (y : S1x16x256x64.Idx) (h : Fin 16) (r : Fin 256) (d : Fin 64)
    (h1 : (y 1).val = h.val) (h2 : (y 2).val = r.val) (h3 : (y 3).val = d.val) :
    vBlk x0 x1 x2 y = projBlk x0 x1 x2 r (col 2 h d) := by
  unfold vBlk
  have e1 : (⟨(y 1).val, (y 1).isLt⟩ : Fin 16) = h := Fin.ext h1
  have e2 : (⟨(y 2).val, (y 2).isLt⟩ : Fin 256) = r := Fin.ext h2
  have e3 : (⟨(y 3).val, (y 3).isLt⟩ : Fin 64) = d := Fin.ext h3
  rw [e1, e2, e3]

/-! ## What one store writes is its head of the block -/

/-- Head `hn` of part `j` sits at column `j * 1024 + hn * 64` of the projection block: what the body stores for it is
    the query / key block under the store's rectangle. -/
theorem qk_piece (j : Fin 3) (x0 : Vec Ideal S1x256x1024 .f32) (x1 : Vec Ideal S1024x3072 .bf16) (x2 : Vec Ideal S3072 .f32)
    (w : Vec Ideal S64 .f32) (hn : Nat) (hlt16 : hn < 16) (off : Nat) (hoff : off = j.val * 1024 + hn * 64)
    (hs : S256x3072.Slices ![0, off] S256x64) (hred : S256x64.Reduces [1] S256) (hc1 : S256.ShapeCasts S256x1)
    (hb1 : S256x1.Broadcasts S256x64) (hc2 : S64.ShapeCasts S1x64) (hb2 : S1x64.Broadcasts S256x64)
    (hlt : FTy.bits .bf16 < FTy.bits .f32) (hc3 : S256x64.ShapeCasts S1x1x256x64)
    (inb : ∀ a, (![0, hn, 0, 0] : Fin 4 → Nat) a + S1x1x256x64.size a ≤ S1x16x256x64.size a)
    (x : S1x1x256x64.Idx) :
    headVal (k0_pay3 (F := Ideal) x0 x1 x2) w off hs hred hc1 hb1 hc2 hb2 hlt hc3 x
      = qkBlk j x0 x1 x2 w ((Rect.unit (s := S1x16x256x64) ![0, hn, 0, 0] S1x1x256x64.size inb).emb x) := by
  obtain ⟨u, v, r, d, rfl⟩ : ∃ (u v : Fin 1) (r : Fin 256) (d : Fin 64), x = ix4 u v r d := ⟨x 0, x 1, x 2, x 3, eq_ix4 x⟩
  refine (headVal_apply _ w off hs hred hc1 hb1 hc2 hb2 hlt hc3 u v r d).trans ?_
  refine Eq.symm ((qkBlk_eq j x0 x1 x2 w _ ⟨hn, hlt16⟩ r d ?_ ?_ ?_).trans ?_)
  · show hn + 1 * v.val = hn
    omega
  · show 0 + 1 * r.val = r.val
    omega
  · show 0 + 1 * d.val = d.val
    omega
  · refine congrArg (fun s => normHead s (fun d' => w (ix1 d')) d) (funext fun d' => ?_)
    refine Eq.symm ((pay3_apply x0 x1 x2 r _).trans (congrArg (projBlk x0 x1 x2 r) (Fin.ext ?_)))
    show off + d'.val = j.val * 1024 + hn * 64 + d'.val
    omega

/-- The same for the value part: the columns themselves. -/
theorem v_piece (x0 : Vec Ideal S1x256x1024 .f32) (x1 : Vec Ideal S1024x3072 .bf16) (x2 : Vec Ideal S3072 .f32)
    (hn : Nat) (hlt16 : hn < 16) (off : Nat) (hoff : off = 2048 + hn * 64)
    (hs : S256x3072.Slices ![0, off] S256x64)
    (hlt : FTy.bits .bf16 < FTy.bits .f32) (hc3 : S256x64.ShapeCasts S1x1x256x64)
    (inb : ∀ a, (![0, hn, 0, 0] : Fin 4 → Nat) a + S1x1x256x64.size a ≤ S1x16x256x64.size a)
    (x : S1x1x256x64.Idx) :
    sliceVal (k0_pay3 (F := Ideal) x0 x1 x2) off hs hlt hc3 x
      = vBlk x0 x1 x2 ((Rect.unit (s := S1x16x256x64) ![0, hn, 0, 0] S1x1x256x64.size inb).emb x) := by
  obtain ⟨u, v, r, d, rfl⟩ : ∃ (u v : Fin 1) (r : Fin 256) (d : Fin 64), x = ix4 u v r d := ⟨x 0, x 1, x 2, x 3, eq_ix4 x⟩
  refine (sliceVal_apply _ off hs hlt hc3 u v r d).trans ?_
  refine Eq.symm ((vBlk_eq x0 x1 x2 _ ⟨hn, hlt16⟩ r d ?_ ?_ ?_).trans ?_)
  · show hn + 1 * v.val = hn
    omega
  · show 0 + 1 * r.val = r.val
    omega
  · show 0 + 1 * d.val = d.val
    omega
  · refine Eq.symm ((pay3_apply x0 x1 x2 r _).trans (congrArg (projBlk x0 x1 x2 r) (Fin.ext ?_)))
    show off + d.val = 2 * 1024 + hn * 64 + d.val
    omega

/-! ## The output blocks read at an index -/

/-- Each input block is read whole. -/
theorem ld_x0 (x0 : Vec Ideal S1x256x1024 .f32) : View.ld x0 r0_0 = x0 :=
  View.ld_unit_zero (funext fun a => by match a with | ⟨0, _⟩ => rfl | ⟨1, _⟩ => rfl | ⟨2, _⟩ => rfl) _ x0
theorem ld_x1 (x1 : Vec Ideal S1024x3072 .bf16) : View.ld x1 r0_1 = x1 :=
  View.ld_unit_zero (funext fun a => by match a with | ⟨0, _⟩ => rfl | ⟨1, _⟩ => rfl) _ x1
theorem ld_x2 (x2 : Vec Ideal S3072 .f32) : View.ld x2 r0_2 = x2 :=
  View.ld_unit_zero (funext fun a => by match a with | ⟨0, _⟩ => rfl) _ x2
theorem ld_x3 (x3 : Vec Ideal S64 .f32) : View.ld x3 r0_3 = x3 :=
  View.ld_unit_zero (funext fun a => by match a with | ⟨0, _⟩ => rfl) _ x3

theorem out0_5_apply (x0 : Vec Ideal S1x256x1024 .f32) (x1 : Vec Ideal S1024x3072 .bf16) (x2 : Vec Ideal S3072 .f32)
    (x3 x4 : Vec Ideal S64 .f32) (h : Fin 16) (r : Fin 256) (d : Fin 64) :
    out0_5 (F := Ideal) x0 x1 x2 x3 x4 (ix4 0 h r d)
      = normHead (fun d' => projBlk x0 x1 x2 r (col 0 h d')) (fun d' => x3 (ix1 d')) d := by
  unfold out0_5
  rw [ld_x0, ld_x1, ld_x2, ld_x3]
  refine (View.canon_apply_of_pieces (qkBlk 0 x0 x1 x2 x3) _ ?_ (ix4 0 h r d)
    (cover0_5 _ _ _ _ _ _ _ _ _ _ _ _ _ _ _ _ (ix4 0 h r d))).trans (qkBlk_eq 0 x0 x1 x2 x3 _ h r d rfl rfl rfl)
  refine List.forall_mem_cons.2 ⟨fun x => qk_piece 0 x0 x1 x2 x3 15 (by decide) 960 rfl Facts₀.slices_S256x3072_o0_960_S256x64
    Facts₀.reduces_S256x64_S256 Facts₀.shapeCasts_S256_S256x1 Facts₀.broadcasts_S256x1_S256x64 Facts₀.shapeCasts_S64_S1x64
    Facts₀.broadcasts_S1x64_S256x64 Facts₀.bitsLt_bf16_f32 Facts₀.shapeCasts_S256x64_S1x1x256x64
    Facts₀.inb_S1x16x256x64_S1x1x256x64_0_15_0_0 x, ?_⟩
  refine List.forall_mem_cons.2 ⟨fun x => qk_piece 0 x0 x1 x2 x3 14 (by decide) 896 rfl Facts₀.slices_S256x3072_o0_896_S256x64
    Facts₀.reduces_S256x64_S256 Facts₀.shapeCasts_S256_S256x1 Facts₀.broadcasts_S256x1_S256x64 Facts₀.shapeCasts_S64_S1x64
    Facts₀.broadcasts_S1x64_S256x64 Facts₀.bitsLt_bf16_f32 Facts₀.shapeCasts_S256x64_S1x1x256x64
    Facts₀.inb_S1x16x256x64_S1x1x256x64_0_14_0_0 x, ?_⟩
  refine List.forall_mem_cons.2 ⟨fun x => qk_piece 0 x0 x1 x2 x3 13 (by decide) 832 rfl Facts₀.slices_S256x3072_o0_832_S256x64
    Facts₀.reduces_S256x64_S256 Facts₀.shapeCasts_S256_S256x1 Facts₀.broadcasts_S256x1_S256x64 Facts₀.shapeCasts_S64_S1x64
    Facts₀.broadcasts_S1x64_S256x64 Facts₀.bitsLt_bf16_f32 Facts₀.shapeCasts_S256x64_S1x1x256x64
    Facts₀.inb_S1x16x256x64_S1x1x256x64_0_13_0_0 x, ?_⟩
  refine List.forall_mem_cons.2 ⟨fun x => qk_piece 0 x0 x1 x2 x3 12 (by decide) 768 rfl Facts₀.slices_S256x3072_o0_768_S256x64
    Facts₀.reduces_S256x64_S256 Facts₀.shapeCasts_S256_S256x1 Facts₀.broadcasts_S256x1_S256x64 Facts₀.shapeCasts_S64_S1x64
    Facts₀.broadcasts_S1x64_S256x64 Facts₀.bitsLt_bf16_f32 Facts₀.shapeCasts_S256x64_S1x1x256x64
    Facts₀.inb_S1x16x256x64_S1x1x256x64_0_12_0_0 x, ?_⟩
  refine List.forall_mem_cons.2 ⟨fun x => qk_piece 0 x0 x1 x2 x3 11 (by decide) 704 rfl Facts₀.slices_S256x3072_o0_704_S256x64
    Facts₀.reduces_S256x64_S256 Facts₀.shapeCasts_S256_S256x1 Facts₀.broadcasts_S256x1_S256x64 Facts₀.shapeCasts_S64_S1x64
    Facts₀.broadcasts_S1x64_S256x64 Facts₀.bitsLt_bf16_f32 Facts₀.shapeCasts_S256x64_S1x1x256x64
    Facts₀.inb_S1x16x256x64_S1x1x256x64_0_11_0_0 x, ?_⟩
  refine List.forall_mem_cons.2 ⟨fun x => qk_piece 0 x0 x1 x2 x3 10 (by decide) 640 rfl Facts₀.slices_S256x3072_o0_640_S256x64
    Facts₀.reduces_S256x64_S256 Facts₀.shapeCasts_S256_S256x1 Facts₀.broadcasts_S256x1_S256x64 Facts₀.shapeCasts_S64_S1x64
    Facts₀.broadcasts_S1x64_S256x64 Facts₀.bitsLt_bf16_f32 Facts₀.shapeCasts_S256x64_S1x1x256x64
    Facts₀.inb_S1x16x256x64_S1x1x256x64_0_10_0_0 x, ?_⟩
  refine List.forall_mem_cons.2 ⟨fun x => qk_piece 0 x0 x1 x2 x3 9 (by decide) 576 rfl Facts₀.slices_S256x3072_o0_576_S256x64
    Facts₀.reduces_S256x64_S256 Facts₀.shapeCasts_S256_S256x1 Facts₀.broadcasts_S256x1_S256x64 Facts₀.shapeCasts_S64_S1x64
    Facts₀.broadcasts_S1x64_S256x64 Facts₀.bitsLt_bf16_f32 Facts₀.shapeCasts_S256x64_S1x1x256x64
    Facts₀.inb_S1x16x256x64_S1x1x256x64_0_9_0_0 x, ?_⟩
  refine List.forall_mem_cons.2 ⟨fun x => qk_piece 0 x0 x1 x2 x3 8 (by decide) 512 rfl Facts₀.slices_S256x3072_o0_512_S256x64
    Facts₀.reduces_S256x64_S256 Facts₀.shapeCasts_S256_S256x1 Facts₀.broadcasts_S256x1_S256x64 Facts₀.shapeCasts_S64_S1x64
    Facts₀.broadcasts_S1x64_S256x64 Facts₀.bitsLt_bf16_f32 Facts₀.shapeCasts_S256x64_S1x1x256x64
    Facts₀.inb_S1x16x256x64_S1x1x256x64_0_8_0_0 x, ?_⟩
  refine List.forall_mem_cons.2 ⟨fun x => qk_piece 0 x0 x1 x2 x3 7 (by decide) 448 rfl Facts₀.slices_S256x3072_o0_448_S256x64
    Facts₀.reduces_S256x64_S256 Facts₀.shapeCasts_S256_S256x1 Facts₀.broadcasts_S256x1_S256x64 Facts₀.shapeCasts_S64_S1x64
    Facts₀.broadcasts_S1x64_S256x64 Facts₀.bitsLt_bf16_f32 Facts₀.shapeCasts_S256x64_S1x1x256x64
    Facts₀.inb_S1x16x256x64_S1x1x256x64_0_7_0_0 x, ?_⟩
  refine List.forall_mem_cons.2 ⟨fun x => qk_piece 0 x0 x1 x2 x3 6 (by decide) 384 rfl Facts₀.slices_S256x3072_o0_384_S256x64
    Facts₀.reduces_S256x64_S256 Facts₀.shapeCasts_S256_S256x1 Facts₀.broadcasts_S256x1_S256x64 Facts₀.shapeCasts_S64_S1x64
    Facts₀.broadcasts_S1x64_S256x64 Facts₀.bitsLt_bf16_f32 Facts₀.shapeCasts_S256x64_S1x1x256x64
    Facts₀.inb_S1x16x256x64_S1x1x256x64_0_6_0_0 x, ?_⟩
  refine List.forall_mem_cons.2 ⟨fun x => qk_piece 0 x0 x1 x2 x3 5 (by decide) 320 rfl Facts₀.slices_S256x3072_o0_320_S256x64
    Facts₀.reduces_S256x64_S256 Facts₀.shapeCasts_S256_S256x1 Facts₀.broadcasts_S256x1_S256x64 Facts₀.shapeCasts_S64_S1x64
    Facts₀.broadcasts_S1x64_S256x64 Facts₀.bitsLt_bf16_f32 Facts₀.shapeCasts_S256x64_S1x1x256x64
    Facts₀.inb_S1x16x256x64_S1x1x256x64_0_5_0_0 x, ?_⟩
  refine List.forall_mem_cons.2 ⟨fun x => qk_piece 0 x0 x1 x2 x3 4 (by decide) 256 rfl Facts₀.slices_S256x3072_o0_256_S256x64
    Facts₀.reduces_S256x64_S256 Facts₀.shapeCasts_S256_S256x1 Facts₀.broadcasts_S256x1_S256x64 Facts₀.shapeCasts_S64_S1x64
    Facts₀.broadcasts_S1x64_S256x64 Facts₀.bitsLt_bf16_f32 Facts₀.shapeCasts_S256x64_S1x1x256x64
    Facts₀.inb_S1x16x256x64_S1x1x256x64_0_4_0_0 x, ?_⟩
  refine List.forall_mem_cons.2 ⟨fun x => qk_piece 0 x0 x1 x2 x3 3 (by decide) 192 rfl Facts₀.slices_S256x3072_o0_192_S256x64
    Facts₀.reduces_S256x64_S256 Facts₀.shapeCasts_S256_S256x1 Facts₀.broadcasts_S256x1_S256x64 Facts₀.shapeCasts_S64_S1x64
    Facts₀.broadcasts_S1x64_S256x64 Facts₀.bitsLt_bf16_f32 Facts₀.shapeCasts_S256x64_S1x1x256x64
    Facts₀.inb_S1x16x256x64_S1x1x256x64_0_3_0_0 x, ?_⟩
  refine List.forall_mem_cons.2 ⟨fun x => qk_piece 0 x0 x1 x2 x3 2 (by decide) 128 rfl Facts₀.slices_S256x3072_o0_128_S256x64
    Facts₀.reduces_S256x64_S256 Facts₀.shapeCasts_S256_S256x1 Facts₀.broadcasts_S256x1_S256x64 Facts₀.shapeCasts_S64_S1x64
    Facts₀.broadcasts_S1x64_S256x64 Facts₀.bitsLt_bf16_f32 Facts₀.shapeCasts_S256x64_S1x1x256x64
    Facts₀.inb_S1x16x256x64_S1x1x256x64_0_2_0_0 x, ?_⟩
  refine List.forall_mem_cons.2 ⟨fun x => qk_piece 0 x0 x1 x2 x3 1 (by decide) 64 rfl Facts₀.slices_S256x3072_o0_64_S256x64
    Facts₀.reduces_S256x64_S256 Facts₀.shapeCasts_S256_S256x1 Facts₀.broadcasts_S256x1_S256x64 Facts₀.shapeCasts_S64_S1x64
    Facts₀.broadcasts_S1x64_S256x64 Facts₀.bitsLt_bf16_f32 Facts₀.shapeCasts_S256x64_S1x1x256x64
    Facts₀.inb_S1x16x256x64_S1x1x256x64_0_1_0_0 x, ?_⟩
  refine List.forall_mem_cons.2 ⟨fun x => qk_piece 0 x0 x1 x2 x3 0 (by decide) 0 rfl Facts₀.slices_S256x3072_o0_0_S256x64
    Facts₀.reduces_S256x64_S256 Facts₀.shapeCasts_S256_S256x1 Facts₀.broadcasts_S256x1_S256x64 Facts₀.shapeCasts_S64_S1x64
    Facts₀.broadcasts_S1x64_S256x64 Facts₀.bitsLt_bf16_f32 Facts₀.shapeCasts_S256x64_S1x1x256x64
    Facts₀.inb_S1x16x256x64_S1x1x256x64_0_0_0_0 x, ?_⟩
  exact fun p hp => absurd hp List.not_mem_nil

theorem out0_6_apply (x0 : Vec Ideal S1x256x1024 .f32) (x1 : Vec Ideal S1024x3072 .bf16) (x2 : Vec Ideal S3072 .f32)
    (x3 x4 : Vec Ideal S64 .f32) (h : Fin 16) (r : Fin 256) (d : Fin 64) :
    out0_6 (F := Ideal) x0 x1 x2 x3 x4 (ix4 0 h r d)
      = normHead (fun d' => projBlk x0 x1 x2 r (col 1 h d')) (fun d' => x4 (ix1 d')) d := by
  unfold out0_6
  rw [ld_x0, ld_x1, ld_x2, ld_x3]
  refine (View.canon_apply_of_pieces (qkBlk 1 x0 x1 x2 x4) _ ?_ (ix4 0 h r d)
    (cover0_6 _ _ _ _ _ _ _ _ _ _ _ _ _ _ _ _ (ix4 0 h r d))).trans (qkBlk_eq 1 x0 x1 x2 x4 _ h r d rfl rfl rfl)
  refine List.forall_mem_cons.2 ⟨fun x => qk_piece 1 x0 x1 x2 x4 15 (by decide) 1984 rfl Facts₀.slices_S256x3072_o0_1984_S256x64
    Facts₀.reduces_S256x64_S256 Facts₀.shapeCasts_S256_S256x1 Facts₀.broadcasts_S256x1_S256x64 Facts₀.shapeCasts_S64_S1x64
    Facts₀.broadcasts_S1x64_S256x64 Facts₀.bitsLt_bf16_f32 Facts₀.shapeCasts_S256x64_S1x1x256x64
    Facts₀.inb_S1x16x256x64_S1x1x256x64_0_15_0_0 x, ?_⟩
  refine List.forall_mem_cons.2 ⟨fun x => qk_piece 1 x0 x1 x2 x4 14 (by decide) 1920 rfl Facts₀.slices_S256x3072_o0_1920_S256x64
    Facts₀.reduces_S256x64_S256 Facts₀.shapeCasts_S256_S256x1 Facts₀.broadcasts_S256x1_S256x64 Facts₀.shapeCasts_S64_S1x64
    Facts₀.broadcasts_S1x64_S256x64 Facts₀.bitsLt_bf16_f32 Facts₀.shapeCasts_S256x64_S1x1x256x64
    Facts₀.inb_S1x16x256x64_S1x1x256x64_0_14_0_0 x, ?_⟩
  refine List.forall_mem_cons.2 ⟨fun x => qk_piece 1 x0 x1 x2 x4 13 (by decide) 1856 rfl Facts₀.slices_S256x3072_o0_1856_S256x64
    Facts₀.reduces_S256x64_S256 Facts₀.shapeCasts_S256_S256x1 Facts₀.broadcasts_S256x1_S256x64 Facts₀.shapeCasts_S64_S1x64
    Facts₀.broadcasts_S1x64_S256x64 Facts₀.bitsLt_bf16_f32 Facts₀.shapeCasts_S256x64_S1x1x256x64
    Facts₀.inb_S1x16x256x64_S1x1x256x64_0_13_0_0 x, ?_⟩
  refine List.forall_mem_cons.2 ⟨fun x => qk_piece 1 x0 x1 x2 x4 12 (by decide) 1792 rfl Facts₀.slices_S256x3072_o0_1792_S256x64
    Facts₀.reduces_S256x64_S256 Facts₀.shapeCasts_S256_S256x1 Facts₀.broadcasts_S256x1_S256x64 Facts₀.shapeCasts_S64_S1x64
    Facts₀.broadcasts_S1x64_S256x64 Facts₀.bitsLt_bf16_f32 Facts₀.shapeCasts_S256x64_S1x1x256x64
    Facts₀.inb_S1x16x256x64_S1x1x256x64_0_12_0_0 x, ?_⟩
  refine List.forall_mem_cons.2 ⟨fun x => qk_piece 1 x0 x1 x2 x4 11 (by decide) 1728 rfl Facts₀.slices_S256x3072_o0_1728_S256x64
    Facts₀.reduces_S256x64_S256 Facts₀.shapeCasts_S256_S256x1 Facts₀.broadcasts_S256x1_S256x64 Facts₀.shapeCasts_S64_S1x64
    Facts₀.broadcasts_S1x64_S256x64 Facts₀.bitsLt_bf16_f32 Facts₀.shapeCasts_S256x64_S1x1x256x64
    Facts₀.inb_S1x16x256x64_S1x1x256x64_0_11_0_0 x, ?_⟩
  refine List.forall_mem_cons.2 ⟨fun x => qk_piece 1 x0 x1 x2 x4 10 (by decide) 1664 rfl Facts₀.slices_S256x3072_o0_1664_S256x64
    Facts₀.reduces_S256x64_S256 Facts₀.shapeCasts_S256_S256x1 Facts₀.broadcasts_S256x1_S256x64 Facts₀.shapeCasts_S64_S1x64
    Facts₀.broadcasts_S1x64_S256x64 Facts₀.bitsLt_bf16_f32 Facts₀.shapeCasts_S256x64_S1x1x256x64
    Facts₀.inb_S1x16x256x64_S1x1x256x64_0_10_0_0 x, ?_⟩
  refine List.forall_mem_cons.2 ⟨fun x => qk_piece 1 x0 x1 x2 x4 9 (by decide) 1600 rfl Facts₀.slices_S256x3072_o0_1600_S256x64
    Facts₀.reduces_S256x64_S256 Facts₀.shapeCasts_S256_S256x1 Facts₀.broadcasts_S256x1_S256x64 Facts₀.shapeCasts_S64_S1x64
    Facts₀.broadcasts_S1x64_S256x64 Facts₀.bitsLt_bf16_f32 Facts₀.shapeCasts_S256x64_S1x1x256x64
    Facts₀.inb_S1x16x256x64_S1x1x256x64_0_9_0_0 x, ?_⟩
  refine List.forall_mem_cons.2 ⟨fun x => qk_piece 1 x0 x1 x2 x4 8 (by decide) 1536 rfl Facts₀.slices_S256x3072_o0_1536_S256x64
    Facts₀.reduces_S256x64_S256 Facts₀.shapeCasts_S256_S256x1 Facts₀.broadcasts_S256x1_S256x64 Facts₀.shapeCasts_S64_S1x64
    Facts₀.broadcasts_S1x64_S256x64 Facts₀.bitsLt_bf16_f32 Facts₀.shapeCasts_S256x64_S1x1x256x64
    Facts₀.inb_S1x16x256x64_S1x1x256x64_0_8_0_0 x, ?_⟩
  refine List.forall_mem_cons.2 ⟨fun x => qk_piece 1 x0 x1 x2 x4 7 (by decide) 1472 rfl Facts₀.slices_S256x3072_o0_1472_S256x64
    Facts₀.reduces_S256x64_S256 Facts₀.shapeCasts_S256_S256x1 Facts₀.broadcasts_S256x1_S256x64 Facts₀.shapeCasts_S64_S1x64
    Facts₀.broadcasts_S1x64_S256x64 Facts₀.bitsLt_bf16_f32 Facts₀.shapeCasts_S256x64_S1x1x256x64
    Facts₀.inb_S1x16x256x64_S1x1x256x64_0_7_0_0 x, ?_⟩
  refine List.forall_mem_cons.2 ⟨fun x => qk_piece 1 x0 x1 x2 x4 6 (by decide) 1408 rfl Facts₀.slices_S256x3072_o0_1408_S256x64
    Facts₀.reduces_S256x64_S256 Facts₀.shapeCasts_S256_S256x1 Facts₀.broadcasts_S256x1_S256x64 Facts₀.shapeCasts_S64_S1x64
    Facts₀.broadcasts_S1x64_S256x64 Facts₀.bitsLt_bf16_f32 Facts₀.shapeCasts_S256x64_S1x1x256x64
    Facts₀.inb_S1x16x256x64_S1x1x256x64_0_6_0_0 x, ?_⟩
  refine List.forall_mem_cons.2 ⟨fun x => qk_piece 1 x0 x1 x2 x4 5 (by decide) 1344 rfl Facts₀.slices_S256x3072_o0_1344_S256x64
    Facts₀.reduces_S256x64_S256 Facts₀.shapeCasts_S256_S256x1 Facts₀.broadcasts_S256x1_S256x64 Facts₀.shapeCasts_S64_S1x64
    Facts₀.broadcasts_S1x64_S256x64 Facts₀.bitsLt_bf16_f32 Facts₀.shapeCasts_S256x64_S1x1x256x64
    Facts₀.inb_S1x16x256x64_S1x1x256x64_0_5_0_0 x, ?_⟩
  refine List.forall_mem_cons.2 ⟨fun x => qk_piece 1 x0 x1 x2 x4 4 (by decide) 1280 rfl Facts₀.slices_S256x3072_o0_1280_S256x64
    Facts₀.reduces_S256x64_S256 Facts₀.shapeCasts_S256_S256x1 Facts₀.broadcasts_S256x1_S256x64 Facts₀.shapeCasts_S64_S1x64
    Facts₀.broadcasts_S1x64_S256x64 Facts₀.bitsLt_bf16_f32 Facts₀.shapeCasts_S256x64_S1x1x256x64
    Facts₀.inb_S1x16x256x64_S1x1x256x64_0_4_0_0 x, ?_⟩
  refine List.forall_mem_cons.2 ⟨fun x => qk_piece 1 x0 x1 x2 x4 3 (by decide) 1216 rfl Facts₀.slices_S256x3072_o0_1216_S256x64
    Facts₀.reduces_S256x64_S256 Facts₀.shapeCasts_S256_S256x1 Facts₀.broadcasts_S256x1_S256x64 Facts₀.shapeCasts_S64_S1x64
    Facts₀.broadcasts_S1x64_S256x64 Facts₀.bitsLt_bf16_f32 Facts₀.shapeCasts_S256x64_S1x1x256x64
    Facts₀.inb_S1x16x256x64_S1x1x256x64_0_3_0_0 x, ?_⟩
  refine List.forall_mem_cons.2 ⟨fun x => qk_piece 1 x0 x1 x2 x4 2 (by decide) 1152 rfl Facts₀.slices_S256x3072_o0_1152_S256x64
    Facts₀.reduces_S256x64_S256 Facts₀.shapeCasts_S256_S256x1 Facts₀.broadcasts_S256x1_S256x64 Facts₀.shapeCasts_S64_S1x64
    Facts₀.broadcasts_S1x64_S256x64 Facts₀.bitsLt_bf16_f32 Facts₀.shapeCasts_S256x64_S1x1x256x64
    Facts₀.inb_S1x16x256x64_S1x1x256x64_0_2_0_0 x, ?_⟩
  refine List.forall_mem_cons.2 ⟨fun x => qk_piece 1 x0 x1 x2 x4 1 (by decide) 1088 rfl Facts₀.slices_S256x3072_o0_1088_S256x64
    Facts₀.reduces_S256x64_S256 Facts₀.shapeCasts_S256_S256x1 Facts₀.broadcasts_S256x1_S256x64 Facts₀.shapeCasts_S64_S1x64
    Facts₀.broadcasts_S1x64_S256x64 Facts₀.bitsLt_bf16_f32 Facts₀.shapeCasts_S256x64_S1x1x256x64
    Facts₀.inb_S1x16x256x64_S1x1x256x64_0_1_0_0 x, ?_⟩
  refine List.forall_mem_cons.2 ⟨fun x => qk_piece 1 x0 x1 x2 x4 0 (by decide) 1024 rfl Facts₀.slices_S256x3072_o0_1024_S256x64
    Facts₀.reduces_S256x64_S256 Facts₀.shapeCasts_S256_S256x1 Facts₀.broadcasts_S256x1_S256x64 Facts₀.shapeCasts_S64_S1x64
    Facts₀.broadcasts_S1x64_S256x64 Facts₀.bitsLt_bf16_f32 Facts₀.shapeCasts_S256x64_S1x1x256x64
    Facts₀.inb_S1x16x256x64_S1x1x256x64_0_0_0_0 x, ?_⟩
  exact fun p hp => absurd hp List.not_mem_nil

theorem out0_7_apply (x0 : Vec Ideal S1x256x1024 .f32) (x1 : Vec Ideal S1024x3072 .bf16) (x2 : Vec Ideal S3072 .f32)
    (x3 x4 : Vec Ideal S64 .f32) (h : Fin 16) (r : Fin 256) (d : Fin 64) :
    out0_7 (F := Ideal) x0 x1 x2 x3 x4 (ix4 0 h r d) = projBlk x0 x1 x2 r (col 2 h d) := by
  unfold out0_7
  rw [ld_x0, ld_x1, ld_x2]
  refine (View.canon_apply_of_pieces (vBlk x0 x1 x2) _ ?_ (ix4 0 h r d)
    (cover0_7 _ _ _ _ _ _ _ _ _ _ _ _ _ _ _ _ (ix4 0 h r d))).trans (vBlk_eq x0 x1 x2 _ h r d rfl rfl rfl)
  refine List.forall_mem_cons.2 ⟨fun x => v_piece x0 x1 x2 15 (by decide) 3008 rfl Facts₀.slices_S256x3072_o0_3008_S256x64
    Facts₀.bitsLt_bf16_f32 Facts₀.shapeCasts_S256x64_S1x1x256x64 Facts₀.inb_S1x16x256x64_S1x1x256x64_0_15_0_0 x, ?_⟩
  refine List.forall_mem_cons.2 ⟨fun x => v_piece x0 x1 x2 14 (by decide) 2944 rfl Facts₀.slices_S256x3072_o0_2944_S256x64
    Facts₀.bitsLt_bf16_f32 Facts₀.shapeCasts_S256x64_S1x1x256x64 Facts₀.inb_S1x16x256x64_S1x1x256x64_0_14_0_0 x, ?_⟩
  refine List.forall_mem_cons.2 ⟨fun x => v_piece x0 x1 x2 13 (by decide) 2880 rfl Facts₀.slices_S256x3072_o0_2880_S256x64
    Facts₀.bitsLt_bf16_f32 Facts₀.shapeCasts_S256x64_S1x1x256x64 Facts₀.inb_S1x16x256x64_S1x1x256x64_0_13_0_0 x, ?_⟩
  refine List.forall_mem_cons.2 ⟨fun x => v_piece x0 x1 x2 12 (by decide) 2816 rfl Facts₀.slices_S256x3072_o0_2816_S256x64
    Facts₀.bitsLt_bf16_f32 Facts₀.shapeCasts_S256x64_S1x1x256x64 Facts₀.inb_S1x16x256x64_S1x1x256x64_0_12_0_0 x, ?_⟩
  refine List.forall_mem_cons.2 ⟨fun x => v_piece x0 x1 x2 11 (by decide) 2752 rfl Facts₀.slices_S256x3072_o0_2752_S256x64
    Facts₀.bitsLt_bf16_f32 Facts₀.shapeCasts_S256x64_S1x1x256x64 Facts₀.inb_S1x16x256x64_S1x1x256x64_0_11_0_0 x, ?_⟩
  refine List.forall_mem_cons.2 ⟨fun x => v_piece x0 x1 x2 10 (by decide) 2688 rfl Facts₀.slices_S256x3072_o0_2688_S256x64
    Facts₀.bitsLt_bf16_f32 Facts₀.shapeCasts_S256x64_S1x1x256x64 Facts₀.inb_S1x16x256x64_S1x1x256x64_0_10_0_0 x, ?_⟩
  refine List.forall_mem_cons.2 ⟨fun x => v_piece x0 x1 x2 9 (by decide) 2624 rfl Facts₀.slices_S256x3072_o0_2624_S256x64
    Facts₀.bitsLt_bf16_f32 Facts₀.shapeCasts_S256x64_S1x1x256x64 Facts₀.inb_S1x16x256x64_S1x1x256x64_0_9_0_0 x, ?_⟩
  refine List.forall_mem_cons.2 ⟨fun x => v_piece x0 x1 x2 8 (by decide) 2560 rfl Facts₀.slices_S256x3072_o0_2560_S256x64
    Facts₀.bitsLt_bf16_f32 Facts₀.shapeCasts_S256x64_S1x1x256x64 Facts₀.inb_S1x16x256x64_S1x1x256x64_0_8_0_0 x, ?_⟩
  refine List.forall_mem_cons.2 ⟨fun x => v_piece x0 x1 x2 7 (by decide) 2496 rfl Facts₀.slices_S256x3072_o0_2496_S256x64
    Facts₀.bitsLt_bf16_f32 Facts₀.shapeCasts_S256x64_S1x1x256x64 Facts₀.inb_S1x16x256x64_S1x1x256x64_0_7_0_0 x, ?_⟩
  refine List.forall_mem_cons.2 ⟨fun x => v_piece x0 x1 x2 6 (by decide) 2432 rfl Facts₀.slices_S256x3072_o0_2432_S256x64
    Facts₀.bitsLt_bf16_f32 Facts₀.shapeCasts_S256x64_S1x1x256x64 Facts₀.inb_S1x16x256x64_S1x1x256x64_0_6_0_0 x, ?_⟩
  refine List.forall_mem_cons.2 ⟨fun x => v_piece x0 x1 x2 5 (by decide) 2368 rfl Facts₀.slices_S256x3072_o0_2368_S256x64
    Facts₀.bitsLt_bf16_f32 Facts₀.shapeCasts_S256x64_S1x1x256x64 Facts₀.inb_S1x16x256x64_S1x1x256x64_0_5_0_0 x, ?_⟩
  refine List.forall_mem_cons.2 ⟨fun x => v_piece x0 x1 x2 4 (by decide) 2304 rfl Facts₀.slices_S256x3072_o0_2304_S256x64
    Facts₀.bitsLt_bf16_f32 Facts₀.shapeCasts_S256x64_S1x1x256x64 Facts₀.inb_S1x16x256x64_S1x1x256x64_0_4_0_0 x, ?_⟩
  refine List.forall_mem_cons.2 ⟨fun x => v_piece x0 x1 x2 3 (by decide) 2240 rfl Facts₀.slices_S256x3072_o0_2240_S256x64
    Facts₀.bitsLt_bf16_f32 Facts₀.shapeCasts_S256x64_S1x1x256x64 Facts₀.inb_S1x16x256x64_S1x1x256x64_0_3_0_0 x, ?_⟩
  refine List.forall_mem_cons.2 ⟨fun x => v_piece x0 x1 x2 2 (by decide) 2176 rfl Facts₀.slices_S256x3072_o0_2176_S256x64
    Facts₀.bitsLt_bf16_f32 Facts₀.shapeCasts_S256x64_S1x1x256x64 Facts₀.inb_S1x16x256x64_S1x1x256x64_0_2_0_0 x, ?_⟩
  refine List.forall_mem_cons.2 ⟨fun x => v_piece x0 x1 x2 1 (by decide) 2112 rfl Facts₀.slices_S256x3072_o0_2112_S256x64
    Facts₀.bitsLt_bf16_f32 Facts₀.shapeCasts_S256x64_S1x1x256x64 Facts₀.inb_S1x16x256x64_S1x1x256x64_0_1_0_0 x, ?_⟩
  refine List.forall_mem_cons.2 ⟨fun x => v_piece x0 x1 x2 0 (by decide) 2048 rfl Facts₀.slices_S256x3072_o0_2048_S256x64
    Facts₀.bitsLt_bf16_f32 Facts₀.shapeCasts_S256x64_S1x1x256x64 Facts₀.inb_S1x16x256x64_S1x1x256x64_0_0_0_0 x, ?_⟩
  exact fun p hp => absurd hp List.not_mem_nil

end Cert.KernelIdeal.Body0

end
-- ==== Proof.Array0.lean ====
/-
  Region 0 over its whole grid: the three output arrays after the region, each as one function of the arrays the
  region found. Grid point (batch, row tile) writes rows `256·tile … 256·tile + 255` of every head of that batch,
  and the sixteen points' blocks tile each output array.
-/
import proofs.«110812_j70660801954384_1_alg».proof.Proof.Body0

set_option maxRecDepth 16384

noncomputable section

namespace Cert.KernelIdeal.Array0

open Idealize.ShloMosaic Idealize.ShloMosaic.TcCoe Idealize.SL.Sem Idealize.ShloMosaic.ValueIdx
open Cert.KernelIdeal Cert.KernelIdeal.Gen Cert.Spec
open Cert.KernelIdeal.Body0

variable (V : (c : Dev nD) → (b : Ref sig .tc) → Buf (Elt Ideal) ((c : Thread nD τ).loc b))

/-- The windows' index maps over the sixteen grid points: point t has batch t / 8 and row tile t % 8. -/
theorem tile_facts : ∀ t : Fin cfg0.N,
    win0_0.index t (0 : Fin 3) = t.val / 8 ∧ win0_0.index t (1 : Fin 3) = t.val % 8 ∧ win0_0.index t (2 : Fin 3) = 0
    ∧ win0_1.index t (0 : Fin 2) = 0 ∧ win0_1.index t (1 : Fin 2) = 0
    ∧ win0_2.index t (0 : Fin 1) = 0 ∧ win0_3.index t (0 : Fin 1) = 0 ∧ win0_4.index t (0 : Fin 1) = 0
    ∧ win0_5.index t (0 : Fin 4) = t.val / 8 ∧ win0_5.index t (1 : Fin 4) = 0 ∧ win0_5.index t (2 : Fin 4) = t.val % 8 ∧ win0_5.index t (3 : Fin 4) = 0
    ∧ win0_6.index t (0 : Fin 4) = t.val / 8 ∧ win0_6.index t (1 : Fin 4) = 0 ∧ win0_6.index t (2 : Fin 4) = t.val % 8 ∧ win0_6.index t (3 : Fin 4) = 0
    ∧ win0_7.index t (0 : Fin 4) = t.val / 8 ∧ win0_7.index t (1 : Fin 4) = 0 ∧ win0_7.index t (2 : Fin 4) = t.val % 8 ∧ win0_7.index t (3 : Fin 4) = 0 :=
  (by decide +kernel : ∀ t : Fin grid0.N, _)

/-! ## One grid point's blocks against the whole arrays -/

/-- A row block's projection is the array's projection at the row the block's row sits on. -/
theorem projBlk_eq (X : SX.Idx → EReal) (W2 : SW2.Idx → EReal) (B2 : SB.Idx → EReal)
    (x0 : Vec Ideal S1x256x1024 .f32) (x1 : Vec Ideal S1024x3072 .bf16) (x2 : Vec Ideal S3072 .f32)
    (b : Fin 2) (n : Fin 2048) (r : Fin 256)
    (h0 : ∀ k : Fin 1024, x0 (ix3 0 r k) = X (ix3 b n k))
    (h1 : ∀ (k : Fin 1024) (e : Fin 3072), x1 (ix2 k e) = W2 (ix2 k e))
    (h2 : ∀ e : Fin 3072, x2 (ix1 e) = B2 (ix1 e)) (e : Fin 3072) :
    projBlk x0 x1 x2 r e = projArr X W2 B2 b n e := by
  unfold projBlk projArr
  rw [h2 e]
  congr 1
  exact Finset.sum_congr rfl fun k _ => by rw [h0 k, h1 k e]

/-- A normalised head of the row block is the normalised-head array at that row. -/
theorem qk_block (j : Fin 3) (X : SX.Idx → EReal) (W2 : SW2.Idx → EReal) (B2 : SB.Idx → EReal) (w : SN.Idx → EReal)
    (x0 : Vec Ideal S1x256x1024 .f32) (x1 : Vec Ideal S1024x3072 .bf16) (x2 : Vec Ideal S3072 .f32) (x3 : Vec Ideal S64 .f32)
    (b : Fin 2) (n : Fin 2048) (r : Fin 256)
    (h0 : ∀ k : Fin 1024, x0 (ix3 0 r k) = X (ix3 b n k))
    (h1 : ∀ (k : Fin 1024) (e : Fin 3072), x1 (ix2 k e) = W2 (ix2 k e))
    (h2 : ∀ e : Fin 3072, x2 (ix1 e) = B2 (ix1 e))
    (h3 : ∀ d : Fin 64, x3 (ix1 d) = w (ix1 d)) (h : Fin 16) (d : Fin 64) :
    normHead (fun d' => projBlk x0 x1 x2 r (col j h d')) (fun d' => x3 (ix1 d')) d
      = qkArr j X W2 B2 w (ix4 b h n d) := by
  unfold qkArr
  rw [of4_ix4]
  have e1 : (fun d' => projBlk x0 x1 x2 r (col j h d')) = fun d' => projArr X W2 B2 b n (col j h d') :=
    funext fun d' => projBlk_eq X W2 B2 x0 x1 x2 b n r h0 h1 h2 _
  have e2 : (fun d' => x3 (ix1 d')) = fun d' => w (ix1 d') := funext h3
  rw [e1, e2]

/-- The value block is the value array at that row. -/
theorem v_block (X : SX.Idx → EReal) (W2 : SW2.Idx → EReal) (B2 : SB.Idx → EReal)
    (x0 : Vec Ideal S1x256x1024 .f32) (x1 : Vec Ideal S1024x3072 .bf16) (x2 : Vec Ideal S3072 .f32)
    (b : Fin 2) (n : Fin 2048) (r : Fin 256)
    (h0 : ∀ k : Fin 1024, x0 (ix3 0 r k) = X (ix3 b n k))
    (h1 : ∀ (k : Fin 1024) (e : Fin 3072), x1 (ix2 k e) = W2 (ix2 k e))
    (h2 : ∀ e : Fin 3072, x2 (ix1 e) = B2 (ix1 e)) (h : Fin 16) (d : Fin 64) :
    projBlk x0 x1 x2 r (col 2 h d) = vArr X W2 B2 (ix4 b h n d) := by
  unfold vArr
  rw [of4_ix4]
  exact projBlk_eq X W2 B2 x0 x1 x2 b n r h0 h1 h2 _

/-! ## The input windows' blocks at a grid point, read off the arrays -/

/-- The token block of point t holds rows 256 (t % 8) … of batch t / 8. -/
theorem xblk_apply (c : Dev nD) (t : Fin cfg0.N) (r : Fin 256) (k : Fin 1024) (b : Fin 2) (n : Fin 2048)
    (hb : b.val = t.val / 8) (hn : n.val = (t.val % 8) * 256 + r.val) :
    (iblk0 (F := Ideal) V c 0 t : Vec Ideal S1x256x1024 .f32) (ix3 0 r k) = (V c main_arg0 : SX.Idx → EReal) (ix3 b n k) := by
  obtain ⟨e0, e1, e2, -⟩ := tile_facts t
  unfold iblk0
  rw [View.read_apply]
  show V c main_arg0 _ = V c main_arg0 _
  congr 1
  funext a
  apply Fin.ext
  match a with
  | ⟨0, _⟩ => show win0_0.index t (0 : Fin 3) * 1 + 1 * 0 = b.val; omega
  | ⟨1, _⟩ => show win0_0.index t (1 : Fin 3) * 256 + 1 * r.val = n.val; omega
  | ⟨2, _⟩ => show win0_0.index t (2 : Fin 3) * 1024 + 1 * k.val = k.val; omega

/-- The weight window is the whole weight at every point. -/
theorem wblk_apply (c : Dev nD) (t : Fin cfg0.N) (k : Fin 1024) (e : Fin 3072) :
    (iblk0 (F := Ideal) V c 1 t : Vec Ideal S1024x3072 .bf16) (ix2 k e) = (V c main_v4 : SW2.Idx → EReal) (ix2 k e) := by
  obtain ⟨-, -, -, e0, e1, -⟩ := tile_facts t
  unfold iblk0
  rw [View.read_apply]
  show V c main_v4 _ = V c main_v4 _
  congr 1
  funext a
  apply Fin.ext
  match a with
  | ⟨0, _⟩ => show win0_1.index t (0 : Fin 2) * 1024 + 1 * k.val = k.val; omega
  | ⟨1, _⟩ => show win0_1.index t (1 : Fin 2) * 3072 + 1 * e.val = e.val; omega

/-- The bias window is the whole bias at every point. -/
theorem bblk_apply (c : Dev nD) (t : Fin cfg0.N) (e : Fin 3072) :
    (iblk0 (F := Ideal) V c 2 t : Vec Ideal S3072 .f32) (ix1 e) = (V c main_v7 : SB.Idx → EReal) (ix1 e) := by
  obtain ⟨-, -, -, -, -, e0, -⟩ := tile_facts t
  unfold iblk0
  rw [View.read_apply]
  show V c main_v7 _ = V c main_v7 _
  congr 1
  funext a
  apply Fin.ext
  match a with
  | ⟨0, _⟩ => show win0_2.index t (0 : Fin 1) * 3072 + 1 * e.val = e.val; omega

/-- The query feature weights' window is the whole vector at every point. -/
theorem qwblk_apply (c : Dev nD) (t : Fin cfg0.N) (d : Fin 64) :
    (iblk0 (F := Ideal) V c 3 t : Vec Ideal S64 .f32) (ix1 d) = (V c main_arg3 : SN.Idx → EReal) (ix1 d) := by
  obtain ⟨-, -, -, -, -, -, e0, -⟩ := tile_facts t
  unfold iblk0
  rw [View.read_apply]
  show V c main_arg3 _ = V c main_arg3 _
  congr 1
  funext a
  apply Fin.ext
  match a with
  | ⟨0, _⟩ => show win0_3.index t (0 : Fin 1) * 64 + 1 * d.val = d.val; omega

/-- The key feature weights' window is the whole vector at every point. -/
theorem kwblk_apply (c : Dev nD) (t : Fin cfg0.N) (d : Fin 64) :
    (iblk0 (F := Ideal) V c 4 t : Vec Ideal S64 .f32) (ix1 d) = (V c main_arg4 : SN.Idx → EReal) (ix1 d) := by
  obtain ⟨-, -, -, -, -, -, -, e0, -⟩ := tile_facts t
  unfold iblk0
  rw [View.read_apply]
  show V c main_arg4 _ = V c main_arg4 _
  congr 1
  funext a
  apply Fin.ext
  match a with
  | ⟨0, _⟩ => show win0_4.index t (0 : Fin 1) * 64 + 1 * d.val = d.val; omega

/-- Two functions on a (1, 16, 256, 64) block agree when they agree at every (head, row, feature). -/
theorem blk_ext (f g : S1x16x256x64.Idx → EReal)
    (hfg : ∀ (h : Fin 16) (r : Fin 256) (d : Fin 64), f (ix4 0 h r d) = g (ix4 0 h r d)) : f = g := by
  funext y
  obtain ⟨a, h, r, d, rfl⟩ : ∃ (a : Fin 1) (h : Fin 16) (r : Fin 256) (d : Fin 64), y = ix4 a h r d :=
    ⟨y 0, y 1, y 2, y 3, eq_ix4 y⟩
  obtain rfl : a = 0 := Subsingleton.elim _ _
  exact hfg h r d

/-! ## The query array (output window 5) -/

/-- Where the query block's entry (head, row, feature) of point t sits in the (batch, head, row, feature) array. -/
theorem blk5_emb (t : Fin cfg0.N) (h : Fin 16) (r : Fin 256) (d : Fin 64) (b : Fin 2) (n : Fin 2048)
    (hb : b.val = t.val / 8) (hn : n.val = (t.val % 8) * 256 + r.val) :
    ((cfg0.win 5).blk t).view.emb (ix4 0 h r d) = (ix4 b h n d : SH.Idx) := by
  obtain ⟨-, -, -, -, -, -, -, -, e0, e1, e2, e3, -⟩ := tile_facts t
  funext a
  apply Fin.ext
  match a with
  | ⟨0, _⟩ => show win0_5.index t (0 : Fin 4) * 1 + 1 * 0 = b.val; omega
  | ⟨1, _⟩ => show win0_5.index t (1 : Fin 4) * 16 + 1 * h.val = h.val; omega
  | ⟨2, _⟩ => show win0_5.index t (2 : Fin 4) * 256 + 1 * r.val = n.val; omega
  | ⟨3, _⟩ => show win0_5.index t (3 : Fin 4) * 64 + 1 * d.val = d.val; omega

/-- What point t writes back to the query array is its block of the normalised queries. -/
theorem flushed5_eq (c : Dev nD) (t : Fin cfg0.N) :
    (dat0 (F := Ideal) V c).flushed 5 t = ((cfg0.win 5).blk t).view.read (Elt Ideal)
      (qkArr 0 (V c main_arg0) (V c main_v4) (V c main_v7) (V c main_arg3)) := by
  show (cfg0.win 5).cut (grid0.coords t) ((dat0 (F := Ideal) V c).after 5 t) = _
  rw [after0_5]
  refine blk_ext _ _ fun h r d => ?_
  have hN : cfg0.N = 16 := N_0
  have ht : t.val < 16 := by have := t.isLt; omega
  have hr : r.val < 256 := r.isLt
  refine (out0_5_apply (iblk0 (F := Ideal) V c 0 t) (iblk0 (F := Ideal) V c 1 t) (iblk0 (F := Ideal) V c 2 t)
    (iblk0 (F := Ideal) V c 3 t) (iblk0 (F := Ideal) V c 4 t) h r d).trans ?_
  rw [View.read_apply, blk5_emb t h r d ⟨t.val / 8, by omega⟩ ⟨(t.val % 8) * 256 + r.val, by omega⟩ rfl rfl]
  exact qk_block 0 (V c main_arg0) (V c main_v4) (V c main_v7) (V c main_arg3)
    (iblk0 (F := Ideal) V c 0 t) (iblk0 (F := Ideal) V c 1 t) (iblk0 (F := Ideal) V c 2 t) (iblk0 (F := Ideal) V c 3 t)
    ⟨t.val / 8, by omega⟩ ⟨(t.val % 8) * 256 + r.val, by omega⟩ r
    (fun k => xblk_apply V c t r k _ _ rfl rfl) (wblk_apply V c t) (bblk_apply V c t) (qwblk_apply V c t) h d

/-- An index is in point t's query block iff each coordinate is in the block's range on its axis. -/
theorem mem_blk5 (t : Fin cfg0.N) (i : SH.Idx) :
    i ∈ ((cfg0.win 5).blk t).view.set ↔ ∀ a : Fin 4, win0_5.index t a * S1x16x256x64.size a ≤ (i a).val
      ∧ (i a).val < win0_5.index t a * S1x16x256x64.size a + S1x16x256x64.size a := by
  show i ∈ ((View.whole main_v8_0).slice (win0_5.rect t)).set ↔ _
  rw [View.set_slice_whole, Rect.mem_set_unit]
  exact Iff.rfl

/-- Every (batch, head, row, feature) is in the query block of the point with that batch and row tile row / 256. -/
theorem cover5 (i : SH.Idx) : ∃ t : Fin cfg0.N, (cfg0.win 5).flush t = true ∧ i ∈ ((cfg0.win 5).blk t).view.set := by
  have hN : cfg0.N = 16 := N_0
  have h0 : (i 0).val < 2 := (i 0).isLt
  have h1 : (i 1).val < 16 := (i 1).isLt
  have h2 : (i 2).val < 2048 := (i 2).isLt
  have h3 : (i 3).val < 64 := (i 3).isLt
  obtain ⟨t, ht⟩ : ∃ t : Fin cfg0.N, t.val = (i 0).val * 8 + (i 2).val / 256 :=
    ⟨⟨(i 0).val * 8 + (i 2).val / 256, by omega⟩, rfl⟩
  obtain ⟨-, -, -, -, -, -, -, -, e0, e1, e2, e3, -⟩ := tile_facts t
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 16 ≤ (i 1).val ∧ (i 1).val < win0_5.index t (1 : Fin 4) * 16 + 16; omega
  | ⟨2, _⟩ => show win0_5.index t (2 : Fin 4) * 256 ≤ (i 2).val ∧ (i 2).val < win0_5.index t (2 : Fin 4) * 256 + 256; omega
  | ⟨3, _⟩ => show win0_5.index t (3 : Fin 4) * 64 ≤ (i 3).val ∧ (i 3).val < win0_5.index t (3 : Fin 4) * 64 + 64; omega

theorem arr0_5 (c : Dev nD) :
    (dat0 (F := Ideal) V c).arrAt 5 cfg0.N = qkArr 0 (V c main_arg0) (V c main_v4) (V c main_v7) (V c main_arg3) :=
  (dat0 (F := Ideal) V c).arrAt_eq_of_cover 5 (qkArr 0 (V c main_arg0) (V c main_v4) (V c main_v7) (V c main_arg3))
    (fun t _ => flushed5_eq V c t) cover5

/-! ## The key array (output window 6) -/

/-- Where the key block's entry (head, row, feature) of point t sits in the (batch, head, row, feature) array. -/
theorem blk6_emb (t : Fin cfg0.N) (h : Fin 16) (r : Fin 256) (d : Fin 64) (b : Fin 2) (n : Fin 2048)
    (hb : b.val = t.val / 8) (hn : n.val = (t.val % 8) * 256 + r.val) :
    ((cfg0.win 6).blk t).view.emb (ix4 0 h r d) = (ix4 b h n d : SH.Idx) := by
  obtain ⟨-, -, -, -, -, -, -, -, -, -, -, -, e0, e1, e2, e3, -⟩ := tile_facts t
  funext a
  apply Fin.ext
  match a with
  | ⟨0, _⟩ => show win0_6.index t (0 : Fin 4) * 1 + 1 * 0 = b.val; omega
  | ⟨1, _⟩ => show win0_6.index t (1 : Fin 4) * 16 + 1 * h.val = h.val; omega
  | ⟨2, _⟩ => show win0_6.index t (2 : Fin 4) * 256 + 1 * r.val = n.val; omega
  | ⟨3, _⟩ => show win0_6.index t (3 : Fin 4) * 64 + 1 * d.val = d.val; omega

/-- What point t writes back to the key array is its block of the normalised keys. -/
theorem flushed6_eq (c : Dev nD) (t : Fin cfg0.N) :
    (dat0 (F := Ideal) V c).flushed 6 t = ((cfg0.win 6).blk t).view.read (Elt Ideal)
      (qkArr 1 (V c main_arg0) (V c main_v4) (V c main_v7) (V c main_arg4)) := by
  show (cfg0.win 6).cut (grid0.coords t) ((dat0 (F := Ideal) V c).after 6 t) = _
  rw [after0_6]
  refine blk_ext _ _ fun h r d => ?_
  have hN : cfg0.N = 16 := N_0
  have ht : t.val < 16 := by have := t.isLt; omega
  have hr : r.val < 256 := r.isLt
  refine (out0_6_apply (iblk0 (F := Ideal) V c 0 t) (iblk0 (F := Ideal) V c 1 t) (iblk0 (F := Ideal) V c 2 t)
    (iblk0 (F := Ideal) V c 3 t) (iblk0 (F := Ideal) V c 4 t) h r d).trans ?_
  rw [View.read_apply, blk6_emb t h r d ⟨t.val / 8, by omega⟩ ⟨(t.val % 8) * 256 + r.val, by omega⟩ rfl rfl]
  exact qk_block 1 (V c main_arg0) (V c main_v4) (V c main_v7) (V c main_arg4)
    (iblk0 (F := Ideal) V c 0 t) (iblk0 (F := Ideal) V c 1 t) (iblk0 (F := Ideal) V c 2 t) (iblk0 (F := Ideal) V c 4 t)
    ⟨t.val / 8, by omega⟩ ⟨(t.val % 8) * 256 + r.val, by omega⟩ r
    (fun k => xblk_apply V c t r k _ _ rfl rfl) (wblk_apply V c t) (bblk_apply V c t) (kwblk_apply V c t) h d

/-- An index is in point t's key block iff each coordinate is in the block's range on its axis. -/
theorem mem_blk6 (t : Fin cfg0.N) (i : SH.Idx) :
    i ∈ ((cfg0.win 6).blk t).view.set ↔ ∀ a : Fin 4, win0_6.index t a * S1x16x256x64.size a ≤ (i a).val
      ∧ (i a).val < win0_6.index t a * S1x16x256x64.size a + S1x16x256x64.size a := by
  show i ∈ ((View.whole main_v8_1).slice (win0_6.rect t)).set ↔ _
  rw [View.set_slice_whole, Rect.mem_set_unit]
  exact Iff.rfl

/-- Every (batch, head, row, feature) is in the key block of the point with that batch and row tile row / 256. -/
theorem cover6 (i : SH.Idx) : ∃ t : Fin cfg0.N, (cfg0.win 6).flush t = true ∧ i ∈ ((cfg0.win 6).blk t).view.set := by
  have hN : cfg0.N = 16 := N_0
  have h0 : (i 0).val < 2 := (i 0).isLt
  have h1 : (i 1).val < 16 := (i 1).isLt
  have h2 : (i 2).val < 2048 := (i 2).isLt
  have h3 : (i 3).val < 64 := (i 3).isLt
  obtain ⟨t, ht⟩ : ∃ t : Fin cfg0.N, t.val = (i 0).val * 8 + (i 2).val / 256 :=
    ⟨⟨(i 0).val * 8 + (i 2).val / 256, by omega⟩, rfl⟩
  obtain ⟨-, -, -, -, -, -, -, -, -, -, -, -, e0, e1, e2, e3, -⟩ := tile_facts t
  refine ⟨t, flush0_6 t, ?_⟩
  rw [mem_blk6]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 16 ≤ (i 1).val ∧ (i 1).val < win0_6.index t (1 : Fin 4) * 16 + 16; omega
  | ⟨2, _⟩ => show win0_6.index t (2 : Fin 4) * 256 ≤ (i 2).val ∧ (i 2).val < win0_6.index t (2 : Fin 4) * 256 + 256; omega
  | ⟨3, _⟩ => show win0_6.index t (3 : Fin 4) * 64 ≤ (i 3).val ∧ (i 3).val < win0_6.index t (3 : Fin 4) * 64 + 64; omega

theorem arr0_6 (c : Dev nD) :
    (dat0 (F := Ideal) V c).arrAt 6 cfg0.N = qkArr 1 (V c main_arg0) (V c main_v4) (V c main_v7) (V c main_arg4) :=
  (dat0 (F := Ideal) V c).arrAt_eq_of_cover 6 (qkArr 1 (V c main_arg0) (V c main_v4) (V c main_v7) (V c main_arg4))
    (fun t _ => flushed6_eq V c t) cover6

/-! ## The value array (output window 7) -/

/-- Where the value block's entry (head, row, feature) of point t sits in the (batch, head, row, feature) array. -/
theorem blk7_emb (t : Fin cfg0.N) (h : Fin 16) (r : Fin 256) (d : Fin 64) (b : Fin 2) (n : Fin 2048)
    (hb : b.val = t.val / 8) (hn : n.val = (t.val % 8) * 256 + r.val) :
    ((cfg0.win 7).blk t).view.emb (ix4 0 h r d) = (ix4 b h n d : SH.Idx) := by
  obtain ⟨-, -, -, -, -, -, -, -, -, -, -, -, -, -, -, -, e0, e1, e2, e3⟩ := tile_facts t
  funext a
  apply Fin.ext
  match a with
  | ⟨0, _⟩ => show win0_7.index t (0 : Fin 4) * 1 + 1 * 0 = b.val; omega
  | ⟨1, _⟩ => show win0_7.index t (1 : Fin 4) * 16 + 1 * h.val = h.val; omega
  | ⟨2, _⟩ => show win0_7.index t (2 : Fin 4) * 256 + 1 * r.val = n.val; omega
  | ⟨3, _⟩ => show win0_7.index t (3 : Fin 4) * 64 + 1 * d.val = d.val; omega

/-- What point t writes back to the value array is its block of the values. -/
theorem flushed7_eq (c : Dev nD) (t : Fin cfg0.N) :
    (dat0 (F := Ideal) V c).flushed 7 t = ((cfg0.win 7).blk t).view.read (Elt Ideal)
      (vArr (V c main_arg0) (V c main_v4) (V c main_v7)) := by
  show (cfg0.win 7).cut (grid0.coords t) ((dat0 (F := Ideal) V c).after 7 t) = _
  rw [after0_7]
  refine blk_ext _ _ fun h r d => ?_
  have hN : cfg0.N = 16 := N_0
  have ht : t.val < 16 := by have := t.isLt; omega
  have hr : r.val < 256 := r.isLt
  refine (out0_7_apply (iblk0 (F := Ideal) V c 0 t) (iblk0 (F := Ideal) V c 1 t) (iblk0 (F := Ideal) V c 2 t)
    (iblk0 (F := Ideal) V c 3 t) (iblk0 (F := Ideal) V c 4 t) h r d).trans ?_
  rw [View.read_apply, blk7_emb t h r d ⟨t.val / 8, by omega⟩ ⟨(t.val % 8) * 256 + r.val, by omega⟩ rfl rfl]
  exact v_block (V c main_arg0) (V c main_v4) (V c main_v7)
    (iblk0 (F := Ideal) V c 0 t) (iblk0 (F := Ideal) V c 1 t) (iblk0 (F := Ideal) V c 2 t)
    ⟨t.val / 8, by omega⟩ ⟨(t.val % 8) * 256 + r.val, by omega⟩ r
    (fun k => xblk_apply V c t r k _ _ rfl rfl) (wblk_apply V c t) (bblk_apply V c t) h d

/-- An index is in point t's value block iff each coordinate is in the block's range on its axis. -/
theorem mem_blk7 (t : Fin cfg0.N) (i : SH.Idx) :
    i ∈ ((cfg0.win 7).blk t).view.set ↔ ∀ a : Fin 4, win0_7.index t a * S1x16x256x64.size a ≤ (i a).val
      ∧ (i a).val < win0_7.index t a * S1x16x256x64.size a + S1x16x256x64.size a := by
  show i ∈ ((View.whole main_v8_2).slice (win0_7.rect t)).set ↔ _
  rw [View.set_slice_whole, Rect.mem_set_unit]
  exact Iff.rfl

/-- Every (batch, head, row, feature) is in the value block of the point with that batch and row tile row / 256. -/
theorem cover7 (i : SH.Idx) : ∃ t : Fin cfg0.N, (cfg0.win 7).flush t = true ∧ i ∈ ((cfg0.win 7).blk t).view.set := by
  have hN : cfg0.N = 16 := N_0
  have h0 : (i 0).val < 2 := (i 0).isLt
  have h1 : (i 1).val < 16 := (i 1).isLt
  have h2 : (i 2).val < 2048 := (i 2).isLt
  have h3 : (i 3).val < 64 := (i 3).isLt
  obtain ⟨t, ht⟩ : ∃ t : Fin cfg0.N, t.val = (i 0).val * 8 + (i 2).val / 256 :=
    ⟨⟨(i 0).val * 8 + (i 2).val / 256, by omega⟩, rfl⟩
  obtain ⟨-, -, -, -, -, -, -, -, -, -, -, -, -, -, -, -, e0, e1, e2, e3⟩ := tile_facts t
  refine ⟨t, flush0_7 t, ?_⟩
  rw [mem_blk7]
  intro a
  match a with
  | ⟨0, _⟩ => show win0_7.index t (0 : Fin 4) * 1 ≤ (i 0).val ∧ (i 0).val < win0_7.index t (0 : Fin 4) * 1 + 1; omega
  | ⟨1, _⟩ => show win0_7.index t (1 : Fin 4) * 16 ≤ (i 1).val ∧ (i 1).val < win0_7.index t (1 : Fin 4) * 16 + 16; omega
  | ⟨2, _⟩ => show win0_7.index t (2 : Fin 4) * 256 ≤ (i 2).val ∧ (i 2).val < win0_7.index t (2 : Fin 4) * 256 + 256; omega
  | ⟨3, _⟩ => show win0_7.index t (3 : Fin 4) * 64 ≤ (i 3).val ∧ (i 3).val < win0_7.index t (3 : Fin 4) * 64 + 64; omega

theorem arr0_7 (c : Dev nD) :
    (dat0 (F := Ideal) V c).arrAt 7 cfg0.N = vArr (V c main_arg0) (V c main_v4) (V c main_v7) :=
  (dat0 (F := Ideal) V c).arrAt_eq_of_cover 7 (vArr (V c main_arg0) (V c main_v4) (V c main_v7))
    (fun t _ => flushed7_eq V c t) cover7

end Cert.KernelIdeal.Array0

end
-- ==== Proof.Body1.lean ====
/-
  Region 1 (the attention kernel) at one grid point: what the body leaves in its output block, read at
  (head, row, feature): the softmax of the row's scaled scores against the head's 2048 keys, applied to the head's
  values.
-/
import proofs.«110812_j70660801954384_1_alg».proof.Proof.Gen.KernelIdeal.Frame
import proofs.«110812_j70660801954384_1_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Body1

open Idealize.ShloMosaic Idealize.ShloMosaic.TcCoe Idealize.SL.Sem Idealize.ShloMosaic.ValueIdx
open Cert.KernelIdeal Cert.KernelIdeal.Gen Cert.Spec

/-! ## One head's operations, stage by stage, on variables -/

/-- The scaled scores of a head: the query block times the transposed key block, times one eighth. -/
def stScores (q : FVec Ideal S256x64 .bf16) (k : FVec Ideal S2048x64 .bf16) : FVec Ideal S256x2048 .f32 :=
  mulf (matmul dot_S256x64_S64x2048_S256x2048_1_0_0_1_n_n none q
      (transpose S64x2048 [1, 0] k transposes_S2048x64_p1_0_S64x2048) (constant S256x2048 .f32 0x00000000#32))
    (broadcast S256x2048 (Scalar.ofBits .f32 0x3E000000#32))

/-- Each row's maximum, spread back over the row. -/
def stMax (s : FVec Ideal S256x2048 .f32) : FVec Ideal S256x2048 .f32 :=
  broadcastTo S256x2048
    (shapeCast S256x1
      (maximumf (broadcast S256 (Scalar.ofBits .f32 0xFF800000#32))
        (multiReduction .maximumf [1] S256 s 0xFF800000#32 reduces_S256x2048_S256 (.inl rfl) rfl))
      shapeCasts_S256_S256x1)
    broadcasts_S256x1_S256x2048

/-- The shifted exponentials. -/
def stExp (s : FVec Ideal S256x2048 .f32) : FVec Ideal S256x2048 .f32 := exp (subf s (stMax s))

/-- Each row's sum, spread back over the row. -/
def stSum (e : FVec Ideal S256x2048 .f32) : FVec Ideal S256x2048 .f32 :=
  broadcastTo S256x2048
    (shapeCast S256x1 (multiReduction .add [1] S256 e 0x00000000#32 reduces_S256x2048_S256 (.inl rfl) rfl)
      shapeCasts_S256_S256x1)
    broadcasts_S256x1_S256x2048

/-- The weights: the exponentials over their row sums. -/
def stProbs (e : FVec Ideal S256x2048 .f32) : FVec Ideal S256x2048 .bf16 :=
  truncf .bf16 (divf e (stSum e)) bitsLt_bf16_f32

/-- The weights applied to the value block. -/
def stOut (p : FVec Ideal S256x2048 .bf16) (v : FVec Ideal S2048x64 .bf16) : FVec Ideal S256x64 .f32 :=
  matmul dot_S256x2048_S2048x64_S256x64_1_0_0_1_n_n none p v (constant S256x64 .f32 0x00000000#32)

/-- One head's output block from its three blocks. -/
def headTree (q : FVec Ideal S256x64 .bf16) (k v : FVec Ideal S2048x64 .bf16) : FVec Ideal S256x64 .f32 :=
  stOut (stProbs (stExp (stScores q k))) v

/-- The same from the three loaded [1,1,·,64] blocks, cast back to the stored [1,1,256,64] block. -/
def headOut (v0 : Vec Ideal S1x1x256x64 .bf16) (v2 v4 : Vec Ideal S1x1x2048x64 .bf16) : FVec Ideal S1x1x256x64 .f32 :=
  shapeCast S1x1x256x64
    (headTree (shapeCast S256x64 v0 shapeCasts_S1x1x256x64_S256x64)
      (shapeCast S2048x64 v2 shapeCasts_S1x1x2048x64_S2048x64)
      (shapeCast S2048x64 v4 shapeCasts_S1x1x2048x64_S2048x64))
    shapeCasts_S256x64_S1x1x256x64

/-! ## The sixteen payloads are that tree -/

section Payloads
variable (v0 : Vec Ideal S1x1x256x64 .bf16) (v1 v2 : Vec Ideal S1x1x2048x64 .bf16)

theorem pay_h0 : k1_pay2 (F := Ideal) v0 v1 v2 = headOut v0 v1 v2 := rfl
theorem pay_h1 : k1_pay4 (F := Ideal) (k1_pay3 v0) v1 v2 = headOut v0 v1 v2 := rfl
theorem pay_h2 : k1_pay8 (F := Ideal) (k1_pay5 v0) (k1_pay6 v2) (k1_pay7 v1) (constant S256x2048 .f32 0x00000000#32) = headOut v0 v1 v2 := rfl
theorem pay_h3 : k1_pay12 (F := Ideal) (k1_pay9 v2) (k1_pay10 v0 v1) (k1_pay11 v0 v1) = headOut v0 v1 v2 := rfl
theorem pay_h4 : k1_pay14 (F := Ideal) (k1_pay13 v0 v1 v2) = headOut v0 v1 v2 := rfl
theorem pay_h5 : k1_pay15 (F := Ideal) v0 v1 v2 = headOut v0 v1 v2 := rfl
theorem pay_h6 : k1_pay16 (F := Ideal) v0 v1 v2 = headOut v0 v1 v2 := rfl
theorem pay_h7 : k1_pay19 (F := Ideal) (k1_pay17 v0) (k1_pay18 v1) v2 = headOut v0 v1 v2 := rfl
theorem pay_h8 : k1_pay23 (F := Ideal) (k1_pay20 v2) (k1_pay21 v0 v1) (k1_pay22 v0 v1) = headOut v0 v1 v2 := rfl
theorem pay_h9 : k1_pay27 (F := Ideal) (k1_pay24 v2) (k1_pay25 v0 v1) (k1_pay26 v0 v1) = headOut v0 v1 v2 := rfl
theorem pay_h10 : k1_pay28 (F := Ideal) v0 v1 v2 = headOut v0 v1 v2 := rfl
theorem pay_h11 : k1_pay29 (F := Ideal) v0 v1 v2 = headOut v0 v1 v2 := rfl
theorem pay_h12 : k1_pay31 (F := Ideal) (k1_pay30 v0) v1 v2 = headOut v0 v1 v2 := rfl
theorem pay_h13 : k1_pay34 (F := Ideal) (k1_pay32 v2) (k1_pay33 v0 v1) = headOut v0 v1 v2 := rfl
theorem pay_h14 : k1_pay37 (F := Ideal) (k1_pay35 v2) (k1_pay36 v0 v1) = headOut v0 v1 v2 := rfl
theorem pay_h15 : k1_pay1 (F := Ideal) (k1_pay38 v0 v1 v2) = headOut v0 v1 v2 := rfl

end Payloads

/-! ## The two products' operand indices, axis by axis -/

theorem qk_lhs_0 (i : S256x2048.Idx) (c : dot_S256x64_S64x2048_S256x2048_1_0_0_1_n_n.contr.Idx) :
    (dot_S256x64_S64x2048_S256x2048_1_0_0_1_n_n.lhsIdx i c 0).val = (i 0).val := by
  unfold DotDims.lhsIdx
  rw [dif_neg (show ¬(0 : Fin S256x64.rank) ∈ dot_S256x64_S64x2048_S256x2048_1_0_0_1_n_n.lhsBatch by decide), dif_pos (show (0 : Fin S256x64.rank) ∈ dot_S256x64_S64x2048_S256x2048_1_0_0_1_n_n.lhsNonContracting by decide)]
  rfl
theorem qk_lhs_1 (i : S256x2048.Idx) (c : dot_S256x64_S64x2048_S256x2048_1_0_0_1_n_n.contr.Idx) :
    (dot_S256x64_S64x2048_S256x2048_1_0_0_1_n_n.lhsIdx i c 1).val = (c ⟨0, by decide⟩).val :=
  dot_S256x64_S64x2048_S256x2048_1_0_0_1_n_n.lhsIdx_val_of_single rfl i c
theorem qk_rhs_0 (i : S256x2048.Idx) (c : dot_S256x64_S64x2048_S256x2048_1_0_0_1_n_n.contr.Idx) :
    (dot_S256x64_S64x2048_S256x2048_1_0_0_1_n_n.rhsIdx i c 0).val = (c ⟨0, by decide⟩).val :=
  dot_S256x64_S64x2048_S256x2048_1_0_0_1_n_n.rhsIdx_val_of_single rfl i c
theorem qk_rhs_1 (i : S256x2048.Idx) (c : dot_S256x64_S64x2048_S256x2048_1_0_0_1_n_n.contr.Idx) :
    (dot_S256x64_S64x2048_S256x2048_1_0_0_1_n_n.rhsIdx i c 1).val = (i 1).val := by
  unfold DotDims.rhsIdx
  rw [dif_neg (show ¬(1 : Fin S64x2048.rank) ∈ dot_S256x64_S64x2048_S256x2048_1_0_0_1_n_n.rhsBatch by decide), dif_pos (show (1 : Fin S64x2048.rank) ∈ dot_S256x64_S64x2048_S256x2048_1_0_0_1_n_n.rhsNonContracting by decide)]
  rfl

theorem pv_lhs_0 (i : S256x64.Idx) (c : dot_S256x2048_S2048x64_S256x64_1_0_0_1_n_n.contr.Idx) :
    (dot_S256x2048_S2048x64_S256x64_1_0_0_1_n_n.lhsIdx i c 0).val = (i 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem pv_lhs_1 (i : S256x64.Idx) (c : dot_S256x2048_S2048x64_S256x64_1_0_0_1_n_n.contr.Idx) :
    (dot_S256x2048_S2048x64_S256x64_1_0_0_1_n_n.lhsIdx i c 1).val = (c ⟨0, by decide⟩).val :=
  dot_S256x2048_S2048x64_S256x64_1_0_0_1_n_n.lhsIdx_val_of_single rfl i c
theorem pv_rhs_0 (i : S256x64.Idx) (c : dot_S256x2048_S2048x64_S256x64_1_0_0_1_n_n.contr.Idx) :
    (dot_S256x2048_S2048x64_S256x64_1_0_0_1_n_n.rhsIdx i c 0).val = (c ⟨0, by decide⟩).val :=
  dot_S256x2048_S2048x64_S256x64_1_0_0_1_n_n.rhsIdx_val_of_single rfl i c
theorem pv_rhs_1 (i : S256x64.Idx) (c : dot_S256x2048_S2048x64_S256x64_1_0_0_1_n_n.contr.Idx) :
    (dot_S256x2048_S2048x64_S256x64_1_0_0_1_n_n.rhsIdx i c 1).val = (i 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-! ## Each stage read at an index -/

theorem stScores_apply (q : FVec Ideal S256x64 .bf16) (k : FVec Ideal S2048x64 .bf16) (r : Fin 256) (j : Fin 2048) :
    stScores q k (ix2 r j) = scores (fun d' => q (ix2 r d')) (fun j' d' => k (ix2 j' d')) scaleK j := by
  unfold stScores scores
  refine (mulf_apply _ _ _).trans ?_
  refine congrArg₂ (· * ·) ?_ rfl
  refine (Ideal.matmul_constant_zero_apply dot_S256x64_S64x2048_S256x2048_1_0_0_1_n_n none q _ (ix2 r j)).trans ?_
  rw [← Equiv.sum_comp (ValueIdx.contrEquiv1 dot_S256x64_S64x2048_S256x2048_1_0_0_1_n_n 64 rfl rfl).symm]
  refine Finset.sum_congr rfl fun c _ => ?_
  have hc := ValueIdx.contrEquiv1_symm_val dot_S256x64_S64x2048_S256x2048_1_0_0_1_n_n 64 rfl rfl c
  have el : dot_S256x64_S64x2048_S256x2048_1_0_0_1_n_n.lhsIdx (ix2 r j) ((ValueIdx.contrEquiv1 dot_S256x64_S64x2048_S256x2048_1_0_0_1_n_n 64 rfl rfl).symm c) = ix2 r c := funext fun a => Fin.ext (by
    match a with
    | ⟨0, _⟩ => exact qk_lhs_0 _ _
    | ⟨1, _⟩ => exact (qk_lhs_1 _ _).trans hc)
  have er : dot_S256x64_S64x2048_S256x2048_1_0_0_1_n_n.rhsIdx (ix2 r j) ((ValueIdx.contrEquiv1 dot_S256x64_S64x2048_S256x2048_1_0_0_1_n_n 64 rfl rfl).symm c) = ix2 c j := funext fun a => Fin.ext (by
    match a with
    | ⟨0, _⟩ => exact (qk_rhs_0 _ _).trans hc
    | ⟨1, _⟩ => exact qk_rhs_1 _ _)
  rw [el, er]
  exact congrArg (q (ix2 r c) * ·) (transpose_ix2_apply k transposes_S2048x64_p1_0_S64x2048 c j)

theorem stMax_apply (s : FVec Ideal S256x2048 .f32) (r : Fin 256) (j : Fin 2048) :
    stMax s (ix2 r j) = rowMax (fun j' => s (ix2 r j')) := by
  unfold stMax rowMax
  refine (broadcastTo_apply _ broadcasts_S256x1_S256x2048 (ix2 r j) (ix2 r (0 : Fin 1)) ?_).trans ?_
  · intro a
    match a with
    | ⟨0, _⟩ => show r.val = if (256 : Nat) = 1 then 0 else r.val; rw [if_neg (by decide)]
    | ⟨1, _⟩ => show 0 = if (1 : Nat) = 1 then 0 else j.val; rw [if_pos rfl]
  refine (shapeCast_apply _ shapeCasts_S256_S256x1 (ix2 r (0 : Fin 1)) (ix1 r) ?_).trans ?_
  · rw [Shape.rowMajor_val_one, Shape.rowMajor_val_two]
    show r.val = r.val * 1 + 0
    omega
  refine (maximumf_apply _ _ _).trans ?_
  refine congrArg₂ max rfl ?_
  refine (Ideal.multiReduction_maximumf_single s 0xFF800000#32 reduces_S256x2048_S256 (.inl rfl) rfl (ix1 r)).trans ?_
  have hl : ∀ j' : Fin 2048, reduces_S256x2048_S256.lift (ix1 r) j' = ix2 r j' := fun j' => funext fun a => Fin.ext (by
    match a with
    | ⟨0, _⟩ => rfl
    | ⟨1, _⟩ => rfl)
  show Finset.univ.fold max negInf (fun j' : Fin 2048 => s (reduces_S256x2048_S256.lift (ix1 r) j')) = _
  simp only [hl]

theorem stExp_apply (s : FVec Ideal S256x2048 .f32) (r : Fin 256) (j : Fin 2048) :
    stExp s (ix2 r j) = expo (fun j' => s (ix2 r j')) j := by
  unfold stExp expo
  show Ideal.exp (s (ix2 r j) - stMax s (ix2 r j)) = _
  rw [stMax_apply]

theorem stSum_apply (e : FVec Ideal S256x2048 .f32) (r : Fin 256) (j : Fin 2048) :
    stSum e (ix2 r j) = ∑ j' : Fin 2048, e (ix2 r j') := by
  unfold stSum
  refine (broadcastTo_apply _ broadcasts_S256x1_S256x2048 (ix2 r j) (ix2 r (0 : Fin 1)) ?_).trans ?_
  · intro a
    match a with
    | ⟨0, _⟩ => show r.val = if (256 : Nat) = 1 then 0 else r.val; rw [if_neg (by decide)]
    | ⟨1, _⟩ => show 0 = if (1 : Nat) = 1 then 0 else j.val; rw [if_pos rfl]
  refine (shapeCast_apply _ shapeCasts_S256_S256x1 (ix2 r (0 : Fin 1)) (ix1 r) ?_).trans ?_
  · rw [Shape.rowMajor_val_one, Shape.rowMajor_val_two]
    show r.val = r.val * 1 + 0
    omega
  refine (Ideal.multiReduction_add_single e 0x00000000#32 reduces_S256x2048_S256 (.inl rfl) rfl (ix1 r)).trans ?_
  have hl : ∀ j' : Fin 2048, reduces_S256x2048_S256.lift (ix1 r) j' = ix2 r j' := fun j' => funext fun a => Fin.ext (by
    match a with
    | ⟨0, _⟩ => rfl
    | ⟨1, _⟩ => rfl)
  show ∑ j' : Fin 2048, e (reduces_S256x2048_S256.lift (ix1 r) j') = _
  simp only [hl]

theorem stProbs_apply (e : FVec Ideal S256x2048 .f32) (r : Fin 256) (j : Fin 2048) :
    stProbs e (ix2 r j) = Ideal.div (e (ix2 r j)) (∑ j' : Fin 2048, e (ix2 r j')) := by
  unfold stProbs
  show Ideal.div (e (ix2 r j)) (stSum e (ix2 r j)) = _
  rw [stSum_apply]

theorem stOut_apply (p : FVec Ideal S256x2048 .bf16) (v : FVec Ideal S2048x64 .bf16) (r : Fin 256) (d : Fin 64) :
    stOut p v (ix2 r d) = ∑ j : Fin 2048, p (ix2 r j) * v (ix2 j d) := by
  unfold stOut
  refine (Ideal.matmul_constant_zero_apply dot_S256x2048_S2048x64_S256x64_1_0_0_1_n_n none p v (ix2 r d)).trans ?_
  rw [← Equiv.sum_comp (ValueIdx.contrEquiv1 dot_S256x2048_S2048x64_S256x64_1_0_0_1_n_n 2048 rfl rfl).symm]
  refine Finset.sum_congr rfl fun c _ => ?_
  have hc := ValueIdx.contrEquiv1_symm_val dot_S256x2048_S2048x64_S256x64_1_0_0_1_n_n 2048 rfl rfl c
  have el : dot_S256x2048_S2048x64_S256x64_1_0_0_1_n_n.lhsIdx (ix2 r d) ((ValueIdx.contrEquiv1 dot_S256x2048_S2048x64_S256x64_1_0_0_1_n_n 2048 rfl rfl).symm c) = ix2 r c := funext fun a => Fin.ext (by
    match a with
    | ⟨0, _⟩ => exact pv_lhs_0 _ _
    | ⟨1, _⟩ => exact (pv_lhs_1 _ _).trans hc)
  have er : dot_S256x2048_S2048x64_S256x64_1_0_0_1_n_n.rhsIdx (ix2 r d) ((ValueIdx.contrEquiv1 dot_S256x2048_S2048x64_S256x64_1_0_0_1_n_n 2048 rfl rfl).symm c) = ix2 c d := funext fun a => Fin.ext (by
    match a with
    | ⟨0, _⟩ => exact (pv_rhs_0 _ _).trans hc
    | ⟨1, _⟩ => exact pv_rhs_1 _ _)
  rw [el, er]

/-- One head's output block at (row, feature): the softmax of the row's scaled scores, applied to the values. -/
theorem headTree_apply (q : FVec Ideal S256x64 .bf16) (k v : FVec Ideal S2048x64 .bf16) (r : Fin 256) (d : Fin 64) :
    headTree q k v (ix2 r d)
      = attnHead (fun d' => q (ix2 r d')) (fun j d' => k (ix2 j d')) (fun j d' => v (ix2 j d')) scaleK d := by
  unfold headTree attnHead
  have hs : (fun j' : Fin 2048 => stScores q k (ix2 r j'))
      = scores (fun d' => q (ix2 r d')) (fun j' d' => k (ix2 j' d')) scaleK := funext fun j' => stScores_apply q k r j'
  have he : ∀ j : Fin 2048, stExp (stScores q k) (ix2 r j)
      = expo (scores (fun d' => q (ix2 r d')) (fun j' d' => k (ix2 j' d')) scaleK) j := fun j => by
    rw [stExp_apply, hs]
  rw [stOut_apply]
  refine Finset.sum_congr rfl fun j _ => ?_
  rw [stProbs_apply]
  simp only [he]

/-- The stored [1,1,256,64] block at (·, ·, row, feature), from the loaded blocks at their own indices. -/
theorem headOut_apply (v0 : Vec Ideal S1x1x256x64 .bf16) (v1 v2 : Vec Ideal S1x1x2048x64 .bf16)
    (u0 u1 : Fin 1) (r : Fin 256) (d : Fin 64) :
    headOut v0 v1 v2 (ix4 u0 u1 r d)
      = attnHead (fun d' => v0 (ix4 (0 : Fin 1) (0 : Fin 1) r d')) (fun j d' => v1 (ix4 (0 : Fin 1) (0 : Fin 1) j d'))
          (fun j d' => v2 (ix4 (0 : Fin 1) (0 : Fin 1) j d')) scaleK d := by
  unfold headOut
  refine (shapeCast_apply _ shapeCasts_S256x64_S1x1x256x64 (ix4 u0 u1 r d) (ix2 r d) ?_).trans ?_
  · have h0 : u0.val = 0 := by omega
    have h1 : u1.val = 0 := by omega
    rw [Shape.rowMajor_val_two, Shape.rowMajor_val_four]
    show r.val * 64 + d.val = ((u0.val * 1 + u1.val) * 256 + r.val) * 64 + d.val
    omega
  refine (headTree_apply _ _ _ r d).trans ?_
  have hq : ∀ d' : Fin 64, shapeCast S256x64 v0 shapeCasts_S1x1x256x64_S256x64 (ix2 r d') = v0 (ix4 (0 : Fin 1) (0 : Fin 1) r d') :=
    fun d' => shapeCast_apply v0 shapeCasts_S1x1x256x64_S256x64 (ix2 r d') (ix4 (0 : Fin 1) (0 : Fin 1) r d') (by
      rw [Shape.rowMajor_val_two, Shape.rowMajor_val_four]
      show ((0 * 1 + 0) * 256 + r.val) * 64 + d'.val = r.val * 64 + d'.val
      omega)
  have hk : ∀ (w : Vec Ideal S1x1x2048x64 .bf16) (j : Fin 2048) (d' : Fin 64),
      shapeCast S2048x64 w shapeCasts_S1x1x2048x64_S2048x64 (ix2 j d') = w (ix4 (0 : Fin 1) (0 : Fin 1) j d') :=
    fun w j d' => shapeCast_apply w shapeCasts_S1x1x2048x64_S2048x64 (ix2 j d') (ix4 (0 : Fin 1) (0 : Fin 1) j d') (by
      rw [Shape.rowMajor_val_two, Shape.rowMajor_val_four]
      show ((0 * 1 + 0) * 2048 + j.val) * 64 + d'.val = j.val * 64 + d'.val
      omega)
  simp only [hq, hk]

/-! ## The block the body leaves -/

/-- One head's attention output at a row and a feature, from the three whole blocks. -/
def headAt (x0 : Vec Ideal S1x16x256x64 .bf16) (x1 x2 : Vec Ideal S1x16x2048x64 .bf16)
    (h : Fin 16) (r : Fin 256) (d : Fin 64) : EReal :=
  attnHead (fun d' => x0 (ix4 0 h r d')) (fun j d' => x1 (ix4 0 h j d')) (fun j d' => x2 (ix4 0 h j d')) scaleK d

/-- The whole output block as one function of its index. -/
def blockFn (x0 : Vec Ideal S1x16x256x64 .bf16) (x1 x2 : Vec Ideal S1x16x2048x64 .bf16) : Vec Ideal S1x16x256x64 .f32 :=
  fun y => headAt x0 x1 x2 (y 1) (y 2) (y 3)

/-- The store of head `hh`: its payload at a block index is the whole block's function at the index under it. -/
theorem piece_apply (x0 : Vec Ideal S1x16x256x64 .bf16) (x1 x2 : Vec Ideal S1x16x2048x64 .bf16) (hh : Nat) (hlt : hh < 16)
    (inbq : ∀ a, (![0, hh, 0, 0] : Fin 4 → Nat) a + S1x1x256x64.size a ≤ S1x16x256x64.size a)
    (inbk : ∀ a, (![0, hh, 0, 0] : Fin 4 → Nat) a + S1x1x2048x64.size a ≤ S1x16x2048x64.size a)
    (x : S1x1x256x64.Idx) :
    headOut (View.ld x0 (Rect.unit (s := S1x16x256x64) ![0, hh, 0, 0] S1x1x256x64.size inbq))
        (View.ld x1 (Rect.unit (s := S1x16x2048x64) ![0, hh, 0, 0] S1x1x2048x64.size inbk))
        (View.ld x2 (Rect.unit (s := S1x16x2048x64) ![0, hh, 0, 0] S1x1x2048x64.size inbk)) x
      = blockFn x0 x1 x2 ((Rect.unit (s := S1x16x256x64) ![0, hh, 0, 0] S1x1x256x64.size inbq).emb x) := by
  obtain ⟨u0, u1, r, d, rfl⟩ : ∃ (u0 u1 : Fin 1) (r : Fin 256) (d : Fin 64), x = ix4 u0 u1 r d :=
    ⟨x 0, x 1, x 2, x 3, eq_ix4 x⟩
  have h0 : u0.val = 0 := by omega
  have h1 : u1.val = 0 := by omega
  refine (headOut_apply _ _ _ u0 u1 r d).trans ?_
  have eq : ∀ d' : Fin 64, (Rect.unit (s := S1x16x256x64) ![0, hh, 0, 0] S1x1x256x64.size inbq).idx (ix4 (0 : Fin 1) (0 : Fin 1) r d')
      = ix4 (0 : Fin 1) (⟨hh, hlt⟩ : Fin 16) r d' := fun d' => funext fun a => Fin.ext (by
    match a with
    | ⟨0, _⟩ => show 0 + 1 * 0 = 0; omega
    | ⟨1, _⟩ => show hh + 1 * 0 = hh; omega
    | ⟨2, _⟩ => show 0 + 1 * r.val = r.val; omega
    | ⟨3, _⟩ => show 0 + 1 * d'.val = d'.val; omega)
  have ek : ∀ (j : Fin 2048) (d' : Fin 64), (Rect.unit (s := S1x16x2048x64) ![0, hh, 0, 0] S1x1x2048x64.size inbk).idx (ix4 (0 : Fin 1) (0 : Fin 1) j d')
      = ix4 (0 : Fin 1) (⟨hh, hlt⟩ : Fin 16) j d' := fun j d' => funext fun a => Fin.ext (by
    match a with
    | ⟨0, _⟩ => show 0 + 1 * 0 = 0; omega
    | ⟨1, _⟩ => show hh + 1 * 0 = hh; omega
    | ⟨2, _⟩ => show 0 + 1 * j.val = j.val; omega
    | ⟨3, _⟩ => show 0 + 1 * d'.val = d'.val; omega)
  have e1 : ((Rect.unit (s := S1x16x256x64) ![0, hh, 0, 0] S1x1x256x64.size inbq).emb (ix4 u0 u1 r d)) 1 = (⟨hh, hlt⟩ : Fin 16) :=
    Fin.ext (by show hh + 1 * u1.val = hh; omega)
  have e2 : ((Rect.unit (s := S1x16x256x64) ![0, hh, 0, 0] S1x1x256x64.size inbq).emb (ix4 u0 u1 r d)) 2 = r :=
    Fin.ext (by show 0 + 1 * r.val = r.val; omega)
  have e3 : ((Rect.unit (s := S1x16x256x64) ![0, hh, 0, 0] S1x1x256x64.size inbq).emb (ix4 u0 u1 r d)) 3 = d :=
    Fin.ext (by show 0 + 1 * d.val = d.val; omega)
  show attnHead (fun d' => x0 ((Rect.unit (s := S1x16x256x64) ![0, hh, 0, 0] S1x1x256x64.size inbq).idx (ix4 (0 : Fin 1) (0 : Fin 1) r d')))
      (fun j d' => x1 ((Rect.unit (s := S1x16x2048x64) ![0, hh, 0, 0] S1x1x2048x64.size inbk).idx (ix4 (0 : Fin 1) (0 : Fin 1) j d')))
      (fun j d' => x2 ((Rect.unit (s := S1x16x2048x64) ![0, hh, 0, 0] S1x1x2048x64.size inbk).idx (ix4 (0 : Fin 1) (0 : Fin 1) j d'))) scaleK d
    = headAt x0 x1 x2 (((Rect.unit (s := S1x16x256x64) ![0, hh, 0, 0] S1x1x256x64.size inbq).emb (ix4 u0 u1 r d)) 1)
        (((Rect.unit (s := S1x16x256x64) ![0, hh, 0, 0] S1x1x256x64.size inbq).emb (ix4 u0 u1 r d)) 2)
        (((Rect.unit (s := S1x16x256x64) ![0, hh, 0, 0] S1x1x256x64.size inbq).emb (ix4 u0 u1 r d)) 3)
  rw [e1, e2, e3]
  simp only [eq, ek]
  rfl

theorem out1_3_apply (x0 : Vec Ideal S1x16x256x64 .bf16) (x1 x2 : Vec Ideal S1x16x2048x64 .bf16)
    (h : Fin 16) (r : Fin 256) (d : Fin 64) :
    out1_3 (F := Ideal) x0 x1 x2 (ix4 0 h r d)
      = attnHead (fun d' => x0 (ix4 0 h r d')) (fun j d' => x1 (ix4 0 h j d')) (fun j d' => x2 (ix4 0 h j d')) scaleK d := by
  show out1_3 (F := Ideal) x0 x1 x2 (ix4 0 h r d) = blockFn x0 x1 x2 (ix4 0 h r d)
  unfold out1_3
  refine View.canon_apply_of_pieces (blockFn x0 x1 x2) _ ?_ (ix4 0 h r d)
    (cover1_3 _ _ _ _ _ _ _ _ _ _ _ _ _ _ _ _ (ix4 0 h r d))
  intro pc hpc
  rcases List.mem_cons.mp hpc with rfl | hpc
  · exact fun x => (congrFun (pay_h15 _ _ _) x).trans (piece_apply x0 x1 x2 15 (by decide) _ _ x)
  rcases List.mem_cons.mp hpc with rfl | hpc
  · exact fun x => (congrFun (pay_h14 _ _ _) x).trans (piece_apply x0 x1 x2 14 (by decide) _ _ x)
  rcases List.mem_cons.mp hpc with rfl | hpc
  · exact fun x => (congrFun (pay_h13 _ _ _) x).trans (piece_apply x0 x1 x2 13 (by decide) _ _ x)
  rcases List.mem_cons.mp hpc with rfl | hpc
  · exact fun x => (congrFun (pay_h12 _ _ _) x).trans (piece_apply x0 x1 x2 12 (by decide) _ _ x)
  rcases List.mem_cons.mp hpc with rfl | hpc
  · exact fun x => (congrFun (pay_h11 _ _ _) x).trans (piece_apply x0 x1 x2 11 (by decide) _ _ x)
  rcases List.mem_cons.mp hpc with rfl | hpc
  · exact fun x => (congrFun (pay_h10 _ _ _) x).trans (piece_apply x0 x1 x2 10 (by decide) _ _ x)
  rcases List.mem_cons.mp hpc with rfl | hpc
  · exact fun x => (congrFun (pay_h9 _ _ _) x).trans (piece_apply x0 x1 x2 9 (by decide) _ _ x)
  rcases List.mem_cons.mp hpc with rfl | hpc
  · exact fun x => (congrFun (pay_h8 _ _ _) x).trans (piece_apply x0 x1 x2 8 (by decide) _ _ x)
  rcases List.mem_cons.mp hpc with rfl | hpc
  · exact fun x => (congrFun (pay_h7 _ _ _) x).trans (piece_apply x0 x1 x2 7 (by decide) _ _ x)
  rcases List.mem_cons.mp hpc with rfl | hpc
  · exact fun x => (congrFun (pay_h6 _ _ _) x).trans (piece_apply x0 x1 x2 6 (by decide) _ _ x)
  rcases List.mem_cons.mp hpc with rfl | hpc
  · exact fun x => (congrFun (pay_h5 _ _ _) x).trans (piece_apply x0 x1 x2 5 (by decide) _ _ x)
  rcases List.mem_cons.mp hpc with rfl | hpc
  · exact fun x => (congrFun (pay_h4 _ _ _) x).trans (piece_apply x0 x1 x2 4 (by decide) _ _ x)
  rcases List.mem_cons.mp hpc with rfl | hpc
  · exact fun x => (congrFun (pay_h3 _ _ _) x).trans (piece_apply x0 x1 x2 3 (by decide) _ _ x)
  rcases List.mem_cons.mp hpc with rfl | hpc
  · exact fun x => (congrFun (pay_h2 _ _ _) x).trans (piece_apply x0 x1 x2 2 (by decide) _ _ x)
  rcases List.mem_cons.mp hpc with rfl | hpc
  · exact fun x => (congrFun (pay_h1 _ _ _) x).trans (piece_apply x0 x1 x2 1 (by decide) _ _ x)
  rcases List.mem_cons.mp hpc with rfl | hpc
  · exact fun x => (congrFun (pay_h0 _ _ _) x).trans (piece_apply x0 x1 x2 0 (by decide) _ _ x)
  nomatch hpc

end Cert.KernelIdeal.Body1

end
-- ==== Proof.Array1.lean ====
/-
  Region 1 over its whole grid: the output array after the region as one function of the query, key and value
  arrays the region found. Grid point (batch, row tile) reads the tile's query rows and ALL key and value rows of
  that batch, and writes the tile's output rows of every head.
-/
import proofs.«110812_j70660801954384_1_alg».proof.Proof.Body1

set_option maxRecDepth 16384

noncomputable section

namespace Cert.KernelIdeal.Array1

open Idealize.ShloMosaic Idealize.ShloMosaic.TcCoe Idealize.SL.Sem Idealize.ShloMosaic.ValueIdx
open Cert.KernelIdeal Cert.KernelIdeal.Gen Cert.Spec
open Cert.KernelIdeal.Body1

variable (V : (c : Dev nD) → (b : Ref sig .tc) → Buf (Elt Ideal) ((c : Thread nD τ).loc b))

/-! ## The block index maps over the grid -/

/-- The four windows' block indices at every grid point: the query and output blocks sit at (batch, 0, tile, 0), the
    key and value blocks at (batch, 0, 0, 0); the batch is below 2 and the tile below 8. -/
theorem blockIndex_facts : ∀ t : Fin cfg1.N,
    win1_0.index t (0 : Fin 4) = win1_3.index t (0 : Fin 4)
    ∧ win1_0.index t (1 : Fin 4) = 0
    ∧ win1_0.index t (2 : Fin 4) = win1_3.index t (2 : Fin 4)
    ∧ win1_0.index t (3 : Fin 4) = 0
    ∧ win1_1.index t (0 : Fin 4) = win1_3.index t (0 : Fin 4)
    ∧ win1_1.index t (1 : Fin 4) = 0
    ∧ win1_1.index t (2 : Fin 4) = 0
    ∧ win1_1.index t (3 : Fin 4) = 0
    ∧ win1_2.index t (0 : Fin 4) = win1_3.index t (0 : Fin 4)
    ∧ win1_2.index t (1 : Fin 4) = 0
    ∧ win1_2.index t (2 : Fin 4) = 0
    ∧ win1_2.index t (3 : Fin 4) = 0
    ∧ win1_3.index t (0 : Fin 4) ≤ 1
    ∧ win1_3.index t (1 : Fin 4) = 0
    ∧ win1_3.index t (2 : Fin 4) ≤ 7
    ∧ win1_3.index t (3 : Fin 4) = 0 :=
  (by decide +kernel : ∀ t : Fin grid1.N, _)

/-- Every (batch, tile) pair is some grid point's output block index. -/
theorem blockIndex_onto : ∀ (b : Fin 2) (n : Fin 8), ∃ t : Fin cfg1.N, win1_3.index t = ![b.val, 0, n.val, 0] :=
  (by decide +kernel : ∀ (b : Fin 2) (n : Fin 8), ∃ t : Fin grid1.N, win1_3.index t = ![b.val, 0, n.val, 0])

/-! ## One grid point -/

/-- The output block of query, key and value blocks that are rows of whole arrays: when the query block holds rows
    \`row r\` of batch \`b\` of \`Q\` and the key and value blocks hold all rows of batch \`b\` of \`K\` and \`W\`, the output block
    holds rows \`row r\` of batch \`b\` of the attention array. -/
theorem block_eq (Q K W : SH.Idx → EReal) (x0 : Vec Ideal S1x16x256x64 .bf16) (x1 x2 : Vec Ideal S1x16x2048x64 .bf16)
    (b : Fin 2) (row : Fin 256 → Fin 2048)
    (h0 : ∀ (h : Fin 16) (r : Fin 256) (d : Fin 64), x0 (ix4 0 h r d) = Q (ix4 b h (row r) d))
    (h1 : ∀ (h : Fin 16) (j : Fin 2048) (d : Fin 64), x1 (ix4 0 h j d) = K (ix4 b h j d))
    (h2 : ∀ (h : Fin 16) (j : Fin 2048) (d : Fin 64), x2 (ix4 0 h j d) = W (ix4 b h j d))
    (h : Fin 16) (r : Fin 256) (d : Fin 64) :
    out1_3 (F := Ideal) x0 x1 x2 (ix4 0 h r d) = attnArr Q K W scaleK (ix4 b h (row r) d) := by
  rw [out1_3_apply]
  unfold attnArr
  rw [of4_ix4]
  simp only [h0, h1, h2]

/-- An index of the output array is in point \`t\`'s block iff each coordinate is in the block's range on its axis. -/
theorem mem_block (t : Fin cfg1.N) (i : S2x16x2048x64.Idx) :
    i ∈ ((cfg1.win 3).blk t).view.set ↔ ∀ a : Fin 4, win1_3.index t a * S1x16x256x64.size a ≤ (i a).val ∧ (i a).val < win1_3.index t a * S1x16x256x64.size a + S1x16x256x64.size a := by
  show i ∈ ((View.whole main_v9).slice (win1_3.rect t)).set ↔ _
  rw [View.set_slice_whole, Rect.mem_set_unit]
  exact Iff.rfl

/-- Every index of the output array is in the block of the point with its batch and its row's tile. -/
theorem covered (i : S2x16x2048x64.Idx) :
    ∃ t : Fin cfg1.N, (cfg1.win 3).flush t = true ∧ i ∈ ((cfg1.win 3).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := blockIndex_onto ⟨(i 0).val, hi0⟩ ⟨(i 2).val / 256, by omega⟩
  have q0 : win1_3.index t (0 : Fin 4) = (i 0).val := congrFun ht 0
  have q1 : win1_3.index t (1 : Fin 4) = 0 := congrFun ht 1
  have q2 : win1_3.index t (2 : Fin 4) = (i 2).val / 256 := congrFun ht 2
  have q3 : win1_3.index t (3 : Fin 4) = 0 := congrFun ht 3
  refine ⟨t, flush1_3 t, ?_⟩
  rw [mem_block]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 16 ≤ (i 1).val ∧ (i 1).val < win1_3.index t (1 : Fin 4) * 16 + 16; omega
  | ⟨2, _⟩ => show win1_3.index t (2 : Fin 4) * 256 ≤ (i 2).val ∧ (i 2).val < win1_3.index t (2 : Fin 4) * 256 + 256; omega
  | ⟨3, _⟩ => show win1_3.index t (3 : Fin 4) * 64 ≤ (i 3).val ∧ (i 3).val < win1_3.index t (3 : Fin 4) * 64 + 64; omega

/-- What point \`t\` writes back is block \`t\` of the attention array of the arrays the region found. -/
theorem flushed_eq (c : Dev nD) (t : Fin cfg1.N) :
    (dat1 (F := Ideal) V c).flushed 3 t
      = ((cfg1.win 3).blk t).view.read (Elt Ideal) (attnArr (V c main_v8_0) (V c main_v8_1) (V c main_v8_2) scaleK) := by
  show (cfg1.win 3).cut (grid1.coords t) ((dat1 V c).after 3 t) = _
  rw [after1_3]
  obtain ⟨e00, e01, e02, e03, e10, e11, e12, e13, e20, e21, e22, e23, l0, z1, l2, z3⟩ := blockIndex_facts t
  -- the point's batch and the array row of each row of its tile
  have hb : win1_3.index t (0 : Fin 4) < 2 := by omega
  let b : Fin 2 := ⟨win1_3.index t (0 : Fin 4), hb⟩
  let row : Fin 256 → Fin 2048 := fun r => ⟨win1_3.index t (2 : Fin 4) * 256 + r.val, by have := r.isLt; omega⟩
  -- the query block holds the tile's rows of the point's batch
  have h0 : ∀ (h : Fin 16) (r : Fin 256) (d : Fin 64),
      (iblk1 V c 0 t : Vec Ideal S1x16x256x64 .bf16) (ix4 0 h r d) = (V c main_v8_0 : SH.Idx → EReal) (ix4 b h (row r) d) := by
    intro h r d
    unfold iblk1
    rw [View.read_apply]
    show V c main_v8_0 _ = V c main_v8_0 _
    congr 1
    funext a; apply Fin.ext
    match a with
    | ⟨0, _⟩ => show win1_0.index t (0 : Fin 4) * 1 + 1 * 0 = win1_3.index t (0 : Fin 4); omega
    | ⟨1, _⟩ => show win1_0.index t (1 : Fin 4) * 16 + 1 * h.val = h.val; omega
    | ⟨2, _⟩ => show win1_0.index t (2 : Fin 4) * 256 + 1 * r.val = win1_3.index t (2 : Fin 4) * 256 + r.val; omega
    | ⟨3, _⟩ => show win1_0.index t (3 : Fin 4) * 64 + 1 * d.val = d.val; omega
  -- the key and value blocks hold all rows of the point's batch
  have h1 : ∀ (h : Fin 16) (j : Fin 2048) (d : Fin 64),
      (iblk1 V c 1 t : Vec Ideal S1x16x2048x64 .bf16) (ix4 0 h j d) = (V c main_v8_1 : SH.Idx → EReal) (ix4 b h j d) := by
    intro h j d
    unfold iblk1
    rw [View.read_apply]
    show V c main_v8_1 _ = V c main_v8_1 _
    congr 1
    funext a; apply Fin.ext
    match a with
    | ⟨0, _⟩ => show win1_1.index t (0 : Fin 4) * 1 + 1 * 0 = win1_3.index t (0 : Fin 4); omega
    | ⟨1, _⟩ => show win1_1.index t (1 : Fin 4) * 16 + 1 * h.val = h.val; omega
    | ⟨2, _⟩ => show win1_1.index t (2 : Fin 4) * 2048 + 1 * j.val = j.val; omega
    | ⟨3, _⟩ => show win1_1.index t (3 : Fin 4) * 64 + 1 * d.val = d.val; omega
  have h2 : ∀ (h : Fin 16) (j : Fin 2048) (d : Fin 64),
      (iblk1 V c 2 t : Vec Ideal S1x16x2048x64 .bf16) (ix4 0 h j d) = (V c main_v8_2 : SH.Idx → EReal) (ix4 b h j d) := by
    intro h j d
    unfold iblk1
    rw [View.read_apply]
    show V c main_v8_2 _ = V c main_v8_2 _
    congr 1
    funext a; apply Fin.ext
    match a with
    | ⟨0, _⟩ => show win1_2.index t (0 : Fin 4) * 1 + 1 * 0 = win1_3.index t (0 : Fin 4); omega
    | ⟨1, _⟩ => show win1_2.index t (1 : Fin 4) * 16 + 1 * h.val = h.val; omega
    | ⟨2, _⟩ => show win1_2.index t (2 : Fin 4) * 2048 + 1 * j.val = j.val; omega
    | ⟨3, _⟩ => show win1_2.index t (3 : Fin 4) * 64 + 1 * d.val = d.val; omega
  funext y
  obtain ⟨y0, h, r, d, rfl⟩ : ∃ (y0 : Fin 1) (h : Fin 16) (r : Fin 256) (d : Fin 64), y = ix4 y0 h r d :=
    ⟨y 0, y 1, y 2, y 3, eq_ix4 (n0 := 1) (n1 := 16) (n2 := 256) (n3 := 64) y⟩
  obtain rfl : y0 = 0 := Subsingleton.elim _ _
  rw [View.read_apply]
  -- where the block's element sits in the array
  have hemb : ((cfg1.win 3).blk t).view.emb (ix4 (0 : Fin 1) h r d) = (ix4 b h (row r) d : SH.Idx) := by
    funext a; apply Fin.ext
    match a with
    | ⟨0, _⟩ => show win1_3.index t (0 : Fin 4) * 1 + 1 * 0 = win1_3.index t (0 : Fin 4); omega
    | ⟨1, _⟩ => show win1_3.index t (1 : Fin 4) * 16 + 1 * h.val = h.val; omega
    | ⟨2, _⟩ => show win1_3.index t (2 : Fin 4) * 256 + 1 * r.val = win1_3.index t (2 : Fin 4) * 256 + r.val; omega
    | ⟨3, _⟩ => show win1_3.index t (3 : Fin 4) * 64 + 1 * d.val = d.val; omega
  rw [hemb]
  exact block_eq (V c main_v8_0) (V c main_v8_1) (V c main_v8_2) (iblk1 V c 0 t) (iblk1 V c 1 t) (iblk1 V c 2 t) b row h0 h1 h2 h r d

theorem arr1_3 (c : Dev nD) :
    (dat1 (F := Ideal) V c).arrAt 3 cfg1.N = attnArr (V c main_v8_0) (V c main_v8_1) (V c main_v8_2) scaleK :=
  (dat1 (F := Ideal) V c).arrAt_eq_of_cover 3 (attnArr (V c main_v8_0) (V c main_v8_1) (V c main_v8_2) scaleK)
    (fun t _ => flushed_eq V c t) covered

end Cert.KernelIdeal.Array1

end
-- ==== Proof.HostPrep.lean ====
/-
  What region 0 finds: the host operations before it regroup the weight's channels from (head, feature, part) to
  (part, head, feature) and transpose it, regroup the bias the same way, and leave the other arguments alone.
-/
import proofs.«110812_j70660801954384_1_alg».proof.Proof.Gen.KernelIdeal.Frame
import proofs.«110812_j70660801954384_1_alg».proof.Proof.Spec
import Idealize.ShloMosaic.Lib.Pipeline.Value
import Idealize.ShloMosaic.Lib.StableHlo.Run

set_option maxRecDepth 16384

noncomputable section

namespace Cert.KernelIdeal.HostPrep

open Idealize.ShloMosaic Idealize.ShloMosaic.TcCoe Idealize.SL.Sem Idealize.ShloMosaic.ValueIdx
open Cert.KernelIdeal Cert.KernelIdeal.Gen Cert.Spec

variable (m : (ℓ : Loc nD τ sig) → Buf (Elt Ideal) ℓ) (ρ : Dev nD → PrngReg)

/-! ## The regrouping read at an index

The weight (original channel, input feature) is split as (head, feature, part, input feature), the part moved to the
front, flattened back to (regrouped channel, input feature) and transposed; the bias likewise without the input
feature. Regrouped channel `e` is (part `e / 1024`, head `e % 1024 / 64`, feature `e % 64`), so it came from the original
channel `(e % 1024 / 64) * 192 + (e % 64) * 3 + e / 1024`. -/

/-- The regrouped, transposed weight read at (input feature, regrouped channel): the original weight at the channel the
    regrouped one came from. -/
theorem w2_read (x : S3072x1024.Idx → EReal) (i : S1024x3072.Idx) :
    (truncf (F := Ideal) .bf16 (transpose S1024x3072 [1, 0] (shapeCast S3072x1024 (transpose S3x16x64x1024 [2, 0, 1, 3]
        (shapeCast S16x64x3x1024 x shapeCasts_S3072x1024_S16x64x3x1024) transposes_S16x64x3x1024_S3x16x64x1024_2_0_1_3)
        shapeCasts_S3x16x64x1024_S3072x1024) transposes_S3072x1024_S1024x3072_1_0) bitsLt_bf16_f32 : S1024x3072.Idx → EReal) i
      = x (ix2 (unperm ⟨(i 1).val, (i 1).isLt⟩) ⟨(i 0).val, (i 0).isLt⟩) := by
  have hk : (i 0).val < 1024 := (i 0).isLt
  have he : (i 1).val < 3072 := (i 1).isLt
  rw [truncf_apply]
  rw [transpose_apply [1, 0] _ transposes_S3072x1024_S1024x3072_1_0 i (ix2 ⟨(i 1).val, he⟩ ⟨(i 0).val, hk⟩)
    (fun b => match b with | ⟨0, _⟩ => rfl | ⟨1, _⟩ => rfl)]
  rw [shapeCast_apply _ shapeCasts_S3x16x64x1024_S3072x1024 (ix2 ⟨(i 1).val, he⟩ ⟨(i 0).val, hk⟩)
    (ix4 ⟨(i 1).val / 1024, by omega⟩ ⟨(i 1).val % 1024 / 64, by omega⟩ ⟨(i 1).val % 64, by omega⟩ ⟨(i 0).val, hk⟩)
    (by rewrite [Shape.rowMajor_val_four, Shape.rowMajor_val_two]
        show (((i 1).val / 1024 * 16 + (i 1).val % 1024 / 64) * 64 + (i 1).val % 64) * 1024 + (i 0).val = (i 1).val * 1024 + (i 0).val
        omega)]
  rw [transpose_apply [2, 0, 1, 3] _ transposes_S16x64x3x1024_S3x16x64x1024_2_0_1_3
    (ix4 ⟨(i 1).val / 1024, by omega⟩ ⟨(i 1).val % 1024 / 64, by omega⟩ ⟨(i 1).val % 64, by omega⟩ ⟨(i 0).val, hk⟩)
    (ix4 ⟨(i 1).val % 1024 / 64, by omega⟩ ⟨(i 1).val % 64, by omega⟩ ⟨(i 1).val / 1024, by omega⟩ ⟨(i 0).val, hk⟩)
    (fun b => match b with | ⟨0, _⟩ => rfl | ⟨1, _⟩ => rfl | ⟨2, _⟩ => rfl | ⟨3, _⟩ => rfl)]
  rw [shapeCast_apply _ shapeCasts_S3072x1024_S16x64x3x1024
    (ix4 ⟨(i 1).val % 1024 / 64, by omega⟩ ⟨(i 1).val % 64, by omega⟩ ⟨(i 1).val / 1024, by omega⟩ ⟨(i 0).val, hk⟩)
    (ix2 (unperm ⟨(i 1).val, he⟩) ⟨(i 0).val, hk⟩)
    (by rewrite [Shape.rowMajor_val_two, Shape.rowMajor_val_four]
        show ((i 1).val % 1024 / 64 * 192 + (i 1).val % 64 * 3 + (i 1).val / 1024) * 1024 + (i 0).val
          = (((i 1).val % 1024 / 64 * 64 + (i 1).val % 64) * 3 + (i 1).val / 1024) * 1024 + (i 0).val
        omega)]

/-- The regrouped bias read at a regrouped channel: the original bias at the channel it came from. -/
theorem b2_read (x : S3072.Idx → EReal) (i : S3072.Idx) :
    (shapeCast S3072 (transpose S3x16x64 [2, 0, 1] (shapeCast S16x64x3 x shapeCasts_S3072_S16x64x3)
        transposes_S16x64x3_S3x16x64_2_0_1) shapeCasts_S3x16x64_S3072 : S3072.Idx → EReal) i
      = x (ix1 (unperm ⟨(i 0).val, (i 0).isLt⟩)) := by
  have he : (i 0).val < 3072 := (i 0).isLt
  rw [shapeCast_apply _ shapeCasts_S3x16x64_S3072 i
    (ix3 ⟨(i 0).val / 1024, by omega⟩ ⟨(i 0).val % 1024 / 64, by omega⟩ ⟨(i 0).val % 64, by omega⟩)
    (by rewrite [Shape.rowMajor_val_three, Shape.rowMajor_val_one]
        show ((i 0).val / 1024 * 16 + (i 0).val % 1024 / 64) * 64 + (i 0).val % 64 = (i 0).val
        omega)]
  rw [transpose_apply [2, 0, 1] _ transposes_S16x64x3_S3x16x64_2_0_1
    (ix3 ⟨(i 0).val / 1024, by omega⟩ ⟨(i 0).val % 1024 / 64, by omega⟩ ⟨(i 0).val % 64, by omega⟩)
    (ix3 ⟨(i 0).val % 1024 / 64, by omega⟩ ⟨(i 0).val % 64, by omega⟩ ⟨(i 0).val / 1024, by omega⟩)
    (fun b => match b with | ⟨0, _⟩ => rfl | ⟨1, _⟩ => rfl | ⟨2, _⟩ => rfl)]
  rw [shapeCast_apply _ shapeCasts_S3072_S16x64x3
    (ix3 ⟨(i 0).val % 1024 / 64, by omega⟩ ⟨(i 0).val % 64, by omega⟩ ⟨(i 0).val / 1024, by omega⟩)
    (ix1 (unperm ⟨(i 0).val, he⟩))
    (by rewrite [Shape.rowMajor_val_one, Shape.rowMajor_val_three]
        show (i 0).val % 1024 / 64 * 192 + (i 0).val % 64 * 3 + (i 0).val / 1024
          = ((i 0).val % 1024 / 64 * 64 + (i 0).val % 64) * 3 + (i 0).val / 1024
        omega)]

/-! ## The arguments no host operation writes -/

theorem V1_arg0 (c : Dev nD) : V1 (F := Ideal) m ρ c main_arg0 = m ((c : Thread nD τ).loc main_arg0) :=
  calc V1 (F := Ideal) m ρ c main_arg0
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem V1_arg3 (c : Dev nD) : V1 (F := Ideal) m ρ c main_arg3 = m ((c : Thread nD τ).loc main_arg3) :=
  calc V1 (F := Ideal) m ρ c main_arg3
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem V1_arg4 (c : Dev nD) : V1 (F := Ideal) m ρ c main_arg4 = m ((c : Thread nD τ).loc main_arg4) :=
  calc V1 (F := Ideal) m ρ c main_arg4
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ## The regrouped weight and bias -/

/-- What the host operations leave in the weight's last buffer, as a term of the launch weight. -/
theorem V1_v4_term (c : Dev nD) : (V1 (F := Ideal) m ρ c main_v4 : S1024x3072.Idx → EReal) =
    (truncf (F := Ideal) .bf16 (transpose S1024x3072 [1, 0] (shapeCast S3072x1024 (transpose S3x16x64x1024 [2, 0, 1, 3]
      (shapeCast S16x64x3x1024 (m ((c : Thread nD τ).loc main_arg1) : S3072x1024.Idx → EReal) shapeCasts_S3072x1024_S16x64x3x1024)
      transposes_S16x64x3x1024_S3x16x64x1024_2_0_1_3) shapeCasts_S3x16x64x1024_S3072x1024)
      transposes_S3072x1024_S1024x3072_1_0) bitsLt_bf16_f32 : S1024x3072.Idx → EReal) := by
  dsimp only [V1, W1, hostOps0]
  after_results
  rfl

/-- What the host operations leave in the bias's last buffer, as a term of the launch bias. -/
theorem V1_v7_term (c : Dev nD) : (V1 (F := Ideal) m ρ c main_v7 : S3072.Idx → EReal) =
    (shapeCast S3072 (transpose S3x16x64 [2, 0, 1] (shapeCast S16x64x3 (m ((c : Thread nD τ).loc main_arg2) : S3072.Idx → EReal)
      shapeCasts_S3072_S16x64x3) transposes_S16x64x3_S3x16x64_2_0_1) shapeCasts_S3x16x64_S3072 : S3072.Idx → EReal) := by
  dsimp only [V1, W1, hostOps0]
  after_results
  rfl

theorem V1_v4 (c : Dev nD) : V1 (F := Ideal) m ρ c main_v4 = w2Arr (m ((c : Thread nD τ).loc main_arg1)) := by
  refine (V1_v4_term m ρ c).trans ?_
  funext i
  exact w2_read _ i

theorem V1_v7 (c : Dev nD) : V1 (F := Ideal) m ρ c main_v7 = b2Arr (m ((c : Thread nD τ).loc main_arg2)) := by
  refine (V1_v7_term m ρ c).trans ?_
  funext i
  exact b2_read _ i

end Cert.KernelIdeal.HostPrep

end
-- ==== Proof.KernelValue.lean ====
/-
  The kernel program's result as one function of its arguments: region 0's arrays from the prepared weight, region
  1's array from those, and the closing transpose and reshape that concatenate the heads.
-/
import proofs.«110812_j70660801954384_1_alg».proof.Proof.Array0
import proofs.«110812_j70660801954384_1_alg».proof.Proof.Array1
import proofs.«110812_j70660801954384_1_alg».proof.Proof.HostPrep
import proofs.«110812_j70660801954384_1_alg».proof.Proof.KernelRun

set_option maxRecDepth 16384

noncomputable section

namespace Cert.KernelIdeal.Value

open Idealize.ShloMosaic Idealize.ShloMosaic.TcCoe Idealize.SL.Sem Idealize.ShloMosaic.ValueIdx
open Cert.KernelIdeal Cert.KernelIdeal.Gen Cert.Spec
open Cert.KernelIdeal.Array0 Cert.KernelIdeal.Array1 Cert.KernelIdeal.HostPrep

/-- The closing host operations: (batch, head, row, feature) to (batch, row, head·64 + feature). -/
def tail (Y : Vec Ideal S2x16x2048x64 .f32) : Vec Ideal S2x2048x1024 .f32 :=
  shapeCast S2x2048x1024 (transpose S2x2048x16x64 [0, 2, 1, 3] Y transposes_S2x16x2048x64_S2x2048x16x64_0_2_1_3)
    shapeCasts_S2x2048x16x64_S2x2048x1024

variable (m : (ℓ : Loc nD τ sig) → Buf (Elt Ideal) ℓ) (ρ : Dev nD → PrngReg)

/-- The result array at the last boundary of @main. -/
theorem W4_result (c : Dev nD) :
    W4 (F := Ideal) m ρ c (Proc.devRef .tc main_v11)
      = tail (attnArr
          (qkRef 0 (m ((c : Thread nD τ).loc main_arg0)) (m ((c : Thread nD τ).loc main_arg1)) (m ((c : Thread nD τ).loc main_arg2)) (m ((c : Thread nD τ).loc main_arg3)))
          (qkRef 1 (m ((c : Thread nD τ).loc main_arg0)) (m ((c : Thread nD τ).loc main_arg1)) (m ((c : Thread nD τ).loc main_arg2)) (m ((c : Thread nD τ).loc main_arg4)))
          (vRef (m ((c : Thread nD τ).loc main_arg0)) (m ((c : Thread nD τ).loc main_arg1)) (m ((c : Thread nD τ).loc main_arg2)))
          scaleK) := by
  show StableHlo.after hostOps2 (W3 m ρ c) (Proc.devRef .tc main_v11) = _
  after_results
  have h9 : W3 (F := Ideal) m ρ c (Proc.devRef .tc main_v9)
      = attnArr
          (qkRef 0 (m ((c : Thread nD τ).loc main_arg0)) (m ((c : Thread nD τ).loc main_arg1)) (m ((c : Thread nD τ).loc main_arg2)) (m ((c : Thread nD τ).loc main_arg3)))
          (qkRef 1 (m ((c : Thread nD τ).loc main_arg0)) (m ((c : Thread nD τ).loc main_arg1)) (m ((c : Thread nD τ).loc main_arg2)) (m ((c : Thread nD τ).loc main_arg4)))
          (vRef (m ((c : Thread nD τ).loc main_arg0)) (m ((c : Thread nD τ).loc main_arg1)) (m ((c : Thread nD τ).loc main_arg2)))
          scaleK := by
    refine (W3_arr m ρ c 3).trans ?_
    rw [arr1_3 (V2 m ρ) c]
    have hq : V2 (F := Ideal) m ρ c main_v8_0
        = qkRef 0 (m ((c : Thread nD τ).loc main_arg0)) (m ((c : Thread nD τ).loc main_arg1)) (m ((c : Thread nD τ).loc main_arg2)) (m ((c : Thread nD τ).loc main_arg3)) := by
      refine (W2_arr m ρ c 5).trans ?_
      rw [arr0_5 (V1 m ρ) c, V1_arg0, V1_v4, V1_v7, V1_arg3, qkArr_prep]
    have hk : V2 (F := Ideal) m ρ c main_v8_1
        = qkRef 1 (m ((c : Thread nD τ).loc main_arg0)) (m ((c : Thread nD τ).loc main_arg1)) (m ((c : Thread nD τ).loc main_arg2)) (m ((c : Thread nD τ).loc main_arg4)) := by
      refine (W2_arr m ρ c 6).trans ?_
      rw [arr0_6 (V1 m ρ) c, V1_arg0, V1_v4, V1_v7, V1_arg4, qkArr_prep]
    have hv : V2 (F := Ideal) m ρ c main_v8_2
        = vRef (m ((c : Thread nD τ).loc main_arg0)) (m ((c : Thread nD τ).loc main_arg1)) (m ((c : Thread nD τ).loc main_arg2)) := by
      refine (W2_arr m ρ c 7).trans ?_
      rw [arr0_7 (V1 m ρ) c, V1_arg0, V1_v4, V1_v7, vArr_prep]
    rw [hq, hk, hv]
  rw [h9]
  rfl

end Cert.KernelIdeal.Value

end
-- ==== Proof.RefRead.lean ====
/-
  The reference program's run and its operations read one at a time, gathered for the modules that compare
  the reference's stages with the kernel's.
-/
import proofs.«110812_j70660801954384_1_alg».proof.Proof.Gen.ReferenceIdeal.Run
import proofs.«110812_j70660801954384_1_alg».proof.Proof.Gen.ReferenceIdeal.Read
-- ==== Proof.RefQKV.lean ====
/-
  The reference's queries, keys and values: its stages up to the per-head normalisation, read at
  (batch, head, row, feature), are the specification's arrays over the original weight layout.
-/
import proofs.«110812_j70660801954384_1_alg».proof.Proof.RefRead
import proofs.«110812_j70660801954384_1_alg».proof.Proof.Spec

set_option maxRecDepth 16384

noncomputable section

namespace Cert.ReferenceIdeal.RefQKV

open Idealize.ShloMosaic Idealize.ShloMosaic.TcCoe Idealize.SL.Sem Idealize.ShloMosaic.ValueIdx
open Cert.ReferenceIdeal Cert.ReferenceIdeal.Gen Cert.ReferenceIdeal.Read Cert.Spec

variable (x0 : (⟨S2x2048x1024, .f32⟩ : BufTy).Contents (Elt Ideal)) (x1 : (⟨S3072x1024, .f32⟩ : BufTy).Contents (Elt Ideal))
  (x2 : (⟨S3072, .f32⟩ : BufTy).Contents (Elt Ideal)) (x3 x4 : (⟨S64, .f32⟩ : BufTy).Contents (Elt Ideal))

/-- The flat position of (batch, row, head, feature, part) splits as (batch, row, original channel). -/
theorem split_idx (b : Fin 2) (h : Fin 16) (n : Fin 2048) (d : Fin 64) (j : Fin 3) :
    idx_main_v4 (idx_main_v5 (ix5 b h n d j)) = ix3 b n (chan h d j) := by
  have hb := b.isLt; have hh := h.isLt; have hn := n.isLt; have hd := d.isLt; have hj := j.isLt
  exact funext fun a => Fin.ext (by
    match a with
    | ⟨0, _⟩ => show ((((b.val * 2048 + n.val) * 16 + h.val) * 64 + d.val) * 3 + j.val) / 6291456 = b.val; omega
    | ⟨1, _⟩ => show ((((b.val * 2048 + n.val) * 16 + h.val) * 64 + d.val) * 3 + j.val) / 3072 % 2048 = n.val; omega
    | ⟨2, _⟩ => show ((((b.val * 2048 + n.val) * 16 + h.val) * 64 + d.val) * 3 + j.val) % 3072 = h.val * 192 + d.val * 3 + j.val; omega)

theorem lidx_ix3 (b : Fin 2) (n : Fin 2048) (e : Fin 3072) (k : Fin 1024) :
    lidx_main_v0 (ix3 b n e) k = ix3 b n k :=
  funext fun a => Fin.ext (by match a with | ⟨0, _⟩ => rfl | ⟨1, _⟩ => rfl | ⟨2, _⟩ => rfl)

theorem ridx_ix3 (b : Fin 2) (n : Fin 2048) (e : Fin 3072) (k : Fin 1024) :
    ridx_main_v0 (ix3 b n e) k = ix2 e k :=
  funext fun a => Fin.ext (by match a with | ⟨0, _⟩ => rfl | ⟨1, _⟩ => rfl)

theorem bidx_ix3 (b : Fin 2) (n : Fin 2048) (e : Fin 3072) :
    idx_main_v1 (idx_main_v2 (ix3 b n e)) = ix1 e :=
  funext fun a => Fin.ext (by match a with | ⟨0, _⟩ => rfl)

/-- The transposed projection at (batch, head, row, feature, part) is the specification's projection at the
    original channel of (head, feature, part). -/
theorem proj_at (b : Fin 2) (h : Fin 16) (n : Fin 2048) (d : Fin 64) (j : Fin 3) :
    val_main_v5 (F := Ideal) x0 x1 x2 (ix5 b h n d j) = projRef x0 x1 x2 b n (chan h d j) := by
  rw [val_main_v5_apply, val_main_v4_apply, split_idx, val_main_v3_apply, val_main_v0_apply, val_main_v2_apply,
    val_main_v1_apply, bidx_ix3]
  simp only [lidx_ix3, ridx_ix3, Ideal.addf_def]
  rfl

/-- Dropping the unit axis and taking part 0 of the last axis: the index (batch, head, row, feature) reads part 0. -/
theorem part0_idx (b : Fin 2) (h : Fin 16) (n : Fin 2048) (d : Fin 64) :
    idx_main_v6 (idx_main_v7 (ix4 b h n d)) = ix5 b h n d (0 : Fin 3) := by
  have hb := b.isLt; have hh := h.isLt; have hn := n.isLt; have hd := d.isLt
  exact funext fun a => Fin.ext (by
    match a with
    | ⟨0, _⟩ => show ((((b.val * 16 + h.val) * 2048 + n.val) * 64 + d.val)) / 2097152 = b.val; omega
    | ⟨1, _⟩ => show ((((b.val * 16 + h.val) * 2048 + n.val) * 64 + d.val)) / 131072 % 16 = h.val; omega
    | ⟨2, _⟩ => show ((((b.val * 16 + h.val) * 2048 + n.val) * 64 + d.val)) / 64 % 2048 = n.val; omega
    | ⟨3, _⟩ => show ((((b.val * 16 + h.val) * 2048 + n.val) * 64 + d.val)) / 1 % 64 = d.val; omega
    | ⟨4, _⟩ => rfl)

theorem part1_idx (b : Fin 2) (h : Fin 16) (n : Fin 2048) (d : Fin 64) :
    idx_main_v8 (idx_main_v9 (ix4 b h n d)) = ix5 b h n d (1 : Fin 3) := by
  have hb := b.isLt; have hh := h.isLt; have hn := n.isLt; have hd := d.isLt
  exact funext fun a => Fin.ext (by
    match a with
    | ⟨0, _⟩ => show ((((b.val * 16 + h.val) * 2048 + n.val) * 64 + d.val)) / 2097152 = b.val; omega
    | ⟨1, _⟩ => show ((((b.val * 16 + h.val) * 2048 + n.val) * 64 + d.val)) / 131072 % 16 = h.val; omega
    | ⟨2, _⟩ => show ((((b.val * 16 + h.val) * 2048 + n.val) * 64 + d.val)) / 64 % 2048 = n.val; omega
    | ⟨3, _⟩ => show ((((b.val * 16 + h.val) * 2048 + n.val) * 64 + d.val)) / 1 % 64 = d.val; omega
    | ⟨4, _⟩ => rfl)

theorem part2_idx (b : Fin 2) (h : Fin 16) (n : Fin 2048) (d : Fin 64) :
    idx_main_v10 (idx_main_v11 (ix4 b h n d)) = ix5 b h n d (2 : Fin 3) := by
  have hb := b.isLt; have hh := h.isLt; have hn := n.isLt; have hd := d.isLt
  exact funext fun a => Fin.ext (by
    match a with
    | ⟨0, _⟩ => show ((((b.val * 16 + h.val) * 2048 + n.val) * 64 + d.val)) / 2097152 = b.val; omega
    | ⟨1, _⟩ => show ((((b.val * 16 + h.val) * 2048 + n.val) * 64 + d.val)) / 131072 % 16 = h.val; omega
    | ⟨2, _⟩ => show ((((b.val * 16 + h.val) * 2048 + n.val) * 64 + d.val)) / 64 % 2048 = n.val; omega
    | ⟨3, _⟩ => show ((((b.val * 16 + h.val) * 2048 + n.val) * 64 + d.val)) / 1 % 64 = d.val; omega
    | ⟨4, _⟩ => rfl)

/-- The reference's unnormalised query, key and value entries are the projection's parts 0, 1, 2. -/
theorem part0_at (b : Fin 2) (h : Fin 16) (n : Fin 2048) (d : Fin 64) :
    val_main_v7 (F := Ideal) x0 x1 x2 (ix4 b h n d) = projRef x0 x1 x2 b n (chan h d 0) := by
  rw [val_main_v7_apply, val_main_v6_apply, part0_idx, proj_at]

theorem part1_at (b : Fin 2) (h : Fin 16) (n : Fin 2048) (d : Fin 64) :
    val_main_v9 (F := Ideal) x0 x1 x2 (ix4 b h n d) = projRef x0 x1 x2 b n (chan h d 1) := by
  rw [val_main_v9_apply, val_main_v8_apply, part1_idx, proj_at]

theorem part2_at (b : Fin 2) (h : Fin 16) (n : Fin 2048) (d : Fin 64) :
    val_main_v11 (F := Ideal) x0 x1 x2 (ix4 b h n d) = projRef x0 x1 x2 b n (chan h d 2) := by
  rw [val_main_v11_apply, val_main_v10_apply, part2_idx, proj_at]

/-- The query stage's sum runs over the features of the same (batch, head, row). -/
theorem sum_idx_q (b : Fin 2) (h : Fin 16) (n : Fin 2048) (d k : Fin 64) :
    idx_main_v13 (idx_main_v14 (idx_main_v20 (ix4 b h n d))) k = ix4 b h n k :=
  funext fun a => Fin.ext (by match a with | ⟨0, _⟩ => rfl | ⟨1, _⟩ => rfl | ⟨2, _⟩ => rfl | ⟨3, _⟩ => rfl)

/-- The query stage's weight is read at the feature. -/
theorem w_idx_q (b : Fin 2) (h : Fin 16) (n : Fin 2048) (d : Fin 64) :
    idx_main_v22 (idx_main_v23 (ix4 b h n d)) = ix1 d :=
  funext fun a => Fin.ext (by match a with | ⟨0, _⟩ => rfl)

theorem ref_q : val_main_v24 (F := Ideal) x0 x1 x2 x3 = qkRef 0 x0 x1 x2 x3 := by
  funext i
  obtain ⟨b, h, n, d, rfl⟩ : ∃ (b : Fin 2) (h : Fin 16) (n : Fin 2048) (d : Fin 64), i = ix4 b h n d :=
    ⟨i 0, i 1, i 2, i 3, eq_ix4 i⟩
  unfold qkRef
  rw [of4_ix4]
  unfold normHead
  rw [val_main_v24_apply, val_main_v21_apply, val_main_v20_apply, val_main_v19_apply, val_main_v18_apply,
    val_main_v16_apply, val_main_v14_apply, val_main_v13_apply, val_main_v15_apply, val_main_v17_apply,
    val_main_cst_apply, val_main_cst_0_apply, val_main_cst_1_apply, val_main_v23_apply, val_main_v22_apply,
    w_idx_q, part0_at]
  simp only [sum_idx_q, val_main_v12_apply, part0_at, Ideal.mulf_def, Ideal.addf_def, Ideal.hostDivf_def,
    Ideal.hostUnary_rsqrt_def, Ideal.ofBits_def, Ideal.ofBits_zero_f32, zero_add]

/-- The key stage's sum runs over the features of the same (batch, head, row). -/
theorem sum_idx_k (b : Fin 2) (h : Fin 16) (n : Fin 2048) (d k : Fin 64) :
    idx_main_v26 (idx_main_v27 (idx_main_v33 (ix4 b h n d))) k = ix4 b h n k :=
  funext fun a => Fin.ext (by match a with | ⟨0, _⟩ => rfl | ⟨1, _⟩ => rfl | ⟨2, _⟩ => rfl | ⟨3, _⟩ => rfl)

/-- The key stage's weight is read at the feature. -/
theorem w_idx_k (b : Fin 2) (h : Fin 16) (n : Fin 2048) (d : Fin 64) :
    idx_main_v35 (idx_main_v36 (ix4 b h n d)) = ix1 d :=
  funext fun a => Fin.ext (by match a with | ⟨0, _⟩ => rfl)

theorem ref_k : val_main_v37 (F := Ideal) x0 x1 x2 x4 = qkRef 1 x0 x1 x2 x4 := by
  funext i
  obtain ⟨b, h, n, d, rfl⟩ : ∃ (b : Fin 2) (h : Fin 16) (n : Fin 2048) (d : Fin 64), i = ix4 b h n d :=
    ⟨i 0, i 1, i 2, i 3, eq_ix4 i⟩
  unfold qkRef
  rw [of4_ix4]
  unfold normHead
  rw [val_main_v37_apply, val_main_v34_apply, val_main_v33_apply, val_main_v32_apply, val_main_v31_apply,
    val_main_v29_apply, val_main_v27_apply, val_main_v26_apply, val_main_v28_apply, val_main_v30_apply,
    val_main_cst_2_apply, val_main_cst_3_apply, val_main_cst_4_apply, val_main_v36_apply, val_main_v35_apply,
    w_idx_k, part1_at]
  simp only [sum_idx_k, val_main_v25_apply, part1_at, Ideal.mulf_def, Ideal.addf_def, Ideal.hostDivf_def,
    Ideal.hostUnary_rsqrt_def, Ideal.ofBits_def, Ideal.ofBits_zero_f32, zero_add]

theorem ref_v : val_main_v11 (F := Ideal) x0 x1 x2 = vRef x0 x1 x2 := by
  funext i
  obtain ⟨b, h, n, d, rfl⟩ : ∃ (b : Fin 2) (h : Fin 16) (n : Fin 2048) (d : Fin 64), i = ix4 b h n d :=
    ⟨i 0, i 1, i 2, i 3, eq_ix4 i⟩
  rw [part2_at]
  rfl

end Cert.ReferenceIdeal.RefQKV

end
-- ==== Proof.RefAttn.lean ====
/-
  The reference's attention stages, from the scores to the weighted values, read at (batch, head, row, feature):
  the specification's attention of the reference's own query, key and value arrays, with the scale spelt as the
  reciprocal of the root of 64.
-/
import proofs.«110812_j70660801954384_1_alg».proof.Proof.RefRead
import proofs.«110812_j70660801954384_1_alg».proof.Proof.Spec
import Idealize.ShloMosaic.PureOps.Reduce

set_option maxRecDepth 16384

noncomputable section

namespace Cert.ReferenceIdeal.RefAttn

open Idealize.ShloMosaic Idealize.ShloMosaic.TcCoe Idealize.SL.Sem Idealize.ShloMosaic.ValueIdx
open Cert.ReferenceIdeal Cert.ReferenceIdeal.Gen Cert.ReferenceIdeal.Read Cert.Spec

variable (x0 : (⟨S2x2048x1024, .f32⟩ : BufTy).Contents (Elt Ideal)) (x1 : (⟨S3072x1024, .f32⟩ : BufTy).Contents (Elt Ideal))
  (x2 : (⟨S3072, .f32⟩ : BufTy).Contents (Elt Ideal)) (x3 x4 : (⟨S64, .f32⟩ : BufTy).Contents (Elt Ideal))

/-- The broadcast scale is, at every index, the reciprocal of the root of 64. -/
theorem scale_apply (i : S2x16x2048x2048.Idx) : val_main_v41 (F := Ideal) i = scaleR := by
  rw [val_main_v41_apply, val_main_v39_apply, val_main_v38_apply, val_main_cst_5_apply, val_main_cst_6_apply]
  rfl

/-- The reference's scores of query row `n` of head `h` of batch `b`: the specification's scores of the reference's
    own normalised query row and key rows. -/
def srow (b : Fin 2) (h : Fin 16) (n : Fin 2048) : Fin 2048 → EReal :=
  scores (fun d' => val_main_v24 (F := Ideal) x0 x1 x2 x3 (ix4 b h n d'))
    (fun j' d' => val_main_v37 (F := Ideal) x0 x1 x2 x4 (ix4 b h j' d')) scaleR

/-- The scaled dot product of query row `n` with key row `j`. -/
theorem scores_apply (b : Fin 2) (h : Fin 16) (n j : Fin 2048) :
    val_main_v42 (F := Ideal) x0 x1 x2 x3 x4 (ix4 b h n j) = srow x0 x1 x2 x3 x4 b h n j := by
  rw [val_main_v42_apply, scale_apply, val_main_v40_apply]
  unfold srow scores
  refine congrArg (· * scaleR) (Finset.sum_congr rfl fun k _ => ?_)
  have el : lidx_main_v40 (ix4 b h n j) k = ix4 b h n k := funext fun a => Fin.ext (by
    match a with | ⟨0, _⟩ => rfl | ⟨1, _⟩ => rfl | ⟨2, _⟩ => rfl | ⟨3, _⟩ => rfl)
  have er : ridx_main_v40 (ix4 b h n j) k = ix4 b h j k := funext fun a => Fin.ext (by
    match a with | ⟨0, _⟩ => rfl | ⟨1, _⟩ => rfl | ⟨2, _⟩ => rfl | ⟨3, _⟩ => rfl)
  rw [el, er]

/-- Dropping the key-row axis of the score array leaves the (batch, head, row) shape. -/
theorem red3 : S2x16x2048x2048.Reduces [3] S2x16x2048 := by decide

/-- The reduction over the key rows is the fold of the maximum, from minus infinity, over the row's scores. -/
theorem max_apply (b : Fin 2) (h : Fin 16) (n : Fin 2048) :
    val_main_v43 (F := Ideal) x0 x1 x2 x3 x4 (ix3 b h n) = Finset.univ.fold max negInf (srow x0 x1 x2 x3 x4 b h n) := by
  unfold val_main_v43
  rw [Host.reduce_eq_fold_single FloatOps.maximumf _ _ reducesTo_S2x16x2048x2048_S2x16x2048_d3 red3 h_S_, val_main_cst_7_apply]
  show (Finset.univ : Finset (Fin 2048)).fold max negInf
      (fun k : Fin 2048 => val_main_v42 (F := Ideal) x0 x1 x2 x3 x4 (red3.lift (ix3 b h n) k)) = _
  refine congrArg (Finset.univ.fold max negInf) (funext fun k => ?_)
  have e : red3.lift (ix3 b h n) k = ix4 b h n k := funext fun a => Fin.ext (by
    match a with | ⟨0, _⟩ => rfl | ⟨1, _⟩ => rfl | ⟨2, _⟩ => rfl | ⟨3, _⟩ => rfl)
  rw [e]
  exact scores_apply x0 x1 x2 x3 x4 b h n k

/-- The row's maximum as the program takes it: the maximum of minus infinity and the fold. -/
theorem rowMax_apply (b : Fin 2) (h : Fin 16) (n : Fin 2048) :
    val_main_v45 (F := Ideal) x0 x1 x2 x3 x4 (ix3 b h n) = rowMax (srow x0 x1 x2 x3 x4 b h n) := by
  rw [val_main_v45_apply, val_main_v44_apply, val_main_cst_8_apply, max_apply]
  rfl

/-- The row's maximum broadcast along the key rows. -/
theorem shift_apply (b : Fin 2) (h : Fin 16) (n j : Fin 2048) :
    val_main_v47 (F := Ideal) x0 x1 x2 x3 x4 (ix4 b h n j) = rowMax (srow x0 x1 x2 x3 x4 b h n) := by
  rw [val_main_v47_apply, val_main_v46_apply]
  have e : idx_main_v46 (idx_main_v47 (ix4 b h n j)) = ix3 b h n := funext fun a => Fin.ext (by
    match a with | ⟨0, _⟩ => rfl | ⟨1, _⟩ => rfl | ⟨2, _⟩ => rfl)
  rw [e, rowMax_apply]

/-- The shifted exponential at key row `j`. -/
theorem expo_apply (b : Fin 2) (h : Fin 16) (n j : Fin 2048) :
    val_main_v49 (F := Ideal) x0 x1 x2 x3 x4 (ix4 b h n j) = expo (srow x0 x1 x2 x3 x4 b h n) j := by
  rw [val_main_v49_apply, val_main_v48_apply, scores_apply, shift_apply]
  rfl

/-- The row's sum of shifted exponentials. -/
theorem denom_apply (b : Fin 2) (h : Fin 16) (n : Fin 2048) :
    val_main_v50 (F := Ideal) x0 x1 x2 x3 x4 (ix3 b h n) = ∑ j : Fin 2048, expo (srow x0 x1 x2 x3 x4 b h n) j := by
  rw [val_main_v50_apply, val_main_cst_9_apply, Ideal.ofBits_def, Ideal.ofBits_zero_f32, zero_add]
  refine Finset.sum_congr rfl fun k _ => ?_
  have e : idx_main_v50 (ix3 b h n) k = ix4 b h n k := funext fun a => Fin.ext (by
    match a with | ⟨0, _⟩ => rfl | ⟨1, _⟩ => rfl | ⟨2, _⟩ => rfl | ⟨3, _⟩ => rfl)
  rw [e, expo_apply]

/-- The softmax weight of key row `j`. -/
theorem weight_apply (b : Fin 2) (h : Fin 16) (n j : Fin 2048) :
    val_main_v53 (F := Ideal) x0 x1 x2 x3 x4 (ix4 b h n j)
      = Ideal.div (expo (srow x0 x1 x2 x3 x4 b h n) j) (∑ j' : Fin 2048, expo (srow x0 x1 x2 x3 x4 b h n) j') := by
  rw [val_main_v53_apply, val_main_v52_apply, val_main_v51_apply, expo_apply]
  have e : idx_main_v51 (idx_main_v52 (ix4 b h n j)) = ix3 b h n := funext fun a => Fin.ext (by
    match a with | ⟨0, _⟩ => rfl | ⟨1, _⟩ => rfl | ⟨2, _⟩ => rfl)
  rw [e, denom_apply]
  rfl

/-- The weighted sum of the value rows at (batch, head, row, feature). -/
theorem attn_apply (b : Fin 2) (h : Fin 16) (n : Fin 2048) (d : Fin 64) :
    val_main_v54 (F := Ideal) x0 x1 x2 x3 x4 (ix4 b h n d)
      = attnHead (fun d' => val_main_v24 (F := Ideal) x0 x1 x2 x3 (ix4 b h n d'))
          (fun j d' => val_main_v37 (F := Ideal) x0 x1 x2 x4 (ix4 b h j d'))
          (fun j d' => val_main_v11 (F := Ideal) x0 x1 x2 (ix4 b h j d')) scaleR d := by
  rw [val_main_v54_apply]
  unfold attnHead
  refine Finset.sum_congr rfl fun k _ => ?_
  have el : lidx_main_v54 (ix4 b h n d) k = ix4 b h n k := funext fun a => Fin.ext (by
    match a with | ⟨0, _⟩ => rfl | ⟨1, _⟩ => rfl | ⟨2, _⟩ => rfl | ⟨3, _⟩ => rfl)
  have er : ridx_main_v54 (ix4 b h n d) k = ix4 b h k d := funext fun a => Fin.ext (by
    match a with | ⟨0, _⟩ => rfl | ⟨1, _⟩ => rfl | ⟨2, _⟩ => rfl | ⟨3, _⟩ => rfl)
  rw [el, er, weight_apply]
  rfl

theorem ref_attn :
    val_main_v54 (F := Ideal) x0 x1 x2 x3 x4
      = attnArr (val_main_v24 (F := Ideal) x0 x1 x2 x3) (val_main_v37 (F := Ideal) x0 x1 x2 x4) (val_main_v11 (F := Ideal) x0 x1 x2) scaleR := by
  funext i
  obtain ⟨b, h, n, d, rfl⟩ : ∃ (b : Fin 2) (h : Fin 16) (n : Fin 2048) (d : Fin 64), i = ix4 b h n d :=
    ⟨i 0, i 1, i 2, i 3, eq_ix4 i⟩
  unfold attnArr
  rw [of4_ix4]
  exact attn_apply x0 x1 x2 x3 x4 b h n d

end Cert.ReferenceIdeal.RefAttn

end
-- ==== Proof.lean ====
/-
  The certificate of the attention block: the projection kernel and the attention kernel against the plain
  reference, over the extended reals.

  The three frames: the two kernel programs' frames are the generated ones; the reference's is its run with the
  result dropped. The idealization rewrote nothing, so `preserves` is trivial. The algebraic claim: the kernel
  program's result array is the head-concatenating tail applied to the attention of the normalised queries and keys
  and the values, each as a function of the original weight (`Value.W4_result`: the regrouping of the weight's
  channels is undone inside); the reference's result is the same tail of its attention stages (`ref_attn`) of its
  own query, key and value stages (`ref_q`, `ref_k`, `ref_v`), its scale `1 / sqrt 64` being the kernel's
  literal one eighth (`scale_eq`).
-/
import proofs.«110812_j70660801954384_1_alg».proof.Defs
import proofs.«110812_j70660801954384_1_alg».proof.Proof.Gen.Kernel
import proofs.«110812_j70660801954384_1_alg».proof.Proof.Gen.Kernel.Skeleton
import proofs.«110812_j70660801954384_1_alg».proof.Proof.Gen.Kernel.Launch
import proofs.«110812_j70660801954384_1_alg».proof.Proof.Gen.Kernel.Points
import proofs.«110812_j70660801954384_1_alg».proof.Proof.Gen.Kernel.Frame
import proofs.«110812_j70660801954384_1_alg».proof.Proof.Gen.KernelIdeal
import proofs.«110812_j70660801954384_1_alg».proof.Proof.Gen.KernelIdeal.Skeleton
import proofs.«110812_j70660801954384_1_alg».proof.Proof.Gen.KernelIdeal.Launch
import proofs.«110812_j70660801954384_1_alg».proof.Proof.Gen.KernelIdeal.Points
import proofs.«110812_j70660801954384_1_alg».proof.Proof.Gen.KernelIdeal.Frame
import proofs.«110812_j70660801954384_1_alg».proof.Proof.Gen.ReferenceIdeal
import proofs.«110812_j70660801954384_1_alg».proof.Proof.Gen.Pre_finite_inputs
import proofs.«110812_j70660801954384_1_alg».proof.Proof.KernelValue
import proofs.«110812_j70660801954384_1_alg».proof.Proof.RefQKV
import proofs.«110812_j70660801954384_1_alg».proof.Proof.RefAttn
import Idealize.ShloMosaic.Adequacy
import Idealize.ShloMosaic.Init

set_option maxRecDepth 16384

noncomputable section

namespace Cert.Proof

open Idealize.ShloMosaic Idealize.ShloMosaic.TcCoe Idealize.SL.Sem

theorem frame_ri : Cert.frame_ReferenceIdeal := fun m ρ _ =>
  (θ_run Cert.ReferenceIdeal.defs _ _).mono (fun _ h c => (h c).2) (Cert.ReferenceIdeal.Value.run (F := Ideal) m ρ)

/-- The reference's result term is the tail of the specification's attention over the original weight. -/
theorem ref_result (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v56 m' c
      = Cert.KernelIdeal.Value.tail (Cert.Spec.attnArr
          (Cert.Spec.qkRef 0 (m' ((c.tc : Thread _ _).loc Cert.ReferenceIdeal.main_arg0)) (m' ((c.tc : Thread _ _).loc Cert.ReferenceIdeal.main_arg1)) (m' ((c.tc : Thread _ _).loc Cert.ReferenceIdeal.main_arg2)) (m' ((c.tc : Thread _ _).loc Cert.ReferenceIdeal.main_arg3)))
          (Cert.Spec.qkRef 1 (m' ((c.tc : Thread _ _).loc Cert.ReferenceIdeal.main_arg0)) (m' ((c.tc : Thread _ _).loc Cert.ReferenceIdeal.main_arg1)) (m' ((c.tc : Thread _ _).loc Cert.ReferenceIdeal.main_arg2)) (m' ((c.tc : Thread _ _).loc Cert.ReferenceIdeal.main_arg4)))
          (Cert.Spec.vRef (m' ((c.tc : Thread _ _).loc Cert.ReferenceIdeal.main_arg0)) (m' ((c.tc : Thread _ _).loc Cert.ReferenceIdeal.main_arg1)) (m' ((c.tc : Thread _ _).loc Cert.ReferenceIdeal.main_arg2)))
          Cert.Spec.scaleK) := by
  rw [Cert.ReferenceIdeal.Read.val_main_v56_eq]
  unfold Cert.ReferenceIdeal.Read.val_main_v56 Cert.ReferenceIdeal.Read.val_main_v55
  rw [Cert.ReferenceIdeal.RefAttn.ref_attn, Cert.ReferenceIdeal.RefQKV.ref_q, Cert.ReferenceIdeal.RefQKV.ref_k,
    Cert.ReferenceIdeal.RefQKV.ref_v, Cert.Spec.scale_eq]
  rfl

theorem algebraic : Cert.algebraic_KernelIdeal_ReferenceIdeal := by
  intro m ρ m' ρ' _ hagree
  refine ⟨fun c => Cert.KernelIdeal.Gen.W4 (F := Ideal) m ρ c (Proc.devRef .tc Cert.KernelIdeal.main_v11),
    Cert.KernelIdeal.Run.run (F := Ideal) m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v56 m' c
    = Cert.KernelIdeal.Gen.W4 (F := Ideal) m ρ c (Proc.devRef .tc Cert.KernelIdeal.main_v11)
  rw [ref_result, Cert.KernelIdeal.Value.W4_result, (hagree c).1, (hagree c).2.1, (hagree c).2.2.1, (hagree c).2.2.2.1,
    (hagree c).2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ri, trivial, algebraic⟩

end Cert.Proof

end
